-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S100000 : Shape := ⟨1, ![100000]⟩
abbrev S64x64 : Shape := ⟨2, ![64, 64]⟩
abbrev S64 : Shape := ⟨1, ![64]⟩
abbrev S64x8 : Shape := ⟨2, ![64, 8]⟩
abbrev S8 : Shape := ⟨1, ![8]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg6 : FVec F S64 .f32) (main_arg7 : FVec F S64x8 .f32) (main_arg8 : FVec F S8 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x8 .f32 := Host.absf main_arg7
  let main_cst_8 : FVec F S_ .f32 := constant S_ .f32 0x7F800000#32
  let main_v25 : FVec F S64x8 .f32 := broadcastInDim S64x8 ![] bcast_S_S64x8 main_cst_8
  let main_v26 : IVec S64x8 1 := cmpf .olt main_v24 main_v25
  let main_c_9 : IVec S_ 1 := constantI S_ 1 1#1
  let main_v27 : IVec S_ 1 := (fun x v => Host.reduce IntOp.andi x v reducesTo_S64x8_S_d0_1 h_S_) main_v26 main_c_9
  let main_v28 : IVec S_ 1 := andi main_v23 main_v27
  let main_v29 : FVec F S8 .f32 := Host.absf main_arg8
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  main_v33

def fn {F : FTy → Type} [FloatOps F] (main_arg0 : FVec F S100000x64 .f32) (main_arg1 : IVec S2x1250000 32) (main_arg2 : IVec S100000 32) (main_arg3 : FVec F S64x64 .f32) (main_arg4 : FVec F S64 .f32) (main_arg5 : FVec F S64x64 .f32) (main_arg6 : FVec F S64 .f32) (main_arg7 : FVec F S64x8 .f32) (main_arg8 : FVec F S8 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x64 : Shape := ⟨2, ![100000, 64]⟩
abbrev S2x1250000 : Shape := ⟨2, ![2, 1250000]⟩
abbrev S100000 : Shape := ⟨1, ![100000]⟩
abbrev S64x64 : Shape := ⟨2, ![64, 64]⟩
abbrev S64 : Shape := ⟨1, ![64]⟩
abbrev S64x8 : Shape := ⟨2, ![64, 8]⟩
abbrev S8 : Shape := ⟨1, ![8]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S100000x1 : Shape := ⟨2, ![100000, 1]⟩
abbrev S5000x64 : Shape := ⟨2, ![5000, 64]⟩
abbrev S1250000x64 : Shape := ⟨2, ![1250000, 64]⟩
abbrev S5000x1 : Shape := ⟨2, ![5000, 1]⟩
abbrev S1x64 : Shape := ⟨2, ![1, 64]⟩
abbrev S256x8 : Shape := ⟨2, ![256, 8]⟩
abbrev S256x1 : Shape := ⟨2, ![256, 1]⟩
abbrev S5000x8 : Shape := ⟨2, ![5000, 8]⟩
abbrev S1x8 : Shape := ⟨2, ![1, 8]⟩
abbrev S5000x256 : Shape := ⟨2, ![5000, 256]⟩
abbrev S256 : Shape := ⟨1, ![256]⟩

abbrev nBuf : Space → Nat
  | .hbm => 103
  | .vmem => 37
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x8, .f32⟩
  | .hbm, ⟨8, _⟩ => ⟨S8, .f32⟩
  | .hbm, ⟨9, _⟩ => ⟨S1x1250000, .i32⟩
  | .hbm, ⟨10, _⟩ => ⟨S1250000, .i32⟩
  | .hbm, ⟨11, _⟩ => ⟨S1x1250000, .i32⟩
  | .hbm, ⟨12, _⟩ => ⟨S1250000, .i32⟩
  | .hbm, ⟨13, _⟩ => ⟨S_, .f32⟩
  | .hbm, ⟨14, _⟩ => ⟨S1250000, .f32⟩
  | .hbm, ⟨15, _⟩ => ⟨S_, .f32⟩
  | .hbm, ⟨16, _⟩ => ⟨S100000, .f32⟩
  | .hbm, ⟨17, _⟩ => ⟨S_, .i32⟩
  | .hbm, ⟨18, _⟩ => ⟨S1250000, .i32⟩
  | .hbm, ⟨19, _⟩ => ⟨S1250000, .i1⟩
  | .hbm, ⟨20, _⟩ => ⟨S_, .i32⟩
  | .hbm, ⟨21, _⟩ => ⟨S1250000, .i32⟩
  | .hbm, ⟨22, _⟩ => ⟨S1250000, .i32⟩
  | .hbm, ⟨23, _⟩ => ⟨S1250000, .i32⟩
  | .hbm, ⟨24, _⟩ => ⟨S1250000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1250000, .i32⟩
  | .hbm, ⟨32, _⟩ => ⟨S1250000, .i1⟩
  | .hbm, ⟨33, _⟩ => ⟨S_, .i32⟩
  | .hbm, ⟨34, _⟩ => ⟨S1250000, .i32⟩
  | .hbm, ⟨35, _⟩ => ⟨S1250000, .i32⟩
  | .hbm, ⟨36, _⟩ => ⟨S1250000, .i32⟩
  | .hbm, ⟨37, _⟩ => ⟨S1250000x1, .i32⟩
  | .hbm, ⟨38, _⟩ => ⟨S1250000, .f32⟩
  | .hbm, ⟨39, _⟩ => ⟨S_, .i32⟩
  | .hbm, ⟨40, _⟩ => ⟨S1250000, .i32⟩
  | .hbm, ⟨41, _⟩ => ⟨S1250000, .i1⟩
  | .hbm, ⟨42, _⟩ => ⟨S_, .i32⟩
  | .hbm, ⟨43, _⟩ => ⟨S1250000, .i32⟩
  | .hbm, ⟨44, _⟩ => ⟨S1250000, .i32⟩
  | .hbm, ⟨45, _⟩ => ⟨S1250000, .i32⟩
  | .hbm, ⟨46, _⟩ => ⟨S1250000x1, .i32⟩
  | .hbm, ⟨47, _⟩ => ⟨S1250000, .f32⟩
  | .hbm, ⟨48, _⟩ => ⟨S1250000, .f32⟩
  | .hbm, ⟨49, _⟩ => ⟨S100000, .f32⟩
  | .hbm, ⟨50, _⟩ => ⟨S100000x1, .f32⟩
  | .hbm, ⟨51, _⟩ => ⟨S100000x1, .i32⟩
  | .hbm, ⟨52, _⟩ => ⟨S100000x64, .f32⟩
  | .hbm, ⟨53, _⟩ => ⟨S_, .i32⟩
  | .hbm, ⟨54, _⟩ => ⟨S1250000, .i32⟩
  | .hbm, ⟨55, _⟩ => ⟨S1250000, .i1⟩
  | .hbm, ⟨56, _⟩ => ⟨S_, .i32⟩
  | .hbm, ⟨57, _⟩ => ⟨S1250000, .i32⟩
  | .hbm, ⟨58, _⟩ => ⟨S1250000, .i32⟩
  | .hbm, ⟨59, _⟩ => ⟨S1250000, .i32⟩
  | .hbm, ⟨60, _⟩ => ⟨S1250000x1, .i32⟩
  | .hbm, ⟨61, _⟩ => ⟨S1250000x64, .f32⟩
  | .hbm, ⟨62, _⟩ => ⟨S1250000x1, .f32⟩
  | .hbm, ⟨63, _⟩ => ⟨S1250000x64, .f32⟩
  | .hbm, ⟨64, _⟩ => ⟨S1250000x64, .f32⟩
  | .hbm, ⟨65, _⟩ => ⟨S_, .f32⟩
  | .hbm, ⟨66, _⟩ => ⟨S100000x64, .f32⟩
  | .hbm, ⟨67, _⟩ => ⟨S_, .i32⟩
  | .hbm, ⟨68, _⟩ => ⟨S1250000, .i32⟩
  | .hbm, ⟨69, _⟩ => ⟨S1250000, .i1⟩
  | .hbm, ⟨70, _⟩ => ⟨S_, .i32⟩
  | .hbm, ⟨71, _⟩ => ⟨S1250000, .i32⟩
  | .hbm, ⟨72, _⟩ => ⟨S1250000, .i32⟩
  | .hbm, ⟨73, _⟩ => ⟨S1250000, .i32⟩
  | .hbm, ⟨74, _⟩ => ⟨S1250000x1, .i32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S_, .i32⟩
  | .hbm, ⟨79, _⟩ => ⟨S1250000, .i32⟩
  | .hbm, ⟨80, _⟩ => ⟨S1250000, .i1⟩
  | .hbm, ⟨81, _⟩ => ⟨S_, .i32⟩
  | .hbm, ⟨82, _⟩ => ⟨S1250000, .i32⟩
  | .hbm, ⟨83, _⟩ => ⟨S1250000, .i32⟩
  | .hbm, ⟨84, _⟩ => ⟨S1250000, .i32⟩
  | .hbm, ⟨85, _⟩ => ⟨S1250000x1, .i32⟩
  | .hbm, ⟨86, _⟩ => ⟨S1250000x64, .f32⟩
  | .hbm, ⟨87, _⟩ => ⟨S1250000x1, .f32⟩
  | .hbm, ⟨88, _⟩ => ⟨S1250000x64, .f32⟩
  | .hbm, ⟨89, _⟩ => ⟨S1250000x64, .f32⟩
  | .hbm, ⟨90, _⟩ => ⟨S_, .f32⟩
  | .hbm, ⟨91, _⟩ => ⟨S100000x64, .f32⟩
  | .hbm, ⟨92, _⟩ => ⟨S_, .i32⟩
  | .hbm, ⟨93, _⟩ => ⟨S1250000, .i32⟩
  | .hbm, ⟨94, _⟩ => ⟨S1250000, .i1⟩
  | .hbm, ⟨95, _⟩ => ⟨S_, .i32⟩
  | .hbm, ⟨96, _⟩ => ⟨S1250000, .i32⟩
  | .hbm, ⟨97, _⟩ => ⟨S1250000, .i32⟩
  | .hbm, ⟨98, _⟩ => ⟨S1250000, .i32⟩
  | .hbm, ⟨99, _⟩ => ⟨S1250000x1, .i32⟩
  | .hbm, ⟨100, _⟩ => ⟨S100000x64, .f32⟩
  | .hbm, ⟨101, _⟩ => ⟨S100000x64, .f32⟩
  | .hbm, ⟨102, _⟩ => ⟨S256x8, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x8, .f32⟩
  | .local _ .vmem, ⟨31, _⟩ => ⟨S8, .f32⟩
  | .local _ .vmem, ⟨32, _⟩ => ⟨S5000x1, .i32⟩
  | .local _ .vmem, ⟨33, _⟩ => ⟨S5000x1, .i32⟩
  | .local _ .vmem, ⟨34, _⟩ => ⟨S256x8, .f32⟩
  | .local _ .vmem, ⟨35, _⟩ => ⟨S256x8, .f32⟩
  | .local _ .vmem, ⟨36, _⟩ => ⟨S256x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_c_10 : Ref sig .tc := ⟨.hbm, 67, rfl⟩
abbrev main_v46 : Ref sig .tc := ⟨.hbm, 68, rfl⟩
abbrev main_v47 : Ref sig .tc := ⟨.hbm, 69, rfl⟩
abbrev main_c_11 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_12 : Ref sig .tc := ⟨.hbm, 78, rfl⟩
abbrev main_v55 : Ref sig .tc := ⟨.hbm, 79, rfl⟩
abbrev main_v56 : Ref sig .tc := ⟨.hbm, 80, rfl⟩
abbrev main_c_13 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_14 : Ref sig .tc := ⟨.hbm, 90, rfl⟩
abbrev main_v65 : Ref sig .tc := ⟨.hbm, 91, rfl⟩
abbrev main_c_15 : Ref sig .tc := ⟨.hbm, 92, rfl⟩
abbrev main_v66 : Ref sig .tc := ⟨.hbm, 93, rfl⟩
abbrev main_v67 : Ref sig .tc := ⟨.hbm, 94, rfl⟩
abbrev main_c_16 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc4_stg4_0 : Ref sig .tc := ⟨.vmem, 34, rfl⟩
abbrev cc4_scratch0 : Ref sig .tc := ⟨.vmem, 35, rfl⟩
abbrev cc4_scratch1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc4_sem4_0 : DmaSem sig := 34

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v35 : BitVec 1 := Scalar.cmpi .eq arg0 c19_i32
  let v36 : BitVec 32 := Scalar.extui v35
  let c0_i32_18 : BitVec 32 := 0#32
  let v37 : BitVec 1 := Scalar.cmpi .ne v36 c0_i32_18
  v37

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x8 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S8 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x1 .i32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S256x8 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S256x8_S256x8_0_0 : ∀ a, (![0, 0] : Fin 2 → Nat) a + S256x8.size a ≤ S256x8.size a
  h_S256x8 : 0 < S256x8.numel
  shapeCasts_S256x8_S256x8 : S256x8.ShapeCasts S256x8
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S64x8_S64x8_0_0 : ∀ a, (![0, 0] : Fin 2 → Nat) a + S64x8.size a ≤ S64x8.size a
  h_S64x8 : 0 < S64x8.numel
  inb_S8_S8_0 : ∀ a, (![0] : Fin 1 → Nat) a + S8.size a ≤ S8.size a
  h_S8 : 0 < S8.numel
  shapeCasts_S8_S1x8 : S8.ShapeCasts S1x8
  broadcasts_S1x8_S5000x8 : S1x8.Broadcasts S5000x8
  iota_S5000x256_d1_w32 : S5000x256.Iotas .tc 32 [1]
  broadcasts_S5000x1_S5000x256 : S5000x1.Broadcasts S5000x256
  natLt_1_32 : 1 < 32
  broadcasts_S256x1_S256x8 : S256x1.Broadcasts S256x8
  reduces_S256x8_S256 : S256x8.Reduces [1] S256
  shapeCasts_S256_S256x1 : S256.ShapeCasts S256x1
  scatter_S100000_S1250000x1_S1250000_n_0_0_1_wf : ScatterDims.WF S100000 S1250000x1 S1250000 [] [0] [0] 1
  gather_S100000_S1250000x1_S1250000_n_0_n_n_0_1_1_wf : GatherDims.WF S100000 S1250000x1 S1250000 [] [0] [] [0] [] 1 ![1]
  dot_S5000x64_S64x64_S5000x64_1_0_0_1_n_n_wf : DotDims.WF S5000x64 S64x64 S5000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S5000x64_S64x8_S5000x8_1_0_0_1_n_n_wf : DotDims.WF S5000x64 S64x8 S5000x8 [1] [0] [0] [1] [] []
  dot_S5000x256_S5000x8_S256x8_0_0_1_1_n_n_wf : DotDims.WF S5000x256 S5000x8 S256x8 [0] [0] [1] [1] [] []
  dot_S5000x256_S5000x1_S256x1_0_0_1_1_n_n_wf : DotDims.WF S5000x256 S5000x1 S256x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x8.size a ≤ S64x8.size a
  hwx4_1 : ∀ i : grid4.Coords, EltTy.bits .f32 = 32 ∨ (Rect.block (s := S64x8) S64x8.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S8.size a ≤ S8.size a
  hwx4_2 : ∀ i : grid4.Coords, EltTy.bits .f32 = 32 ∨ (Rect.block (s := S8) S8.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x1.size a ≤ S100000x1.size a
  hwx4_3 : ∀ i : grid4.Coords, EltTy.bits .i32 = 32 ∨ (Rect.block (s := S100000x1) S5000x1.size (cc4_transform_3 i) (hinb4_3 i)).WholeWords (EltTy.packing .i32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x8.size a ≤ S256x8.size a
  hwx4_4 : ∀ i : grid4.Coords, EltTy.bits .f32 = 32 ∨ (Rect.block (s := S256x8) S256x8.size (cc4_transform_4 i) (hinb4_4 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x64_S64x8_S5000x8_1_0_0_1_n_n : DotDims S5000x64 S64x8 S5000x8 where
  lhsContracting := [1]
  rhsContracting := [0]
  lhsNonContracting := [0]
  rhsNonContracting := [1]
  lhsBatch := []
  rhsBatch := []
  wf := dot_S5000x64_S64x8_S5000x8_1_0_0_1_n_n_wf
def dot_S5000x256_S5000x8_S256x8_0_0_1_1_n_n : DotDims S5000x256 S5000x8 S256x8 where
  lhsContracting := [0]
  rhsContracting := [0]
  lhsNonContracting := [1]
  rhsNonContracting := [1]
  lhsBatch := []
  rhsBatch := []
  wf := dot_S5000x256_S5000x8_S256x8_0_0_1_1_n_n_wf
def dot_S5000x256_S5000x1_S256x1_0_0_1_1_n_n : DotDims S5000x256 S5000x1 S256x1 where
  lhsContracting := [0]
  rhsContracting := [0]
  lhsNonContracting := [1]
  rhsNonContracting := [1]
  lhsBatch := []
  rhsBatch := []
  wf := dot_S5000x256_S5000x1_S256x1_0_0_1_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v53) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v72) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v32) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v73) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v73) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x8.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S8.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v33) S5000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v74) S256x8.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1250000 : Shape := ⟨2, ![2, 1250000]⟩
abbrev S100000 : Shape := ⟨1, ![100000]⟩
abbrev S64x64 : Shape := ⟨2, ![64, 64]⟩
abbrev S64 : Shape := ⟨1, ![64]⟩
abbrev S64x8 : Shape := ⟨2, ![64, 8]⟩
abbrev S8 : Shape := ⟨1, ![8]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000x1 : Shape := ⟨2, ![100000, 1]⟩
abbrev S1x64 : Shape := ⟨2, ![1, 64]⟩
abbrev S100000x8 : Shape := ⟨2, ![100000, 8]⟩
abbrev S1x8 : Shape := ⟨2, ![1, 8]⟩
abbrev S256x8 : Shape := ⟨2, ![256, 8]⟩
abbrev S256x1 : Shape := ⟨2, ![256, 1]⟩
abbrev S256 : Shape := ⟨1, ![256]⟩

abbrev nBuf : Space → Nat
  | .hbm => 180
  | .vmem => 0
  | .smem => 0
  | _ => 0

abbrev hbmTy0_0 (i : Nat) : BufTy := match i % 128 with
  | 0 => ⟨S100000x64, .f32⟩
  | 1 => ⟨S2x1250000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x8, .f32⟩
  | 8 => ⟨S8, .f32⟩
  | 9 => ⟨S1x1250000, .i32⟩
  | 10 => ⟨S1250000, .i32⟩
  | 11 => ⟨S1x1250000, .i32⟩
  | 12 => ⟨S1250000, .i32⟩
  | 13 => ⟨S100000x64, .f32⟩
  | 14 => ⟨S_, .f32⟩
  | 15 => ⟨S1250000, .f32⟩
  | 16 => ⟨S_, .f32⟩
  | 17 => ⟨S100000, .f32⟩
  | 18 => ⟨S_, .i32⟩
  | 19 => ⟨S1250000, .i32⟩
  | 20 => ⟨S1250000, .i1⟩
  | 21 => ⟨S_, .i32⟩
  | 22 => ⟨S1250000, .i32⟩
  | 23 => ⟨S1250000, .i32⟩
  | 24 => ⟨S1250000, .i32⟩
  | 25 => ⟨S1250000x1, .i32⟩
  | 26 => ⟨S100000, .f32⟩
  | 27 => ⟨S100000, .f32⟩
  | 28 => ⟨S_, .i32⟩
  | 29 => ⟨S1250000, .i32⟩
  | 30 => ⟨S1250000, .i1⟩
  | 31 => ⟨S_, .i32⟩
  | 32 => ⟨S1250000, .i32⟩
  | 33 => ⟨S1250000, .i32⟩
  | 34 => ⟨S1250000, .i32⟩
  | 35 => ⟨S1250000x1, .i32⟩
  | 36 => ⟨S1250000, .f32⟩
  | 37 => ⟨S_, .i32⟩
  | 38 => ⟨S1250000, .i32⟩
  | 39 => ⟨S1250000, .i1⟩
  | 40 => ⟨S_, .i32⟩
  | 41 => ⟨S1250000, .i32⟩
  | 42 => ⟨S1250000, .i32⟩
  | 43 => ⟨S1250000, .i32⟩
  | 44 => ⟨S1250000x1, .i32⟩
  | 45 => ⟨S1250000, .f32⟩
  | 46 => ⟨S1250000, .f32⟩
  | 47 => ⟨S_, .f32⟩
  | 48 => ⟨S100000x64, .f32⟩
  | 49 => ⟨S_, .i32⟩
  | 50 => ⟨S1250000, .i32⟩
  | 51 => ⟨S1250000, .i1⟩
  | 52 => ⟨S_, .i32⟩
  | 53 => ⟨S1250000, .i32⟩
  | 54 => ⟨S1250000, .i32⟩
  | 55 => ⟨S1250000, .i32⟩
  | 56 => ⟨S1250000x1, .i32⟩
  | 57 => ⟨S1250000x64, .f32⟩
  | 58 => ⟨S1250000x1, .f32⟩
  | 59 => ⟨S1250000x64, .f32⟩
  | 60 => ⟨S1250000x64, .f32⟩
  | 61 => ⟨S_, .i32⟩
  | 62 => ⟨S1250000, .i32⟩
  | 63 => ⟨S1250000, .i1⟩
  | 64 => ⟨S_, .i32⟩
  | 65 => ⟨S1250000, .i32⟩
  | 66 => ⟨S1250000, .i32⟩
  | 67 => ⟨S1250000, .i32⟩
  | 68 => ⟨S1250000x1, .i32⟩
  | 69 => ⟨S100000x64, .f32⟩
  | 70 => ⟨S100000, .f32⟩
  | 71 => ⟨S100000x1, .f32⟩
  | 72 => ⟨S100000x64, .f32⟩
  | 73 => ⟨S100000x64, .f32⟩
  | 74 => ⟨S100000x64, .f32⟩
  | 75 => ⟨S1x64, .f32⟩
  | 76 => ⟨S100000x64, .f32⟩
  | 77 => ⟨S100000x64, .f32⟩
  | 78 => ⟨S_, .f32⟩
  | 79 => ⟨S100000x64, .f32⟩
  | 80 => ⟨S100000x64, .f32⟩
  | 81 => ⟨S100000x64, .f32⟩
  | 82 => ⟨S_, .f32⟩
  | 83 => ⟨S1250000, .f32⟩
  | 84 => ⟨S_, .f32⟩
  | 85 => ⟨S100000, .f32⟩
  | 86 => ⟨S_, .i32⟩
  | 87 => ⟨S1250000, .i32⟩
  | 88 => ⟨S1250000, .i1⟩
  | 89 => ⟨S_, .i32⟩
  | 90 => ⟨S1250000, .i32⟩
  | 91 => ⟨S1250000, .i32⟩
  | 92 => ⟨S1250000, .i32⟩
  | 93 => ⟨S1250000x1, .i32⟩
  | 94 => ⟨S100000, .f32⟩
  | 95 => ⟨S100000, .f32⟩
  | 96 => ⟨S_, .i32⟩
  | 97 => ⟨S1250000, .i32⟩
  | 98 => ⟨S1250000, .i1⟩
  | 99 => ⟨S_, .i32⟩
  | 100 => ⟨S1250000, .i32⟩
  | 101 => ⟨S1250000, .i32⟩
  | 102 => ⟨S1250000, .i32⟩
  | 103 => ⟨S1250000x1, .i32⟩
  | 104 => ⟨S1250000, .f32⟩
  | 105 => ⟨S_, .i32⟩
  | 106 => ⟨S1250000, .i32⟩
  | 107 => ⟨S1250000, .i1⟩
  | 108 => ⟨S_, .i32⟩
  | 109 => ⟨S1250000, .i32⟩
  | 110 => ⟨S1250000, .i32⟩
  | 111 => ⟨S1250000, .i32⟩
  | 112 => ⟨S1250000x1, .i32⟩
  | 113 => ⟨S1250000, .f32⟩
  | 114 => ⟨S1250000, .f32⟩
  | 115 => ⟨S_, .f32⟩
  | 116 => ⟨S100000x64, .f32⟩
  | 117 => ⟨S_, .i32⟩
  | 118 => ⟨S1250000, .i32⟩
  | 119 => ⟨S1250000, .i1⟩
  | 120 => ⟨S_, .i32⟩
  | 121 => ⟨S1250000, .i32⟩
  | 122 => ⟨S1250000, .i32⟩
  | 123 => ⟨S1250000, .i32⟩
  | 124 => ⟨S1250000x1, .i32⟩
  | 125 => ⟨S1250000x64, .f32⟩
  | 126 => ⟨S1250000x1, .f32⟩
  | 127 => ⟨S1250000x64, .f32⟩
  | _ => ⟨S100000x64, .f32⟩

abbrev hbmTy0_1 (i : Nat) : BufTy := match i % 128 with
  | 0 => ⟨S1250000x64, .f32⟩
  | 1 => ⟨S_, .i32⟩
  | 2 => ⟨S1250000, .i32⟩
  | 3 => ⟨S1250000, .i1⟩
  | 4 => ⟨S_, .i32⟩
  | 5 => ⟨S1250000, .i32⟩
  | 6 => ⟨S1250000, .i32⟩
  | 7 => ⟨S1250000, .i32⟩
  | 8 => ⟨S1250000x1, .i32⟩
  | 9 => ⟨S100000x64, .f32⟩
  | 10 => ⟨S100000, .f32⟩
  | 11 => ⟨S100000x1, .f32⟩
  | 12 => ⟨S100000x64, .f32⟩
  | 13 => ⟨S100000x64, .f32⟩
  | 14 => ⟨S100000x64, .f32⟩
  | 15 => ⟨S1x64, .f32⟩
  | 16 => ⟨S100000x64, .f32⟩
  | 17 => ⟨S100000x64, .f32⟩
  | 18 => ⟨S100000x8, .f32⟩
  | 19 => ⟨S1x8, .f32⟩
  | 20 => ⟨S100000x8, .f32⟩
  | 21 => ⟨S100000x8, .f32⟩
  | 22 => ⟨S_, .f32⟩
  | 23 => ⟨S256x8, .f32⟩
  | 24 => ⟨S100000x1, .i32⟩
  | 25 => ⟨S256x8, .f32⟩
  | 26 => ⟨S_, .f32⟩
  | 27 => ⟨S100000x1, .f32⟩
  | 28 => ⟨S_, .f32⟩
  | 29 => ⟨S256x1, .f32⟩
  | 30 => ⟨S100000x1, .i32⟩
  | 31 => ⟨S256x1, .f32⟩
  | 32 => ⟨S_, .f32⟩
  | 33 => ⟨S256x1, .f32⟩
  | 34 => ⟨S256x1, .f32⟩
  | 35 => ⟨S256x8, .f32⟩
  | 36 => ⟨S256x8, .f32⟩
  | 37 => ⟨S_, .f32⟩
  | 38 => ⟨S256, .f32⟩
  | 39 => ⟨S_, .f32⟩
  | 40 => ⟨S256, .f32⟩
  | 41 => ⟨S256, .f32⟩
  | 42 => ⟨S256x1, .f32⟩
  | 43 => ⟨S256x8, .f32⟩
  | 44 => ⟨S256x8, .f32⟩
  | 45 => ⟨S256x8, .f32⟩
  | 46 => ⟨S_, .f32⟩
  | 47 => ⟨S256, .f32⟩
  | 48 => ⟨S256x1, .f32⟩
  | 49 => ⟨S256x1, .f32⟩
  | 50 => ⟨S256x8, .f32⟩
  | 51 => ⟨S256x8, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_c_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_9 : Ref sig .tc := ⟨.hbm, 61, rfl⟩
abbrev main_v41 : Ref sig .tc := ⟨.hbm, 62, rfl⟩
abbrev main_v42 : Ref sig .tc := ⟨.hbm, 63, rfl⟩
abbrev main_c_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_call0_cst : Ref sig .tc := ⟨.hbm, 78, rfl⟩
abbrev main_call0_v0 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_c_13 : Ref sig .tc := ⟨.hbm, 86, rfl⟩
abbrev main_v60 : Ref sig .tc := ⟨.hbm, 87, rfl⟩
abbrev main_v61 : Ref sig .tc := ⟨.hbm, 88, rfl⟩
abbrev main_c_14 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_15 : Ref sig .tc := ⟨.hbm, 96, rfl⟩
abbrev main_v68 : Ref sig .tc := ⟨.hbm, 97, rfl⟩
abbrev main_v69 : Ref sig .tc := ⟨.hbm, 98, rfl⟩
abbrev main_c_16 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_17 : Ref sig .tc := ⟨.hbm, 105, rfl⟩
abbrev main_v75 : Ref sig .tc := ⟨.hbm, 106, rfl⟩
abbrev main_v76 : Ref sig .tc := ⟨.hbm, 107, rfl⟩
abbrev main_c_18 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_19 : Ref sig .tc := ⟨.hbm, 115, rfl⟩
abbrev main_v83 : Ref sig .tc := ⟨.hbm, 116, rfl⟩
abbrev main_c_20 : Ref sig .tc := ⟨.hbm, 117, rfl⟩
abbrev main_v84 : Ref sig .tc := ⟨.hbm, 118, rfl⟩
abbrev main_v85 : Ref sig .tc := ⟨.hbm, 119, rfl⟩
abbrev main_c_21 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_c_22 : Ref sig .tc := ⟨.hbm, 129, rfl⟩
abbrev main_v94 : Ref sig .tc := ⟨.hbm, 130, rfl⟩
abbrev main_v95 : Ref sig .tc := ⟨.hbm, 131, rfl⟩
abbrev main_c_23 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_24 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_cst_25 : Ref sig .tc := ⟨.hbm, 154, rfl⟩
abbrev main_v116 : Ref sig .tc := ⟨.hbm, 155, rfl⟩
abbrev main_cst_26 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_27 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_call1_cst : Ref sig .tc := ⟨.hbm, 165, rfl⟩
abbrev main_call1_v0 : Ref sig .tc := ⟨.hbm, 166, rfl⟩
abbrev main_call1_cst_0 : Ref sig .tc := ⟨.hbm, 167, rfl⟩
abbrev main_call1_v1 : Ref sig .tc := ⟨.hbm, 168, rfl⟩
abbrev main_call1_v2 : Ref sig .tc := ⟨.hbm, 169, rfl⟩
abbrev main_call1_v3 : Ref sig .tc := ⟨.hbm, 170, rfl⟩
abbrev main_call1_v4 : Ref sig .tc := ⟨.hbm, 171, rfl⟩
abbrev main_call1_v5 : Ref sig .tc := ⟨.hbm, 172, rfl⟩
abbrev main_call1_v6 : Ref sig .tc := ⟨.hbm, 173, rfl⟩
abbrev main_call1_cst_1 : Ref sig .tc := ⟨.hbm, 174, rfl⟩
abbrev main_call1_v7 : Ref sig .tc := ⟨.hbm, 175, rfl⟩
abbrev main_call1_v8 : Ref sig .tc := ⟨.hbm, 176, rfl⟩
abbrev main_call1_v9 : Ref sig .tc := ⟨.hbm, 177, rfl⟩
abbrev main_call1_v10 : Ref sig .tc := ⟨.hbm, 178, rfl⟩
abbrev main_v124 : Ref sig .tc := ⟨.hbm, 179, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S1250000x1_S1250000x64_0_1 : S1250000x1.BroadcastsInDim S1250000x64 (![0, 1] : Fin 2 → Fin S1250000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S_S256x8 : S_.BroadcastsInDim S256x8 (![] : Fin 0 → Fin S256x8.rank)
  bcast_S_S100000x1 : S_.BroadcastsInDim S100000x1 (![] : Fin 0 → Fin S100000x1.rank)
  bcast_S_S256x1 : S_.BroadcastsInDim S256x1 (![] : Fin 0 → Fin S256x1.rank)
  bcast_S256x1_S256x8_0_1 : S256x1.BroadcastsInDim S256x8 (![0, 1] : Fin 2 → Fin S256x8.rank)
  reducesTo_S256x8_S256_d1 : S256x8.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  dot_S100000x64_S64x64_S100000x64_1_0_0_1_n_n_wf : DotDims.WF S100000x64 S64x64 S100000x64 [1] [0] [0] [1] [] []
  scatter_S100000_S1250000x1_S1250000_n_0_0_1_wf : ScatterDims.WF S100000 S1250000x1 S1250000 [] [0] [0] 1
  gather_S100000_S1250000x1_S1250000_n_0_n_n_0_1_1_wf : GatherDims.WF S100000 S1250000x1 S1250000 [] [0] [] [0] [] 1 ![1]
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x8_S100000x8_1_0_0_1_n_n_wf : DotDims.WF S100000x64 S64x8 S100000x8 [1] [0] [0] [1] [] []
  scatter_S256x8_S100000x1_S100000x8_1_0_0_1_wf : ScatterDims.WF S256x8 S100000x1 S100000x8 [1] [0] [0] 1
  scatter_S256x1_S100000x1_S100000x1_1_0_0_1_wf : ScatterDims.WF S256x1 S100000x1 S100000x1 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x8_S100000x8_1_0_0_1_n_n : DotDims S100000x64 S64x8 S100000x8 where
  lhsContracting := [1]
  rhsContracting := [0]
  lhsNonContracting := [0]
  rhsNonContracting := [1]
  lhsBatch := []
  rhsBatch := []
  wf := dot_S100000x64_S64x8_S100000x8_1_0_0_1_n_n_wf
def scatter_S256x8_S100000x1_S100000x8_1_0_0_1 : ScatterDims S256x8 S100000x1 S100000x8 where
  updateWindowDims := [1]
  insertedWindowDims := [0]
  scatterDimsToOperandDims := [0]
  indexVectorDim := 1
  wf := scatter_S256x8_S100000x1_S100000x8_1_0_0_1_wf
def scatter_S256x1_S100000x1_S100000x1_1_0_0_1 : ScatterDims S256x1 S100000x1 S100000x1 where
  updateWindowDims := [1]
  insertedWindowDims := [0]
  scatterDimsToOperandDims := [0]
  indexVectorDim := 1
  wf := scatter_S256x1_S100000x1_S100000x1_1_0_0_1_wf

class Facts : Prop extends Facts₀ where

variable [Facts]
-- ==== Proof.KB.R0.lean ====
/- Region 0 of the program: the first dense projection, one row block of `x` (5000 x 64) times the whole weight
   matrix (64 x 64) per grid point, the product stored whole into the output block. Stated for ANY contents `V` of
   the core's buffers at the region's entry: which block of which array each window holds at a point, what the
   body leaves in the output window's buffer as a function of the two input blocks, and that the body, run on
   buffers holding those blocks, ends with the output buffer at that function of them — at every grid point. -/
import proofs.«415612_j18743237280393_1_alg».proof.Proof.Gen.Kernel.Launch
import proofs.«415612_j18743237280393_1_alg».proof.Proof.Gen.Kernel.Skeleton
import proofs.«415612_j18743237280393_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` works on, read off the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, fetched there or not (the weight matrix is fetched
    once: its block index never moves), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rX0 : Rect S5000x64 := Rect.unit (s := S5000x64) ![0, 0] S5000x64.size inb_S5000x64_S5000x64_0_0
abbrev rW0 : Rect S64x64 := Rect.unit (s := S64x64) ![0, 0] S64x64.size inb_S64x64_S64x64_0_0

/-- What the body leaves in the output window's buffer: the product of the row block and the weights. -/
def out0 (x0 : Vec F S5000x64 .f32) (x1 : Vec F S64x64 .f32) : Vec F S5000x64 .f32 :=
  View.canon [⟨rX0, k0_pay1 (View.ld x0 rX0) (View.ld x1 rW0)⟩]

theorem cover0 (p0 : Vec F S5000x64 .f32) (y : S5000x64.Idx) :
    ∃ pc ∈ ([⟨rX0, p0⟩] : List (View.Piece (Elt F) S5000x64 .f32)), y ∈ pc.1.set :=
  View.cover_of_tiled [⟨rX0, p0⟩] S5000x64.size (by rfl) y

set_option maxHeartbeats 1000000 in
/-- The body on whole buffers, the inputs at `x0`, `x1`, the output at anything: it ends with the inputs as they
    were and the output at `out0 x0 x1`. -/
theorem sound_kernel0 (c : Dev nD) (E : Set ℕ) (i : grid0.Coords) (a0 : Memref sig .tc .vmem S5000x64 .f32) (ha0 : a0.IsWhole)
    (a1 : Memref sig .tc .vmem S64x64 .f32) (ha1 : a1.IsWhole) (a2 : Memref sig .tc .vmem S5000x64 .f32) (ha2 : a2.IsWhole)
    (x0 : Vec F S5000x64 .f32) (x1 : Vec F S64x64 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out0 x0 x1)) -∗ K ⟨⟩))
      ⊢ wp frame (wpE (defs₀ (F := F)) Variants.none c none) E (cc0__matmul_kernel i a0 ha0 a1 ha1 a2 ha2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-- The proof data of this region on core `c`: the arrays as the region finds them; after the body each input
    buffer still at its block, the output buffer at the product of the two blocks; the region's invariant the
    untouched scoped rest and generator register; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is handed at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of this region, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.R1.lean ====
/- Region 1 of the program: the first combine step, on one row block (5000 x 64) per grid point: the aggregated
   block plus the feature block scaled row by row by the squared inverse root degree column, plus the bias row,
   clamped below at zero, stored whole into the output block. Stated for ANY contents `V` of the core's buffers at
   the region's entry: which block of which array each window holds at a point, what the body leaves in the output
   window's buffer as a function of the four input blocks, and that the body, run on buffers holding those blocks,
   ends with the output buffer at that function of them — at every grid point. -/
import proofs.«415612_j18743237280393_1_alg».proof.Proof.Gen.Kernel.Launch
import proofs.«415612_j18743237280393_1_alg».proof.Proof.Gen.Kernel.Skeleton
import proofs.«415612_j18743237280393_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` works on, read off the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, fetched there or not (the bias row is fetched
    once: its block index never moves), for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rX1 : Rect S5000x64 := Rect.unit (s := S5000x64) ![0, 0] S5000x64.size inb_S5000x64_S5000x64_0_0
abbrev rC1 : Rect S5000x1 := Rect.unit (s := S5000x1) ![0, 0] S5000x1.size inb_S5000x1_S5000x1_0_0
abbrev rB1 : Rect S64 := Rect.unit (s := S64) ![0] S64.size inb_S64_S64_0

/-- What the body leaves in the output window's buffer: the aggregated block plus the row-scaled feature block
    plus the bias row, clamped below at zero. -/
def out1 (x0 x1 : Vec F S5000x64 .f32) (x2 : Vec F S5000x1 .f32) (x3 : Vec F S64 .f32) : Vec F S5000x64 .f32 :=
  View.canon [⟨rX1, k1_pay1 (View.ld x0 rX1) (View.ld x1 rX1) (View.ld x2 rC1) (View.ld x3 rB1)⟩]

theorem cover1 (p0 : Vec F S5000x64 .f32) (y : S5000x64.Idx) :
    ∃ pc ∈ ([⟨rX1, p0⟩] : List (View.Piece (Elt F) S5000x64 .f32)), y ∈ pc.1.set :=
  View.cover_of_tiled [⟨rX1, p0⟩] S5000x64.size (by rfl) y

set_option maxHeartbeats 1000000 in
/-- The body on whole buffers, the inputs at `x0` … `x3`, the output at anything: it ends with the inputs as they
    were and the output at `out1 x0 x1 x2 x3`. -/
theorem sound_kernel1 (c : Dev nD) (E : Set ℕ) (i : grid1.Coords) (a0 : Memref sig .tc .vmem S5000x64 .f32) (ha0 : a0.IsWhole)
    (a1 : Memref sig .tc .vmem S5000x64 .f32) (ha1 : a1.IsWhole) (a2 : Memref sig .tc .vmem S5000x1 .f32) (ha2 : a2.IsWhole)
    (a3 : Memref sig .tc .vmem S64 .f32) (ha3 : a3.IsWhole) (a4 : Memref sig .tc .vmem S5000x64 .f32) (ha4 : a4.IsWhole)
    (x0 x1 : Vec F S5000x64 .f32) (x2 : Vec F S5000x1 .f32) (x3 : Vec F S64 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ (∃ d, owns (c : Thread nD τ) a4 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare (out1 x0 x1 x2 x3)) -∗ K ⟨⟩))
      ⊢ wp frame (wpE (defs₀ (F := F)) Variants.none c none) E (cc1__combine_kernel i a0 ha0 a1 ha1 a2 ha2 a3 ha3 a4 ha4) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

/-- The proof data of this region on core `c`: the arrays as the region finds them; after the body each input
    buffer still at its block, the output buffer at the combination of the four blocks; the region's invariant the
    untouched scoped rest and generator register; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1 (iblk1 V c 0 t) (iblk1 V c 1 t) (iblk1 V c 2 t) (iblk1 V c 3 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is handed at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of this region, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.R2.lean ====
/- Region 2 of the program: the second dense projection, one row block of the first layer's output (5000 x 64) times the whole weight
   matrix (64 x 64) per grid point, the product stored whole into the output block. Stated for ANY contents `V` of
   the core's buffers at the region's entry: which block of which array each window holds at a point, what the
   body leaves in the output window's buffer as a function of the two input blocks, and that the body, run on
   buffers holding those blocks, ends with the output buffer at that function of them — at every grid point. -/
import proofs.«415612_j18743237280393_1_alg».proof.Proof.Gen.Kernel.Launch
import proofs.«415612_j18743237280393_1_alg».proof.Proof.Gen.Kernel.Skeleton
import proofs.«415612_j18743237280393_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` works on, read off the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's buffer holds its block at every point, fetched there or not (the weight matrix is fetched
    once: its block index never moves), for any proof data over `V` whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rX2 : Rect S5000x64 := Rect.unit (s := S5000x64) ![0, 0] S5000x64.size inb_S5000x64_S5000x64_0_0
abbrev rW2 : Rect S64x64 := Rect.unit (s := S64x64) ![0, 0] S64x64.size inb_S64x64_S64x64_0_0

/-- What the body leaves in the output window's buffer: the product of the row block and the weights. -/
def out2 (x0 : Vec F S5000x64 .f32) (x1 : Vec F S64x64 .f32) : Vec F S5000x64 .f32 :=
  View.canon [⟨rX2, k2_pay1 (View.ld x0 rX2) (View.ld x1 rW2)⟩]

theorem cover2 (p0 : Vec F S5000x64 .f32) (y : S5000x64.Idx) :
    ∃ pc ∈ ([⟨rX2, p0⟩] : List (View.Piece (Elt F) S5000x64 .f32)), y ∈ pc.1.set :=
  View.cover_of_tiled [⟨rX2, p0⟩] S5000x64.size (by rfl) y

set_option maxHeartbeats 1000000 in
/-- The body on whole buffers, the inputs at `x0`, `x1`, the output at anything: it ends with the inputs as they
    were and the output at `out2 x0 x1`. -/
theorem sound_kernel2 (c : Dev nD) (E : Set ℕ) (i : grid2.Coords) (a0 : Memref sig .tc .vmem S5000x64 .f32) (ha0 : a0.IsWhole)
    (a1 : Memref sig .tc .vmem S64x64 .f32) (ha1 : a1.IsWhole) (a2 : Memref sig .tc .vmem S5000x64 .f32) (ha2 : a2.IsWhole)
    (x0 : Vec F S5000x64 .f32) (x1 : Vec F S64x64 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out2 x0 x1)) -∗ K ⟨⟩))
      ⊢ wp frame (wpE (defs₀ (F := F)) Variants.none c none) E (cc2__matmul_kernel i a0 ha0 a1 ha1 a2 ha2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The proof data of this region on core `c`: the arrays as the region finds them; after the body each input
    buffer still at its block, the output buffer at the product of the two blocks; the region's invariant the
    untouched scoped rest and generator register; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 (iblk2 V c 0 t) (iblk2 V c 1 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is handed at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of this region, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.R3.lean ====
/- Region 3 of the program: the second combine step, on one row block (5000 x 64) per grid point: the aggregated
   block plus the feature block scaled row by row by the squared inverse root degree column, plus the bias row
   (no clamp here), stored whole into the output block. Stated for ANY contents `V` of the core's buffers at
   the region's entry: which block of which array each window holds at a point, what the body leaves in the output
   window's buffer as a function of the four input blocks, and that the body, run on buffers holding those blocks,
   ends with the output buffer at that function of them — at every grid point. -/
import proofs.«415612_j18743237280393_1_alg».proof.Proof.Gen.Kernel.Launch
import proofs.«415612_j18743237280393_1_alg».proof.Proof.Gen.Kernel.Skeleton
import proofs.«415612_j18743237280393_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` works on, read off the entry contents. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's buffer holds its block at every point, fetched there or not (the bias row is fetched
    once: its block index never moves), for any proof data over `V` whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev rX3 : Rect S5000x64 := Rect.unit (s := S5000x64) ![0, 0] S5000x64.size inb_S5000x64_S5000x64_0_0
abbrev rC3 : Rect S5000x1 := Rect.unit (s := S5000x1) ![0, 0] S5000x1.size inb_S5000x1_S5000x1_0_0
abbrev rB3 : Rect S64 := Rect.unit (s := S64) ![0] S64.size inb_S64_S64_0

/-- What the body leaves in the output window's buffer: the aggregated block plus the row-scaled feature block
    plus the bias row, clamped below at zero. -/
def out3 (x0 x1 : Vec F S5000x64 .f32) (x2 : Vec F S5000x1 .f32) (x3 : Vec F S64 .f32) : Vec F S5000x64 .f32 :=
  View.canon [⟨rX3, k3_pay1 (View.ld x0 rX3) (View.ld x1 rX3) (View.ld x2 rC3) (View.ld x3 rB3)⟩]

theorem cover3 (p0 : Vec F S5000x64 .f32) (y : S5000x64.Idx) :
    ∃ pc ∈ ([⟨rX3, p0⟩] : List (View.Piece (Elt F) S5000x64 .f32)), y ∈ pc.1.set :=
  View.cover_of_tiled [⟨rX3, p0⟩] S5000x64.size (by rfl) y

set_option maxHeartbeats 1000000 in
/-- The body on whole buffers, the inputs at `x0` … `x3`, the output at anything: it ends with the inputs as they
    were and the output at `out3 x0 x1 x2 x3`. -/
theorem sound_kernel3 (c : Dev nD) (E : Set ℕ) (i : grid3.Coords) (a0 : Memref sig .tc .vmem S5000x64 .f32) (ha0 : a0.IsWhole)
    (a1 : Memref sig .tc .vmem S5000x64 .f32) (ha1 : a1.IsWhole) (a2 : Memref sig .tc .vmem S5000x1 .f32) (ha2 : a2.IsWhole)
    (a3 : Memref sig .tc .vmem S64 .f32) (ha3 : a3.IsWhole) (a4 : Memref sig .tc .vmem S5000x64 .f32) (ha4 : a4.IsWhole)
    (x0 x1 : Vec F S5000x64 .f32) (x2 : Vec F S5000x1 .f32) (x3 : Vec F S64 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ (∃ d, owns (c : Thread nD τ) a4 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare (out3 x0 x1 x2 x3)) -∗ K ⟨⟩))
      ⊢ wp frame (wpE (defs₀ (F := F)) Variants.none c none) E (cc3__combine_kernel i a0 ha0 a1 ha1 a2 ha2 a3 ha3 a4 ha4) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3 _)

/-- The proof data of this region on core `c`: the arrays as the region finds them; after the body each input
    buffer still at its block, the output buffer at the combination of the four blocks; the region's invariant the
    untouched scoped rest and generator register; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3 (iblk3 V c 0 t) (iblk3 V c 1 t) (iblk3 V c 2 t) (iblk3 V c 3 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is handed at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of this region, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Fold.lean ====
/- The contents of the core's buffers at each boundary between two items of @main, as a fold from the launch
   memory: a stretch of host operations applies them in order; a kernel region replaces each of its windows' arrays
   by what the region's write-backs leave there (an input array: what it held; an output array: the blocks the
   grid points wrote) and leaves every other buffer alone. Each region's proof data are taken at the contents the
   fold gives at that region's entry. The last region's proof data are a parameter here (any family of proof data
   over the entry contents), so that this module does not depend on that region's particulars. -/
import proofs.«415612_j18743237280393_1_alg».proof.Proof.Gen.Kernel.Regions
import proofs.«415612_j18743237280393_1_alg».proof.Proof.KB.R0
import proofs.«415612_j18743237280393_1_alg».proof.Proof.KB.R1
import proofs.«415612_j18743237280393_1_alg».proof.Proof.KB.R2
import proofs.«415612_j18743237280393_1_alg».proof.Proof.KB.R3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A region's proof data as a function of the contents the region is entered at. -/
abbrev DatOf (cfg : Pipeline.Cfg sig Λ₀) : Type :=
  ((c : Dev nD) → (b : Ref sig .tc) → Buf (Elt F) ((c : Thread nD τ).loc b)) → (c : Dev nD) → Dat τ (Elt F) Unit ℕ (UR sig nD τ) ℕ cfg c

variable (d4 : DatOf (F := F) cfg4)
variable (m : (ℓ : Loc nD τ sig) → Buf (Elt F) ℓ)

/-! ## The fold -/

/-- At launch. -/
abbrev W0 (c : Dev nD) : Valuation τ sig (Elt F) := fun b => m (c, b)
/-- After the first stretch of host operations: region 0's entry. -/
abbrev W1 (c : Dev nD) : Valuation τ sig (Elt F) := StableHlo.after hostOps0 (W0 m c)
abbrev E0 (c : Dev nD) (b : Ref sig .tc) : Buf (Elt F) ((c : Thread nD τ).loc b) := W1 m c b
/-- After region 0. -/
def W2 (c : Dev nD) : Valuation τ sig (Elt F) :=
  Pipeline.withArrays spec0 c (W1 m c) fun w => (dat0 (E0 m) c).arrAt w cfg0.N
/-- After the second stretch: region 1's entry. -/
abbrev W3 (c : Dev nD) : Valuation τ sig (Elt F) := StableHlo.after hostOps1 (W2 m c)
abbrev E1 (c : Dev nD) (b : Ref sig .tc) : Buf (Elt F) ((c : Thread nD τ).loc b) := W3 m c b
/-- After region 1: region 2's entry. -/
def W4 (c : Dev nD) : Valuation τ sig (Elt F) :=
  Pipeline.withArrays spec1 c (W3 m c) fun w => (dat1 (E1 m) c).arrAt w cfg1.N
abbrev E2 (c : Dev nD) (b : Ref sig .tc) : Buf (Elt F) ((c : Thread nD τ).loc b) := W4 m c b
/-- After region 2. -/
def W5 (c : Dev nD) : Valuation τ sig (Elt F) :=
  Pipeline.withArrays spec2 c (W4 m c) fun w => (dat2 (E2 m) c).arrAt w cfg2.N
/-- After the third stretch: region 3's entry. -/
abbrev W6 (c : Dev nD) : Valuation τ sig (Elt F) := StableHlo.after hostOps3 (W5 m c)
abbrev E3 (c : Dev nD) (b : Ref sig .tc) : Buf (Elt F) ((c : Thread nD τ).loc b) := W6 m c b
/-- After region 3: region 4's entry. -/
def W7 (c : Dev nD) : Valuation τ sig (Elt F) :=
  Pipeline.withArrays spec3 c (W6 m c) fun w => (dat3 (E3 m) c).arrAt w cfg3.N
abbrev E4 (c : Dev nD) (b : Ref sig .tc) : Buf (Elt F) ((c : Thread nD τ).loc b) := W7 m c b
/-- After region 4: the end. -/
def W8 (c : Dev nD) : Valuation τ sig (Elt F) :=
  Pipeline.withArrays spec4 c (W7 m c) fun w => (d4 (E4 m) c).arrAt w cfg4.N

/-! ## A region's arrays after it, and every other buffer -/

theorem W2_arr (c : Dev nD) (w : Fin cfg0.W) :
    W2 m c (Proc.devRef .tc (Pipeline.arrRef spec0 w)) = (dat0 (E0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (dat1 (E1 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W5_arr (c : Dev nD) (w : Fin cfg2.W) :
    W5 m c (Proc.devRef .tc (Pipeline.arrRef spec2 w)) = (dat2 (E2 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
theorem W7_arr (c : Dev nD) (w : Fin cfg3.W) :
    W7 m c (Proc.devRef .tc (Pipeline.arrRef spec3 w)) = (dat3 (E3 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
theorem W8_arr (c : Dev nD) (w : Fin cfg4.W) :
    W8 d4 m c (Proc.devRef .tc (Pipeline.arrRef spec4 w)) = (d4 (E4 m) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 d4 m c (Proc.devRef .tc b) = W7 m c (Proc.devRef .tc b) := by
  unfold W8; exact Pipeline.withArrays_of_ne spec4 c _ _ b hb

/-- A buffer no operation of a stretch writes keeps its contents through the stretch. -/
theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W6_of (c : Dev nD) (r : Ref sig .tc) (h : r ∉ hostOps3_W) : W6 m c r = W5 m c r :=
  StableHlo.after_of_writes_sub hostOps3 _ hostOps3_writes h

/-- A region changes its output array only: an input array reads back as it was entered, and every buffer that
    is no array of the region passes through untouched. -/
theorem W2_keep (c : Dev nD) (r : Ref sig .tc) (hr : r ≠ main_v34) : W2 m c r = W1 m c r := by
  by_cases h : ∃ w, Pipeline.arrRef spec0 w = r
  · obtain ⟨w, rfl⟩ := h
    match w with
    | ⟨0, _⟩ => exact (W2_arr m c 0).trans (((dat0 (E0 m) c).arrAt_in 0 rfl _).trans (A_eq0 (E0 m) c 0))
    | ⟨1, _⟩ => exact (W2_arr m c 1).trans (((dat0 (E0 m) c).arrAt_in 1 rfl _).trans (A_eq0 (E0 m) c 1))
    | ⟨2, _⟩ => exact absurd rfl hr
  · exact W2_of_ne m c r (fun w e => h ⟨w, e⟩)
theorem W4_keep (c : Dev nD) (r : Ref sig .tc) (hr : r ≠ main_v53) : W4 m c r = W3 m c r := by
  by_cases h : ∃ w, Pipeline.arrRef spec1 w = r
  · obtain ⟨w, rfl⟩ := h
    match w with
    | ⟨0, _⟩ => exact (W4_arr m c 0).trans (((dat1 (E1 m) c).arrAt_in 0 rfl _).trans (A_eq1 (E1 m) c 0))
    | ⟨1, _⟩ => exact (W4_arr m c 1).trans (((dat1 (E1 m) c).arrAt_in 1 rfl _).trans (A_eq1 (E1 m) c 1))
    | ⟨2, _⟩ => exact (W4_arr m c 2).trans (((dat1 (E1 m) c).arrAt_in 2 rfl _).trans (A_eq1 (E1 m) c 2))
    | ⟨3, _⟩ => exact (W4_arr m c 3).trans (((dat1 (E1 m) c).arrAt_in 3 rfl _).trans (A_eq1 (E1 m) c 3))
    | ⟨4, _⟩ => exact absurd rfl hr
  · exact W4_of_ne m c r (fun w e => h ⟨w, e⟩)
theorem W5_keep (c : Dev nD) (r : Ref sig .tc) (hr : r ≠ main_v54) : W5 m c r = W4 m c r := by
  by_cases h : ∃ w, Pipeline.arrRef spec2 w = r
  · obtain ⟨w, rfl⟩ := h
    match w with
    | ⟨0, _⟩ => exact (W5_arr m c 0).trans (((dat2 (E2 m) c).arrAt_in 0 rfl _).trans (A_eq2 (E2 m) c 0))
    | ⟨1, _⟩ => exact (W5_arr m c 1).trans (((dat2 (E2 m) c).arrAt_in 1 rfl _).trans (A_eq2 (E2 m) c 1))
    | ⟨2, _⟩ => exact absurd rfl hr
  · exact W5_of_ne m c r (fun w e => h ⟨w, e⟩)
theorem W7_keep (c : Dev nD) (r : Ref sig .tc) (hr : r ≠ main_v73) : W7 m c r = W6 m c r := by
  by_cases h : ∃ w, Pipeline.arrRef spec3 w = r
  · obtain ⟨w, rfl⟩ := h
    match w with
    | ⟨0, _⟩ => exact (W7_arr m c 0).trans (((dat3 (E3 m) c).arrAt_in 0 rfl _).trans (A_eq3 (E3 m) c 0))
    | ⟨1, _⟩ => exact (W7_arr m c 1).trans (((dat3 (E3 m) c).arrAt_in 1 rfl _).trans (A_eq3 (E3 m) c 1))
    | ⟨2, _⟩ => exact (W7_arr m c 2).trans (((dat3 (E3 m) c).arrAt_in 2 rfl _).trans (A_eq3 (E3 m) c 2))
    | ⟨3, _⟩ => exact (W7_arr m c 3).trans (((dat3 (E3 m) c).arrAt_in 3 rfl _).trans (A_eq3 (E3 m) c 3))
    | ⟨4, _⟩ => exact absurd rfl hr
  · exact W7_of_ne m c r (fun w e => h ⟨w, e⟩)
theorem W8_keep (hA4 : ∀ V c w, (d4 V c).A w = V c (Pipeline.arrRef spec4 w)) (c : Dev nD) (r : Ref sig .tc) (hr : r ≠ main_v74) :
    W8 d4 m c r = W7 m c r := by
  by_cases h : ∃ w, Pipeline.arrRef spec4 w = r
  · obtain ⟨w, rfl⟩ := h
    match w with
    | ⟨0, _⟩ => exact (W8_arr d4 m c 0).trans (((d4 (E4 m) c).arrAt_in 0 rfl _).trans (hA4 (E4 m) c 0))
    | ⟨1, _⟩ => exact (W8_arr d4 m c 1).trans (((d4 (E4 m) c).arrAt_in 1 rfl _).trans (hA4 (E4 m) c 1))
    | ⟨2, _⟩ => exact (W8_arr d4 m c 2).trans (((d4 (E4 m) c).arrAt_in 2 rfl _).trans (hA4 (E4 m) c 2))
    | ⟨3, _⟩ => exact (W8_arr d4 m c 3).trans (((d4 (E4 m) c).arrAt_in 3 rfl _).trans (hA4 (E4 m) c 3))
    | ⟨4, _⟩ => exact absurd rfl hr
  · exact W8_of_ne d4 m c r (fun w e => h ⟨w, e⟩)

/-- A buffer that no stretch writes and that is no region's output array reaches the end as launched:
    an argument array, for one. -/
theorem W8_kept (hA4 : ∀ V c w, (d4 V c).A w = V c (Pipeline.arrRef spec4 w)) (c : Dev nD) (r : Ref sig .tc)
    (h0 : r ∉ hostOps0_W) (h1 : r ∉ hostOps1_W) (h3 : r ∉ hostOps3_W)
    (hr : r ∉ ([main_v34, main_v53, main_v54, main_v73, main_v74] : List (Ref sig .tc))) :
    W8 d4 m c r = m ((c : Thread nD τ).loc r) := by
  have hne : ∀ x ∈ ([main_v34, main_v53, main_v54, main_v73, main_v74] : List (Ref sig .tc)), r ≠ x := fun x hx e => hr (e ▸ hx)
  calc W8 d4 m c r
      _ = W7 m c r := W8_keep d4 m hA4 c r (hne _ (by simp))
      _ = W6 m c r := W7_keep m c r (hne _ (by simp))
      _ = W5 m c r := W6_of m c r h3
      _ = W4 m c r := W5_keep m c r (hne _ (by simp))
      _ = W3 m c r := W4_keep m c r (hne _ (by simp))
      _ = W2 m c r := W3_of m c r h1
      _ = W1 m c r := W2_keep m c r (hne _ (by simp))
      _ = W0 m c r := W1_of m c r h0
      _ = m ((c : Thread nD τ).loc r) := rfl

/-! ## The proof data family, and what rides beside the buffers through every item -/

/-- Every pallas_call's proof data, each at the contents the fold gives at its region's entry. -/
def pdats : (p : Fin 5) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
  | ⟨3, _⟩ => fun c => dat3 (E3 m) c
  | ⟨4, _⟩ => fun c => d4 (E4 m) c

/-- What the last region's proof data must satisfy for the run below: its arrays are the entry contents, its body
    obligation holds, its invariant starts from and ends in the scoped rest and the generator register, and it
    owes nothing at full shares, with no bound on the pairs its waits record. -/
structure LastFacts : Prop where
  hA : ∀ V c w, (d4 V c).A w = V c (Pipeline.arrRef spec4 w)
  hbody : ∀ V c, BodyObligation (d4 V c) (defs₀ (F := F)) Variants.none () Set.univ
  hin : ∀ V c, Pipeline.ΦA spec4 c ⊢ (d4 V c).Φ 0
  hout : ∀ V c, (d4 V c).Φ (Fin.last cfg4.N) ⊢ Pipeline.ΦA spec4 c
  howed : ∀ V c t, (d4 V c).owed t = 0
  hq : ∀ V c w, (d4 V c).q w = fullShare
  hrec : ∀ V c t, (d4 V c).recorded t = Set.univ

abbrev 𝒱₀ : Variants := Variants.none
/-- No core owes another anything: no level is assigned. -/
abbrev L : GSem nD τ sig → Finset Unit := fun _ => ∅
abbrev lv : GSem nD τ sig → Unit → ℕ := fun _ _ => 0
/-- Beside the buffers: the core's generator register at some state, and its dues, none. -/
abbrev R (c : Dev nD) : sProp 𝕄 := iprop((∃ r, prngReg c r) ∗ ∃ W, owes (c : Thread nD τ) (0 : CellTallies nD τ sig Unit) W)
/-- A stretch of host operations as a segment over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.KB.Seg0.lean ====
/- Region 0 of the program as one item of the run: entered with every unscoped buffer of the core at the contents
   the fold gives before it, left with them at the contents the fold gives after it. At entry the region's arrays
   are taken out of the unscoped buffers and the generator register goes into the region's invariant; at exit the
   arrays come back at what the write-backs left, the register comes back, and every other buffer is as it was. -/
import proofs.«415612_j18743237280393_1_alg».proof.Proof.KB.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (d4 : DatOf (F := F) cfg4)
variable (m : (ℓ : Loc nD τ sig) → Buf (Elt F) ℓ)

/-- At the region's exit each of its arrays holds what the write-backs leave, -/
theorem hF0 (c : Dev nD) (w : Fin cfg0.W) :
    (dat0 (E0 m) c).arrAt w cfg0.N = (fun b : Ref sig .tc => W2 m c b) (Pipeline.arrRef spec0 w) :=
  (W2_arr m c w).symm
/-- and every buffer that is none of its arrays what it held at entry. -/
theorem hrest0 (c : Dev nD) : ∀ b, b ∉ Finset.univ.image (Pipeline.arrRef spec0) → (fun b : Ref sig .tc => W2 m c b) b = E0 m c b :=
  fun b hb => W2_of_ne m c b fun w e => hb (Finset.mem_image.mpr ⟨w, Finset.mem_univ _, e⟩)

set_option backward.isDefEq.respectTransparency.types false in
/-- The region over the thread state "every unscoped buffer at the boundary's contents, the generator register at
    some state, nothing owed": no semaphore of the kernel's own, nothing owed at any point, full shares. -/
def reg0 : Pipeline.RegionSeg (pcfgs (F := F)) adm (pdats d4 m) () defs₀ 𝒱₀ L lv
    0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats d4 m) launch0.win launch0.arr_whole c
      ((pdats d4 m 0 c).share_full fun _ => rfl) (E0 m c) fun w => A_eq0 (E0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats d4 m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats d4 m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats d4 m) ((pdats d4 m 0 c).share_full fun _ => rfl)
      (E0 m c) (fun b : Ref sig .tc => W2 m c b) ((pdats d4 m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg1.lean ====
/- Region 1 of the program as one item of the run: entered with every unscoped buffer of the core at the contents
   the fold gives before it, left with them at the contents the fold gives after it. At entry the region's arrays
   are taken out of the unscoped buffers and the generator register goes into the region's invariant; at exit the
   arrays come back at what the write-backs left, the register comes back, and every other buffer is as it was. -/
import proofs.«415612_j18743237280393_1_alg».proof.Proof.KB.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (d4 : DatOf (F := F) cfg4)
variable (m : (ℓ : Loc nD τ sig) → Buf (Elt F) ℓ)

/-- At the region's exit each of its arrays holds what the write-backs leave, -/
theorem hF1 (c : Dev nD) (w : Fin cfg1.W) :
    (dat1 (E1 m) c).arrAt w cfg1.N = (fun b : Ref sig .tc => W4 m c b) (Pipeline.arrRef spec1 w) :=
  (W4_arr m c w).symm
/-- and every buffer that is none of its arrays what it held at entry. -/
theorem hrest1 (c : Dev nD) : ∀ b, b ∉ Finset.univ.image (Pipeline.arrRef spec1) → (fun b : Ref sig .tc => W4 m c b) b = E1 m c b :=
  fun b hb => W4_of_ne m c b fun w e => hb (Finset.mem_image.mpr ⟨w, Finset.mem_univ _, e⟩)

set_option backward.isDefEq.respectTransparency.types false in
/-- The region over the thread state "every unscoped buffer at the boundary's contents, the generator register at
    some state, nothing owed": no semaphore of the kernel's own, nothing owed at any point, full shares. -/
def reg1 : Pipeline.RegionSeg (pcfgs (F := F)) adm (pdats d4 m) () defs₀ 𝒱₀ L lv
    1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats d4 m) launch1.win launch1.arr_whole c
      ((pdats d4 m 1 c).share_full fun _ => rfl) (E1 m c) fun w => A_eq1 (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats d4 m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats d4 m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats d4 m) ((pdats d4 m 1 c).share_full fun _ => rfl)
      (E1 m c) (fun b : Ref sig .tc => W4 m c b) ((pdats d4 m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg2.lean ====
/- Region 2 of the program as one item of the run: entered with every unscoped buffer of the core at the contents
   the fold gives before it, left with them at the contents the fold gives after it. At entry the region's arrays
   are taken out of the unscoped buffers and the generator register goes into the region's invariant; at exit the
   arrays come back at what the write-backs left, the register comes back, and every other buffer is as it was. -/
import proofs.«415612_j18743237280393_1_alg».proof.Proof.KB.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (d4 : DatOf (F := F) cfg4)
variable (m : (ℓ : Loc nD τ sig) → Buf (Elt F) ℓ)

/-- At the region's exit each of its arrays holds what the write-backs leave, -/
theorem hF2 (c : Dev nD) (w : Fin cfg2.W) :
    (dat2 (E2 m) c).arrAt w cfg2.N = (fun b : Ref sig .tc => W5 m c b) (Pipeline.arrRef spec2 w) :=
  (W5_arr m c w).symm
/-- and every buffer that is none of its arrays what it held at entry. -/
theorem hrest2 (c : Dev nD) : ∀ b, b ∉ Finset.univ.image (Pipeline.arrRef spec2) → (fun b : Ref sig .tc => W5 m c b) b = E2 m c b :=
  fun b hb => W5_of_ne m c b fun w e => hb (Finset.mem_image.mpr ⟨w, Finset.mem_univ _, e⟩)

set_option backward.isDefEq.respectTransparency.types false in
/-- The region over the thread state "every unscoped buffer at the boundary's contents, the generator register at
    some state, nothing owed": no semaphore of the kernel's own, nothing owed at any point, full shares. -/
def reg2 : Pipeline.RegionSeg (pcfgs (F := F)) adm (pdats d4 m) () defs₀ 𝒱₀ L lv
    2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats d4 m) launch2.win launch2.arr_whole c
      ((pdats d4 m 2 c).share_full fun _ => rfl) (E2 m c) fun w => A_eq2 (E2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats d4 m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats d4 m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats d4 m) ((pdats d4 m 2 c).share_full fun _ => rfl)
      (E2 m c) (fun b : Ref sig .tc => W5 m c b) ((pdats d4 m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg3.lean ====
/- Region 3 of the program as one item of the run: entered with every unscoped buffer of the core at the contents
   the fold gives before it, left with them at the contents the fold gives after it. At entry the region's arrays
   are taken out of the unscoped buffers and the generator register goes into the region's invariant; at exit the
   arrays come back at what the write-backs left, the register comes back, and every other buffer is as it was. -/
import proofs.«415612_j18743237280393_1_alg».proof.Proof.KB.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (d4 : DatOf (F := F) cfg4)
variable (m : (ℓ : Loc nD τ sig) → Buf (Elt F) ℓ)

/-- At the region's exit each of its arrays holds what the write-backs leave, -/
theorem hF3 (c : Dev nD) (w : Fin cfg3.W) :
    (dat3 (E3 m) c).arrAt w cfg3.N = (fun b : Ref sig .tc => W7 m c b) (Pipeline.arrRef spec3 w) :=
  (W7_arr m c w).symm
/-- and every buffer that is none of its arrays what it held at entry. -/
theorem hrest3 (c : Dev nD) : ∀ b, b ∉ Finset.univ.image (Pipeline.arrRef spec3) → (fun b : Ref sig .tc => W7 m c b) b = E3 m c b :=
  fun b hb => W7_of_ne m c b fun w e => hb (Finset.mem_image.mpr ⟨w, Finset.mem_univ _, e⟩)

set_option backward.isDefEq.respectTransparency.types false in
/-- The region over the thread state "every unscoped buffer at the boundary's contents, the generator register at
    some state, nothing owed": no semaphore of the kernel's own, nothing owed at any point, full shares. -/
def reg3 : Pipeline.RegionSeg (pcfgs (F := F)) adm (pdats d4 m) () defs₀ 𝒱₀ L lv
    3 where
  win := launch3.win.to₀
  block_pos := launch3.block_pos
  stage_whole := launch3.stage_whole
  K := PEmpty
  osem k := k.elim
  ho := Pipeline.OwnSemFacts.none _
  hbody c := (body_obligation3 (E3 m) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := 3) (pcfgs (F := F)) adm (pdats d4 m) launch3.win launch3.arr_whole c
      ((pdats d4 m 3 c).share_full fun _ => rfl) (E3 m c) fun w => A_eq3 (E3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats d4 m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats d4 m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats d4 m) ((pdats d4 m 3 c).share_full fun _ => rfl)
      (E3 m c) (fun b : Ref sig .tc => W7 m c b) ((pdats d4 m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg4.lean ====
/- The last region of the program as one item of the run, for ANY proof data over its entry contents that meet the
   facts the run needs of them: entered with every unscoped buffer of the core at the contents the fold gives before
   it, left with them at the fold's final contents, the generator register at some state and the core owing nothing:
   the thread state the launch ends in. -/
import proofs.«415612_j18743237280393_1_alg».proof.Proof.KB.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (d4 : DatOf (F := F) cfg4)
variable (m : (ℓ : Loc nD τ sig) → Buf (Elt F) ℓ)

/-- At the region's exit each of its arrays holds what the write-backs leave, -/
theorem hF4 (c : Dev nD) (w : Fin cfg4.W) :
    (d4 (E4 m) c).arrAt w cfg4.N = (fun b : Ref sig .tc => W8 d4 m c b) (Pipeline.arrRef spec4 w) :=
  (W8_arr d4 m c w).symm
/-- and every buffer that is none of its arrays what it held at entry. -/
theorem hrest4 (c : Dev nD) : ∀ b, b ∉ Finset.univ.image (Pipeline.arrRef spec4) → (fun b : Ref sig .tc => W8 d4 m c b) b = E4 m c b :=
  fun b hb => W8_of_ne d4 m c b fun w e => hb (Finset.mem_image.mpr ⟨w, Finset.mem_univ _, e⟩)

/-- The last thread state without the dues: every unscoped buffer at the final contents, the generator register
    at some state. -/
abbrev Tₙ (c : Dev nD) : sProp 𝕄 :=
  iprop(StableHlo.held (c : Thread nD τ) (Pipeline.ucRefs τ sig) (W8 d4 m c) ∗ ∃ r, prngReg c r)

set_option backward.isDefEq.respectTransparency.types false in
/-- The last region over the thread state: its invariant is reached from the scoped rest and the generator register
    and gives them back (the two facts `hin`, `hout` of the proof data, composed with the sorting of the pieces);
    nothing owed at any point, full shares, any recorded pair allowed at entry. -/
def reg4 (h4 : LastFacts d4) :
    Pipeline.RegionSeg (pcfgs (F := F)) adm (pdats d4 m) () defs₀ 𝒱₀ L lv 4 where
  win := launch4.win.to₀
  block_pos := launch4.block_pos
  stage_whole := launch4.stage_whole
  K := PEmpty
  osem k := k.elim
  ho := Pipeline.OwnSemFacts.none _
  hbody c := (h4.hbody (E4 m) c).loose
  hwaits := Pipeline.hwaits_of_owed_zero _ _ _ _ L lv 4 fun c t => h4.howed (E4 m) c t
  pre c := iprop(StableHlo.held (c : Thread nD τ) (Pipeline.ucRefs τ sig) (W7 m c) ∗ R c)
  post c := iprop(Tₙ d4 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (E4 m c)
  hentry c := by
    rw [Pipeline.ownSems0_none]
    have hsplit := Pipeline.arrays_of_unscopedBufs (p := 4) (pcfgs (F := F)) adm (pdats d4 m) launch4.win launch4.arr_whole c
      ((pdats d4 m 4 c).share_full fun w => h4.hq (E4 m) c w) (E4 m c) fun w => h4.hA (E4 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats d4 m 4 c).owed 0 = 0 from h4.howed (E4 m) c 0]
      icases HO with ⟨%W, HO⟩; iexists W; isplitr
      · ipureintro; intro x _; refine Or.inl ?_
        rw [show (pdats d4 m 4 c).recorded 0 = Set.univ from h4.hrec (E4 m) c 0]; trivial
      iexact HO
    isplitl [Hp]; · iexact Hp
    iexact Hrest
  hin c := by
    refine .trans ?_ (h4.hin (E4 m) c)
    unfold Pipeline.ΦA
    iintro ⟨Hp, -, Hr⟩
    isplitl [Hr]; · iexact Hr
    iexact Hp
  hout c := by
    rw [Pipeline.ownSems0_none]
    refine (h4.hout (E4 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats d4 m) ((pdats d4 m 4 c).share_full fun w => h4.hq (E4 m) c w)
      (E4 m c) (fun b : Ref sig .tc => W8 d4 m c b) ((pdats d4 m 4 c).arrAt · cfg4.N) (hF4 d4 m c) (hrest4 d4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats d4 m 4 c).owed (Fin.last _) = 0 from h4.howed (E4 m) c _]
    icases HO with ⟨%W, -, HO⟩; iexists W; iexact HO

end Cert.Kernel.Hand

end
-- ==== Proof.KB.Run.lean ====
/- The launch of the whole program: @main as its eight items in order — a stretch of host operations, region 0, a
   stretch, regions 1 and 2, a stretch, regions 3 and 4 — each entered with every unscoped buffer of the core at the
   contents the fold gives at that boundary, beside the generator register and the core's dues (none). From any
   launch memory with zero counters every weakly fair execution terminates, and the final memory holds, at every
   unscoped buffer of every core, the fold's final contents. The last region's proof data are a parameter. -/
import proofs.«415612_j18743237280393_1_alg».proof.Proof.KB.Seg0
import proofs.«415612_j18743237280393_1_alg».proof.Proof.KB.Seg1
import proofs.«415612_j18743237280393_1_alg».proof.Proof.KB.Seg2
import proofs.«415612_j18743237280393_1_alg».proof.Proof.KB.Seg3
import proofs.«415612_j18743237280393_1_alg».proof.Proof.KB.Seg4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (d4 : DatOf (F := F) cfg4)
variable (m : (ℓ : Loc nD τ sig) → Buf (Elt F) ℓ)

/-- @main's eight items in order: a host item per stretch from its boundary's contents, a region per pallas_call. -/
abbrev segs (h4 : LastFacts d4) : List (Pipeline.Seg (pcfgs (F := F)) adm (pdats d4 m) () defs₀ 𝒱₀ L lv) :=
  [ .host (hseg hostOps0 hostOps0_sub hostOps0_fresh (W0 m)),
    .region (reg0 d4 m),
    .host (hseg hostOps1 hostOps1_sub hostOps1_fresh (W2 m)),
    .region (reg1 d4 m),
    .region (reg2 d4 m),
    .host (hseg hostOps3 hostOps3_sub hostOps3_fresh (W5 m)),
    .region (reg3 d4 m),
    .region (reg4 d4 m h4) ]

set_option backward.isDefEq.respectTransparency.types false in
/-- The run: termination, and every unscoped buffer of every core at the fold's final contents at the end. -/
theorem run_all (h4 : LastFacts d4) (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W8 d4 m c b) :=
  Pipeline.θ_run_regions_kit (pcfgs (F := F)) adm (pdats d4 m) () cellOf_inj emb₁ defs₀ 𝒱₀ L lv m ρ main (segs d4 m h4)
    (fun c Q => by
      rewrite [main_chain c, Pipeline.Seg.run_eq_chain,
        show (segs d4 m h4).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ d4 m)
    (hch := ⟨fun _ => .rfl, fun _ => .rfl, fun _ => .rfl, fun _ => .rfl, fun _ => .rfl, fun _ => .rfl, fun _ => .rfl,
      fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 d4 m c b)
    (hfin := fun c s' => by
      iintro ⟨⟨Hh, -⟩, HSI⟩
      unfold StableHlo.held
      imodintro
      iapply (pointsTo_read_all (Pipeline.ucRefs τ sig) (fun b => (((c : Thread nD τ)).1, b)) (W8 d4 m c) s')
      isplitl [Hh] <;> iassumption)
    (hQ := fun s h => h)

end Cert.Kernel.Hand

end
-- ==== Proof.KB.R4.lean ====
/- Region 4 of the program: the readout. Each of the 20 grid points takes one row block of the node features
   (5000 x 64), the readout weights (64 x 8) and bias (8) and the block's graph ids (5000 x 1), and adds to two
   buffers the body keeps from point to point — per-graph sums (256 x 8) and per-graph counts (256 x 1), zeroed at
   the first point —; the last point turns the two into the output block (256 x 8), the only point that stores it.
   Stated for ANY contents `V` of the core's buffers at the region's entry: which block each window holds at a
   point, what the two kept buffers hold after each point as a recursion over the points, what the last point
   leaves in the output buffer, and that the body run on buffers holding those ends with them so — point by point. -/
import proofs.«415612_j18743237280393_1_alg».proof.Proof.Gen.Kernel.Launch
import proofs.«415612_j18743237280393_1_alg».proof.Proof.Gen.Kernel.Skeleton
import proofs.«415612_j18743237280393_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` works on, read off the entry contents. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's buffer holds its block at every point, fetched there or not (the weights and the bias are
    fetched once: their block index never moves), for any proof data over `V` whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The first branch condition of the body (the two kept buffers are zeroed under it), from the grid coordinates. -/
abbrev cond4_1 (i : grid4.Coords) : Prop :=
  Scalar.cmpi .ne (Scalar.extui (Scalar.cmpi .eq (BitVec.ofNat 32 (i 0).val) 0#32)) 0#32 = 1#1
/-- It holds at the first point only. -/
theorem hcond4_1 : ∀ t : Fin cfg4.N, cond4_1 (grid4.coords t) ↔ t.val % 20 = 0 :=
  (by decide +kernel : ∀ t : Fin grid4.N, cond4_1 (grid4.coords t) ↔ t.val % 20 = 0)
/-- The second branch condition of the body (the output block is stored under it), from the grid coordinates. -/
abbrev cond4_2 (i : grid4.Coords) : Prop := k4_cond2 i = 1#1
/-- It holds at the last point only. -/
theorem hcond4_2 : ∀ t : Fin cfg4.N, cond4_2 (grid4.coords t) ↔ t.val % 20 = 19 :=
  (by decide +kernel : ∀ t : Fin grid4.N, cond4_2 (grid4.coords t) ↔ t.val % 20 = 19)

theorem off2_zero : (![0, 0] : Fin 2 → Nat) = fun _ => 0 := funext fun a => by fin_cases a <;> rfl
theorem off1_zero : (![0] : Fin 1 → Nat) = fun _ => 0 := funext fun a => by fin_cases a; rfl

/-- A store through the whole-shape rectangle, the last of a buffer's stores, leaves its payload there whatever the
    buffer held and whatever was stored before. -/
theorem read_store_whole {κ : Kind} {sp : Space} {S : Shape} {e : EltTy} (v : View sig κ sp S e) {off : Fin S.rank → Nat}
    (h : off = fun _ => 0) (inb : ∀ a, off a + S.size a ≤ S.size a) (f : v.ty.Contents (Elt F)) (w : S.Idx → Elt F e)
    (L : List (View.Piece (Elt F) S e)) :
    v.read (Elt F) (v.writes (Elt F) f (⟨Rect.unit off S.size inb, w⟩ :: L)) = w :=
  (View.read_writes_eq_canon v f _ (fun y => ⟨_, List.mem_cons_self, View.mem_set_unit_zero h inb y⟩)).trans
    (View.canon_cons_unit_zero h inb w L)

/-- A load through the whole-shape rectangle reads the buffer's contents. -/
theorem readAt_whole {κ : Kind} {sp : Space} {S : Shape} {e : EltTy} (v : View sig κ sp S e) {off : Fin S.rank → Nat}
    (h : off = fun _ => 0) (inb : ∀ a, off a + S.size a ≤ S.size a) (f : v.ty.Contents (Elt F)) :
    v.readAt (Elt F) (Rect.unit off S.size inb).toLoadRect f = v.read (Elt F) f :=
  (View.readAt_eq_ld v f _).trans (View.ld_unit_zero h inb _)

set_option maxHeartbeats 1000000 in
/-- The body at the first point, on whole buffers: the inputs at `x0 … x3`, the two kept buffers at anything; it
    zeroes the kept buffers, then advances them by the point's block. The output buffer is not touched. -/
theorem sound_first4 (c : Dev nD) (E : Set ℕ) (i : grid4.Coords) (h1 : cond4_1 i) (h2 : ¬cond4_2 i)
    (a0 : Memref sig .tc .vmem S5000x64 .f32) (ha0 : a0.IsWhole) (a1 : Memref sig .tc .vmem S64x8 .f32) (ha1 : a1.IsWhole)
    (a2 : Memref sig .tc .vmem S8 .f32) (ha2 : a2.IsWhole) (a3 : Memref sig .tc .vmem S5000x1 .i32) (ha3 : a3.IsWhole)
    (a4 : Memref sig .tc .vmem S256x8 .f32) (ha4 : a4.IsWhole) (a5 : Memref sig .tc .vmem S256x8 .f32) (ha5 : a5.IsWhole)
    (a6 : Memref sig .tc .vmem S256x1 .f32) (ha6 : a6.IsWhole)
    (x0 : Vec F S5000x64 .f32) (x1 : Vec F S64x8 .f32) (x2 : Vec F S8 .f32) (x3 : Vec F S5000x1 .i32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ (∃ d, owns (c : Thread nD τ) a5 fullShare d) ∗ (∃ d, owns (c : Thread nD τ) a6 fullShare d)
        ∗ (iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a5 fullShare (k4_pay5 x0 x1 x2 x3 k4_pay2)
            ∗ owns (c : Thread nD τ) a6 fullShare (k4_pay6 x3 k4_pay3)) -∗ K ⟨⟩))
      ⊢ wp frame (wpE (defs₀ (F := F)) Variants.none c none) E (cc4__final_kernel i a0 ha0 a1 ha1 a2 ha2 a3 ha3 a4 ha4 a5 ha5 a6 ha6) K := by
  simp only [cc4__final_kernel_eq_skeleton]; unfold cc4__final_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, Hk⟩
  subst hf0; subst hf1; subst hf2; subst hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists _; isplitr
    swap; · iexact H5
    ipureintro
    sl_unfold_run_names
    refine (read_store_whole a5.view off2_zero _ _ _ _).trans ?_
    rw [readAt_whole a0.view off2_zero _ f0, readAt_whole a1.view off2_zero _ f1, readAt_whole a2.view off1_zero _ f2,
      readAt_whole a3.view off2_zero _ f3, View.readCov_unit_zero (Val := Elt F) a5.view off2_zero _ (k4_pay2 (F := F))]
  iexists _; isplitr
  swap; · iexact H6
  ipureintro
  sl_unfold_run_names
  refine (read_store_whole a6.view off2_zero _ _ _ _).trans ?_
  rw [readAt_whole a3.view off2_zero _ f3, View.readCov_unit_zero (Val := Elt F) a6.view off2_zero _ (k4_pay3 (F := F))]

set_option maxHeartbeats 1000000 in
/-- The body at a point that is neither the first nor the last, on whole buffers: the inputs at `x0 … x3`, the two
    kept buffers at `s0`, `s1`; it ends with the inputs as they were and the kept buffers advanced by the point's
    block. The output buffer is not touched. -/
theorem sound_mid4 (c : Dev nD) (E : Set ℕ) (i : grid4.Coords) (h1 : ¬cond4_1 i) (h2 : ¬cond4_2 i)
    (a0 : Memref sig .tc .vmem S5000x64 .f32) (ha0 : a0.IsWhole) (a1 : Memref sig .tc .vmem S64x8 .f32) (ha1 : a1.IsWhole)
    (a2 : Memref sig .tc .vmem S8 .f32) (ha2 : a2.IsWhole) (a3 : Memref sig .tc .vmem S5000x1 .i32) (ha3 : a3.IsWhole)
    (a4 : Memref sig .tc .vmem S256x8 .f32) (ha4 : a4.IsWhole) (a5 : Memref sig .tc .vmem S256x8 .f32) (ha5 : a5.IsWhole)
    (a6 : Memref sig .tc .vmem S256x1 .f32) (ha6 : a6.IsWhole)
    (x0 : Vec F S5000x64 .f32) (x1 : Vec F S64x8 .f32) (x2 : Vec F S8 .f32) (x3 : Vec F S5000x1 .i32)
    (s0 : Vec F S256x8 .f32) (s1 : Vec F S256x1 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a5 fullShare s0 ∗ owns (c : Thread nD τ) a6 fullShare s1
        ∗ (iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a5 fullShare (k4_pay5 x0 x1 x2 x3 s0)
            ∗ owns (c : Thread nD τ) a6 fullShare (k4_pay6 x3 s1)) -∗ K ⟨⟩))
      ⊢ wp frame (wpE (defs₀ (F := F)) Variants.none c none) E (cc4__final_kernel i a0 ha0 a1 ha1 a2 ha2 a3 ha3 a4 ha4 a5 ha5 a6 ha6) K := by
  simp only [cc4__final_kernel_eq_skeleton]; unfold cc4__final_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, Hk⟩
  subst hf0; subst hf1; subst hf2; subst hf3; subst hf5; subst hf6
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists _; isplitr
    swap; · iexact H5
    ipureintro
    refine (read_store_whole a5.view off2_zero _ _ _ _).trans ?_
    rw [readAt_whole a0.view off2_zero _ f0, readAt_whole a1.view off2_zero _ f1, readAt_whole a2.view off1_zero _ f2,
      readAt_whole a3.view off2_zero _ f3, readAt_whole a5.view off2_zero _ f5]
  iexists _; isplitr
  swap; · iexact H6
  ipureintro
  refine (read_store_whole a6.view off2_zero _ _ _ _).trans ?_
  rw [readAt_whole a3.view off2_zero _ f3, readAt_whole a6.view off2_zero _ f6]

set_option maxHeartbeats 1000000 in
/-- The body at the last point, on whole buffers: the inputs at `x0 … x3`, the two kept buffers at `s0`, `s1`, the
    output buffer at anything; it advances the kept buffers by the point's block, then stores into the output buffer
    what the advanced two give. -/
theorem sound_last4 (c : Dev nD) (E : Set ℕ) (i : grid4.Coords) (h1 : ¬cond4_1 i) (h2 : cond4_2 i)
    (a0 : Memref sig .tc .vmem S5000x64 .f32) (ha0 : a0.IsWhole) (a1 : Memref sig .tc .vmem S64x8 .f32) (ha1 : a1.IsWhole)
    (a2 : Memref sig .tc .vmem S8 .f32) (ha2 : a2.IsWhole) (a3 : Memref sig .tc .vmem S5000x1 .i32) (ha3 : a3.IsWhole)
    (a4 : Memref sig .tc .vmem S256x8 .f32) (ha4 : a4.IsWhole) (a5 : Memref sig .tc .vmem S256x8 .f32) (ha5 : a5.IsWhole)
    (a6 : Memref sig .tc .vmem S256x1 .f32) (ha6 : a6.IsWhole)
    (x0 : Vec F S5000x64 .f32) (x1 : Vec F S64x8 .f32) (x2 : Vec F S8 .f32) (x3 : Vec F S5000x1 .i32)
    (s0 : Vec F S256x8 .f32) (s1 : Vec F S256x1 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a5 fullShare s0 ∗ owns (c : Thread nD τ) a6 fullShare s1
        ∗ (∃ d, owns (c : Thread nD τ) a4 fullShare d)
        ∗ (iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a5 fullShare (k4_pay5 x0 x1 x2 x3 s0)
            ∗ owns (c : Thread nD τ) a6 fullShare (k4_pay6 x3 s1)
            ∗ owns (c : Thread nD τ) a4 fullShare (k4_pay1 (k4_pay5 x0 x1 x2 x3 s0) (k4_pay6 x3 s1))) -∗ K ⟨⟩))
      ⊢ wp frame (wpE (defs₀ (F := F)) Variants.none c none) E (cc4__final_kernel i a0 ha0 a1 ha1 a2 ha2 a3 ha3 a4 ha4 a5 ha5 a6 ha6) K := by
  simp only [cc4__final_kernel_eq_skeleton]; unfold cc4__final_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, ⟨%d4, %f4, -, H4⟩, Hk⟩
  subst hf0; subst hf1; subst hf2; subst hf3; subst hf5; subst hf6
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists _; isplitr
    swap; · iexact H5
    ipureintro
    refine (read_store_whole a5.view off2_zero _ _ _ _).trans ?_
    rw [readAt_whole a0.view off2_zero _ f0, readAt_whole a1.view off2_zero _ f1, readAt_whole a2.view off1_zero _ f2,
      readAt_whole a3.view off2_zero _ f3, readAt_whole a5.view off2_zero _ f5]
  isplitl [H6]
  · iexists _; isplitr
    swap; · iexact H6
    ipureintro
    refine (read_store_whole a6.view off2_zero _ _ _ _).trans ?_
    rw [readAt_whole a3.view off2_zero _ f3, readAt_whole a6.view off2_zero _ f6]
  iexists _; isplitr
  swap; · iexact H4
  ipureintro
  sl_unfold_run_names
  refine (read_store_whole a4.view off2_zero _ _ _ _).trans ?_
  refine congrArg₂ k4_pay1 ((View.readCov_unit_zero (Val := Elt F) a5.view off2_zero _ _).trans ?_)
    ((View.readCov_unit_zero (Val := Elt F) a6.view off2_zero _ _).trans ?_)
  · rw [readAt_whole a0.view off2_zero _ f0, readAt_whole a1.view off2_zero _ f1, readAt_whole a2.view off1_zero _ f2,
      readAt_whole a3.view off2_zero _ f3, readAt_whole a5.view off2_zero _ f5]
  · rw [readAt_whole a3.view off2_zero _ f3, readAt_whole a6.view off2_zero _ f6]

/-- The two kept buffers after point `n`: the running per-graph sums and counts. The first point starts them from
    zero, every later one from what the point before left. -/
def sc4 (c : Dev nD) : (n : ℕ) → n < cfg4.N → Vec F S256x8 .f32 × Vec F S256x1 .f32
  | 0, h => (k4_pay5 (iblk4 V c 0 ⟨0, h⟩) (iblk4 V c 1 ⟨0, h⟩) (iblk4 V c 2 ⟨0, h⟩) (iblk4 V c 3 ⟨0, h⟩) k4_pay2, k4_pay6 (iblk4 V c 3 ⟨0, h⟩) k4_pay3)
  | n + 1, h => (k4_pay5 (iblk4 V c 0 ⟨n + 1, h⟩) (iblk4 V c 1 ⟨n + 1, h⟩) (iblk4 V c 2 ⟨n + 1, h⟩) (iblk4 V c 3 ⟨n + 1, h⟩) (sc4 c n (Nat.lt_of_succ_lt h)).1,
      k4_pay6 (iblk4 V c 3 ⟨n + 1, h⟩) (sc4 c n (Nat.lt_of_succ_lt h)).2)

/-- What the last point stores into the output buffer, from the two kept buffers. -/
def fin4 (s : Vec F S256x8 .f32 × Vec F S256x1 .f32) : Vec F S256x8 .f32 := k4_pay1 s.1 s.2

/-- The kept buffers after the first point. -/
theorem sc4_first (c : Dev nD) (t : Fin cfg4.N) (h : t.val = 0) :
    sc4 V c t.val t.isLt = (k4_pay5 (iblk4 V c 0 t) (iblk4 V c 1 t) (iblk4 V c 2 t) (iblk4 V c 3 t) k4_pay2, k4_pay6 (iblk4 V c 3 t) k4_pay3) := by
  obtain ⟨n, hn⟩ := t
  cases n with
  | zero => rfl
  | succ n => exact absurd h (Nat.succ_ne_zero n)

/-- The kept buffers after a later point, over what the point before left. -/
theorem sc4_next (c : Dev nD) (t : Fin cfg4.N) (h : t.val ≠ 0) :
    sc4 V c t.val t.isLt
      = (k4_pay5 (iblk4 V c 0 t) (iblk4 V c 1 t) (iblk4 V c 2 t) (iblk4 V c 3 t) (sc4 V c (t.val - 1) (Nat.lt_of_le_of_lt (Nat.sub_le _ _) t.isLt)).1,
          k4_pay6 (iblk4 V c 3 t) (sc4 V c (t.val - 1) (Nat.lt_of_le_of_lt (Nat.sub_le _ _) t.isLt)).2) := by
  obtain ⟨n, hn⟩ := t
  cases n with
  | zero => exact absurd rfl h
  | succ n => rfl

/-- The two buffers the body keeps from point to point, as the whole memrefs it is passed. -/
abbrev scM4_0 : Memref sig .tc .vmem S256x8 .f32 := Memref.whole cc4_scratch0
abbrev scM4_1 : Memref sig .tc .vmem S256x1 .f32 := Memref.whole cc4_scratch1

/-- The region's invariant before position `n`: before the first point what the launch hands over (every scoped
    buffer at anything, the generator register at some state); afterwards the two kept buffers owned whole at what
    the point before left in them, beside the other scoped buffers and the register. -/
def Phi4 (c : Dev nD) : (n : ℕ) → n ≤ cfg4.N → sProp 𝕄
  | 0, _ => Pipeline.ΦA spec4 c
  | n + 1, hn => iprop(owns (c : Thread nD τ) scM4_0 fullShare (sc4 V c n hn).1 ∗ owns (c : Thread nD τ) scM4_1 fullShare (sc4 V c n hn).2
      ∗ Pipeline.scopedRestBut spec4 c [cc4_scratch0, cc4_scratch1] ∗ (∃ r, prngReg c r))

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop(owns (c : Thread nD τ) scM4_0 fullShare (sc4 V c n hn).1 ∗ owns (c : Thread nD τ) scM4_1 fullShare (sc4 V c n hn).2
      ∗ Pipeline.scopedRestBut spec4 c [cc4_scratch0, cc4_scratch1] ∗ (∃ r, prngReg c r)) := rfl

theorem Phi4_pos (c : Dev nD) (n : ℕ) (h : n ≤ cfg4.N) (hz : n ≠ 0) :
    Phi4 V c n h = iprop(owns (c : Thread nD τ) scM4_0 fullShare (sc4 V c (n - 1) (by omega)).1
      ∗ owns (c : Thread nD τ) scM4_1 fullShare (sc4 V c (n - 1) (by omega)).2
      ∗ Pipeline.scopedRestBut spec4 c [cc4_scratch0, cc4_scratch1] ∗ (∃ r, prngReg c r)) := by
  cases n with
  | zero => exact absurd rfl hz
  | succ n => rfl

/-- What the launch hands the region, with the two kept buffers taken out of the scoped rest as memrefs owned at
    some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut spec4 c [cc4_scratch0, cc4_scratch1]) ∗ (∃ r, prngReg c r)) := by
  unfold Pipeline.ΦA; rw [scopedRest4_split]; simp only [scM4_0, scM4_1, owns_whole]; try rfl

/-- The proof data of this region on core `c`: the arrays as the region finds them; after the body each input
    buffer still at its block, the output buffer at what the kept buffers after the point give (only the last
    point's is ever read: elsewhere the window is idle and not written back); the invariant `Phi4`; nothing owed,
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => fin4 (sc4 V c t.val t.isLt)
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = fin4 (sc4 V c t.val t.isLt) := by dsimp only [dat4]
theorem owed4 (c : Dev nD) (t : Fin (cfg4.N + 1)) : (dat4 V c).owed t = 0 := rfl
theorem q4 (c : Dev nD) (w : Fin cfg4.W) : (dat4 V c).q w = fullShare := rfl
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- The invariant at a point's start, restated at the point's number. -/
theorem Phi4_castSucc (c : Dev nD) (t : Fin cfg4.N) :
    (dat4 V c).Φ t.castSucc = Phi4 V c t.val (Nat.le_of_lt t.isLt) := by
  dsimp only [dat4]; simp only [Fin.coe_castSucc]

/-- What the launch hands the region is the invariant before the first point. -/
theorem Phi_in4 (c : Dev nD) : Pipeline.ΦA spec4 c ⊢ (dat4 V c).Φ 0 := by
  rw [show (dat4 V c).Φ 0 = Phi4 V c 0 (Nat.zero_le _) from rfl, Phi4_zero V c 0 _ rfl]
  try exact Idealize.SL.BI.Entails.refl _

/-- After the last point the invariant gives it back: what the two kept buffers hold is forgotten. -/
theorem Phi_out4 (c : Dev nD) : (dat4 V c).Φ (Fin.last cfg4.N) ⊢ Pipeline.ΦA spec4 c := by
  rw [show (dat4 V c).Φ (Fin.last cfg4.N) = Phi4 V c (Fin.last cfg4.N).val (Nat.le_of_lt_succ (Fin.last cfg4.N).isLt) from rfl,
    Phi4_pos V c _ _ (by rw [Fin.val_last]; have : cfg4.N = 20 := N_4; omega), PhiA4_eq]
  iintro ⟨H0, H1, HR, Hg⟩
  isplitl [H0 H1 HR]
  · isplitl [H0 H1]
    · isplitl [H0]
      · iexists _; iexact H0
      iexists _; iexact H1
    iexact HR
  iexact Hg

/-- Where the printed configuration calls a window idle: an input never; the output at every point but the last,
    and those points do not write it back. -/
theorem live4_0 : ∀ t : Fin cfg4.N, cfg4.idle 0 (grid4.coords t) = false := fun _ => rfl
theorem live4_1 : ∀ t : Fin cfg4.N, cfg4.idle 1 (grid4.coords t) = false := fun _ => rfl
theorem live4_2 : ∀ t : Fin cfg4.N, cfg4.idle 2 (grid4.coords t) = false := fun _ => rfl
theorem live4_3 : ∀ t : Fin cfg4.N, cfg4.idle 3 (grid4.coords t) = false := fun _ => rfl
theorem idle4_4 : ∀ t : Fin cfg4.N, ¬cond4_2 (grid4.coords t) → cfg4.idle 4 (grid4.coords t) = true := by decide +kernel
theorem live4_4 : ∀ t : Fin cfg4.N, cond4_2 (grid4.coords t) → cfg4.idle 4 (grid4.coords t) = false := by decide +kernel
theorem noflush4_4 (t : Fin cfg4.N) (h : ¬cond4_2 (grid4.coords t)) : (cfg4.win 4).flush t = false :=
  Bool.eq_false_iff.2 fun hf => h ((hcond4_2 t).2 ((flush4_4 t).1 hf))

/-- At a point live for a window the body's post for it is the buffer at what the body leaves. -/
theorem leaves4_0 (c : Dev nD) (t : Fin cfg4.N) :
    (dat4 V c).leavesExact 0 t = owns (c : Thread nD τ) (st4_0 t) fullShare (iblk4 V c 0 t) := by
  unfold Dat.leavesExact; rw [live4_0 t, after4_0]
theorem leaves4_1 (c : Dev nD) (t : Fin cfg4.N) :
    (dat4 V c).leavesExact 1 t = owns (c : Thread nD τ) (st4_1 t) fullShare (iblk4 V c 1 t) := by
  unfold Dat.leavesExact; rw [live4_1 t, after4_1]
theorem leaves4_2 (c : Dev nD) (t : Fin cfg4.N) :
    (dat4 V c).leavesExact 2 t = owns (c : Thread nD τ) (st4_2 t) fullShare (iblk4 V c 2 t) := by
  unfold Dat.leavesExact; rw [live4_2 t, after4_2]
theorem leaves4_3 (c : Dev nD) (t : Fin cfg4.N) :
    (dat4 V c).leavesExact 3 t = owns (c : Thread nD τ) (st4_3 t) fullShare (iblk4 V c 3 t) := by
  unfold Dat.leavesExact; rw [live4_3 t, after4_3]
theorem leaves4_4_last (c : Dev nD) (t : Fin cfg4.N) (h : cond4_2 (grid4.coords t)) :
    (dat4 V c).leavesExact 4 t = owns (c : Thread nD τ) (st4_4 t) fullShare (fin4 (sc4 V c t.val t.isLt)) := by
  unfold Dat.leavesExact; rw [live4_4 t h, after4_4]

/-- What the body is handed at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it hands back. -/
def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t ∗ (dat4 V c).leavesExact 2 t
    ∗ (dat4 V c).leavesExact 3 t ∗ (dat4 V c).leavesExact 4 t)

set_option maxHeartbeats 1000000 in
/-- The body at the first point: the invariant hands it the two kept buffers at anything and takes them back at what the point leaves; the output window is idle and handed back as found. -/
theorem sound_body4_first (c : Dev nD) (t : Fin cfg4.N) (ht : t.val = 0) :
    bodyPre4 V c t ⊢ wp frame (wpE (defs₀ (F := F)) Variants.none c none) Set.univ (bodyAt4 t) (fun _ => bodyPost4 V c t) := by
  have hN : t.val < 20 := lt_of_lt_of_eq t.isLt (show cfg4.N = 20 from N_4)
  have hc1 : cond4_1 (grid4.coords t) := (hcond4_1 t).mpr (by omega)
  have hc2 : ¬cond4_2 (grid4.coords t) := fun h => by have := (hcond4_2 t).mp h; omega
  unfold bodyPre4 bodyPost4 bodyAt4
  simp only [before4_0, before4_1, before4_2, before4_3]
  rw [show (dat4 V c).owesAt () t.succ = (dat4 V c).owesAt () t.castSucc from rfl,
    show (dat4 V c).Φ t.succ = Phi4 V c (t.val + 1) t.isLt from rfl, Phi4_succ,
    leaves4_0, leaves4_1, leaves4_2, leaves4_3,
    Dat.leavesExact_idle (dat4 V c) 4 t (idle4_4 t hc2) (noflush4_4 t hc2),
    sc4_first V c t ht, Phi4_castSucc V c t, Phi4_zero V c _ _ ht, PhiA4_eq]
  iintro ⟨⟨⟨⟨⟨%e5, HS0⟩, ⟨%e6, HS1⟩⟩, HR⟩, Hg⟩, Ho, ⟨%d0, H0⟩, ⟨%d1, H1⟩, ⟨%d2, H2⟩, ⟨%d3, H3⟩, H4⟩
  iapply (sound_first4 c Set.univ (grid4.coords t) hc1 hc2 _ _ _ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [HS0]; · iexists _; iexact HS0
  isplitl [HS1]; · iexists _; iexact HS1
  iintro ⟨H0, H1, H2, H3, HS0, HS1⟩
  isplitl [HS0 HS1 HR Hg]
  · isplitl [HS0]; · iexact HS0
    isplitl [HS1]; · iexact HS1
    isplitl [HR]; · iexact HR
    iexact Hg
  isplitl [Ho]; · iexact Ho
  isplitl [H0]; · iexact H0
  isplitl [H1]; · iexact H1
  isplitl [H2]; · iexact H2
  isplitl [H3]; · iexact H3
  iexact H4

set_option maxHeartbeats 1000000 in
/-- The body at a point neither first nor last: the invariant hands it the two kept buffers at what the point before left and takes them back advanced; the output window is idle and handed back as found. -/
theorem sound_body4_mid (c : Dev nD) (t : Fin cfg4.N) (ht : t.val ≠ 0) (ht' : t.val ≠ 19) :
    bodyPre4 V c t ⊢ wp frame (wpE (defs₀ (F := F)) Variants.none c none) Set.univ (bodyAt4 t) (fun _ => bodyPost4 V c t) := by
  have hN : t.val < 20 := lt_of_lt_of_eq t.isLt (show cfg4.N = 20 from N_4)
  have hc1 : ¬cond4_1 (grid4.coords t) := fun h => by have := (hcond4_1 t).mp h; omega
  have hc2 : ¬cond4_2 (grid4.coords t) := fun h => by have := (hcond4_2 t).mp h; omega
  unfold bodyPre4 bodyPost4 bodyAt4
  simp only [before4_0, before4_1, before4_2, before4_3]
  rw [show (dat4 V c).owesAt () t.succ = (dat4 V c).owesAt () t.castSucc from rfl,
    show (dat4 V c).Φ t.succ = Phi4 V c (t.val + 1) t.isLt from rfl, Phi4_succ,
    leaves4_0, leaves4_1, leaves4_2, leaves4_3,
    Dat.leavesExact_idle (dat4 V c) 4 t (idle4_4 t hc2) (noflush4_4 t hc2),
    sc4_next V c t ht, Phi4_castSucc V c t, Phi4_pos V c _ _ ht]
  iintro ⟨⟨HS0, HS1, HR, Hg⟩, Ho, ⟨%d0, H0⟩, ⟨%d1, H1⟩, ⟨%d2, H2⟩, ⟨%d3, H3⟩, H4⟩
  iapply (sound_mid4 c Set.univ (grid4.coords t) hc1 hc2 _ _ _ _ _ _ _ _ _ _ _ _ _ _ (iblk4 V c 0 t) (iblk4 V c 1 t) (iblk4 V c 2 t) (iblk4 V c 3 t) _ _ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, HS0, HS1⟩
  isplitl [HS0 HS1 HR Hg]
  · isplitl [HS0]; · iexact HS0
    isplitl [HS1]; · iexact HS1
    isplitl [HR]; · iexact HR
    iexact Hg
  isplitl [Ho]; · iexact Ho
  isplitl [H0]; · iexact H0
  isplitl [H1]; · iexact H1
  isplitl [H2]; · iexact H2
  isplitl [H3]; · iexact H3
  iexact H4

set_option maxHeartbeats 1000000 in
/-- The body at the last point: as at a middle point, and the output window, live here, is left at what the advanced kept buffers give. -/
theorem sound_body4_last (c : Dev nD) (t : Fin cfg4.N) (ht : t.val = 19) :
    bodyPre4 V c t ⊢ wp frame (wpE (defs₀ (F := F)) Variants.none c none) Set.univ (bodyAt4 t) (fun _ => bodyPost4 V c t) := by
  have hN : t.val < 20 := lt_of_lt_of_eq t.isLt (show cfg4.N = 20 from N_4)
  have ht0 : t.val ≠ 0 := by omega
  have hc1 : ¬cond4_1 (grid4.coords t) := fun h => by have := (hcond4_1 t).mp h; omega
  have hc2 : cond4_2 (grid4.coords t) := (hcond4_2 t).mpr (by omega)
  unfold bodyPre4 bodyPost4 bodyAt4
  simp only [before4_0, before4_1, before4_2, before4_3]
  rw [show (dat4 V c).owesAt () t.succ = (dat4 V c).owesAt () t.castSucc from rfl,
    show (dat4 V c).Φ t.succ = Phi4 V c (t.val + 1) t.isLt from rfl, Phi4_succ,
    leaves4_0, leaves4_1, leaves4_2, leaves4_3, leaves4_4_last V c t hc2]
  unfold fin4
  rw [sc4_next V c t ht0, Phi4_castSucc V c t, Phi4_pos V c _ _ ht0]
  iintro ⟨⟨HS0, HS1, HR, Hg⟩, Ho, ⟨%d0, H0⟩, ⟨%d1, H1⟩, ⟨%d2, H2⟩, ⟨%d3, H3⟩, ⟨%d4, H4⟩⟩
  iapply (sound_last4 c Set.univ (grid4.coords t) hc1 hc2 _ _ _ _ _ _ _ _ _ _ _ _ _ _ (iblk4 V c 0 t) (iblk4 V c 1 t) (iblk4 V c 2 t) (iblk4 V c 3 t) _ _ _)
  isplitl [H0]; · iexact H0
  isplitl [H1]; · iexact H1
  isplitl [H2]; · iexact H2
  isplitl [H3]; · iexact H3
  isplitl [HS0]; · iexact HS0
  isplitl [HS1]; · iexact HS1
  isplitl [H4]; · iexists _; iexact H4
  iintro ⟨H0, H1, H2, H3, HS0, HS1, H4⟩
  isplitl [HS0 HS1 HR Hg]
  · isplitl [HS0]; · iexact HS0
    isplitl [HS1]; · iexact HS1
    isplitl [HR]; · iexact HR
    iexact Hg
  isplitl [Ho]; · iexact Ho
  isplitl [H0]; · iexact H0
  isplitl [H1]; · iexact H1
  isplitl [H2]; · iexact H2
  isplitl [H3]; · iexact H3
  iexact H4

/-- The body at any point: by which of the three kinds of point it is. -/
theorem sound_body4 (c : Dev nD) (t : Fin cfg4.N) :
    bodyPre4 V c t ⊢ wp frame (wpE (defs₀ (F := F)) Variants.none c none) Set.univ (bodyAt4 t) (fun _ => bodyPost4 V c t) := by
  by_cases h0 : t.val = 0
  · exact sound_body4_first V c t h0
  · by_cases h19 : t.val = 19
    · exact sound_body4_last V c t h19
    · exact sound_body4_mid V c t h0 h19

/-- The body obligation of this region, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KB.Frame.lean ====
/- The two things the certificate takes from the run: the FRAME — every weakly fair execution of @main terminates
   and each argument array ends as launched (no stretch of host operations writes an argument and no region has one
   for an output) — and the VALUE — the result array ends at what the fold's last valuation holds there, the output
   of the last region. Both with the last region's proof data put in for the fold's parameter. -/
import proofs.«415612_j18743237280393_1_alg».proof.Proof.KB.Run
import proofs.«415612_j18743237280393_1_alg».proof.Proof.KB.R4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The last region's proof data satisfy what the run asks of them. -/
theorem lastFacts4 : LastFacts (F := F) dat4 :=
  ⟨A_eq4, body_obligation4, Phi_in4, Phi_out4, owed4, fun _ _ _ => rfl, fun _ _ _ => rfl⟩

variable (m : (ℓ : Loc nD τ sig) → Buf (Elt F) ℓ) (ρ : Dev nD → PrngReg)

/-- An argument array reaches the end as launched. -/
theorem kept_arg (c : Dev nD) (r : Ref sig .tc) (h0 : r ∉ hostOps0_W) (h1 : r ∉ hostOps1_W) (h3 : r ∉ hostOps3_W)
    (hr : r ∉ ([main_v34, main_v53, main_v54, main_v73, main_v74] : List (Ref sig .tc))) :
    W8 dat4 m c r = m ((c : Thread nD τ).loc r) :=
  W8_kept dat4 m (lastFacts4 (F := F)).hA c r h0 h1 h3 hr

/-- The run's value and frame in one: the result array at the last region's output, the arguments as launched. -/
theorem run_value : θ_run defs (onTc (τ := τ) (main (F := F))) ⟨m, fun _ => 0, ρ⟩ (fun r => ∀ c : Dev nD,
      r.2.mem ((c.tc : Thread nD τ).loc main_v74) = W8 dat4 m c main_v74
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v74 (by decide)),
     (h c _ (mem_uc main_arg0 (by decide))).trans (kept_arg m c main_arg0 (by decide) (by decide) (by decide) (by decide)),
     (h c _ (mem_uc main_arg1 (by decide))).trans (kept_arg m c main_arg1 (by decide) (by decide) (by decide) (by decide)),
     (h c _ (mem_uc main_arg2 (by decide))).trans (kept_arg m c main_arg2 (by decide) (by decide) (by decide) (by decide)),
     (h c _ (mem_uc main_arg3 (by decide))).trans (kept_arg m c main_arg3 (by decide) (by decide) (by decide) (by decide)),
     (h c _ (mem_uc main_arg4 (by decide))).trans (kept_arg m c main_arg4 (by decide) (by decide) (by decide) (by decide)),
     (h c _ (mem_uc main_arg5 (by decide))).trans (kept_arg m c main_arg5 (by decide) (by decide) (by decide) (by decide)),
     (h c _ (mem_uc main_arg6 (by decide))).trans (kept_arg m c main_arg6 (by decide) (by decide) (by decide) (by decide)),
     (h c _ (mem_uc main_arg7 (by decide))).trans (kept_arg m c main_arg7 (by decide) (by decide) (by decide) (by decide)),
     (h c _ (mem_uc main_arg8 (by decide))).trans (kept_arg m c main_arg8 (by decide) (by decide) (by decide) (by decide))⟩)
    (run_all dat4 m (lastFacts4 (F := F)) ρ)

/-- The frame: the arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_value m ρ)

end Cert.Kernel.Hand

end
-- ==== Proof.KI.R0.lean ====
/- Region 0 of the program: the first dense projection, one row block of `x` (5000 x 64) times the whole weight
   matrix (64 x 64) per grid point, the product stored whole into the output block. Stated for ANY contents `V` of
   the core's buffers at the region's entry: which block of which array each window holds at a point, what the
   body leaves in the output window's buffer as a function of the two input blocks, and that the body, run on
   buffers holding those blocks, ends with the output buffer at that function of them — at every grid point. -/
import proofs.«415612_j18743237280393_1_alg».proof.Proof.Gen.KernelIdeal.Launch
import proofs.«415612_j18743237280393_1_alg».proof.Proof.Gen.KernelIdeal.Skeleton
import proofs.«415612_j18743237280393_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` works on, read off the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, fetched there or not (the weight matrix is fetched
    once: its block index never moves), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rX0 : Rect S5000x64 := Rect.unit (s := S5000x64) ![0, 0] S5000x64.size inb_S5000x64_S5000x64_0_0
abbrev rW0 : Rect S64x64 := Rect.unit (s := S64x64) ![0, 0] S64x64.size inb_S64x64_S64x64_0_0

/-- What the body leaves in the output window's buffer: the product of the row block and the weights. -/
def out0 (x0 : Vec F S5000x64 .f32) (x1 : Vec F S64x64 .f32) : Vec F S5000x64 .f32 :=
  View.canon [⟨rX0, k0_pay1 (View.ld x0 rX0) (View.ld x1 rW0)⟩]

theorem cover0 (p0 : Vec F S5000x64 .f32) (y : S5000x64.Idx) :
    ∃ pc ∈ ([⟨rX0, p0⟩] : List (View.Piece (Elt F) S5000x64 .f32)), y ∈ pc.1.set :=
  View.cover_of_tiled [⟨rX0, p0⟩] S5000x64.size (by rfl) y

set_option maxHeartbeats 1000000 in
/-- The body on whole buffers, the inputs at `x0`, `x1`, the output at anything: it ends with the inputs as they
    were and the output at `out0 x0 x1`. -/
theorem sound_kernel0 (c : Dev nD) (E : Set ℕ) (i : grid0.Coords) (a0 : Memref sig .tc .vmem S5000x64 .f32) (ha0 : a0.IsWhole)
    (a1 : Memref sig .tc .vmem S64x64 .f32) (ha1 : a1.IsWhole) (a2 : Memref sig .tc .vmem S5000x64 .f32) (ha2 : a2.IsWhole)
    (x0 : Vec F S5000x64 .f32) (x1 : Vec F S64x64 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out0 x0 x1)) -∗ K ⟨⟩))
      ⊢ wp frame (wpE (defs₀ (F := F)) Variants.none c none) E (cc0__matmul_kernel i a0 ha0 a1 ha1 a2 ha2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-- The proof data of this region on core `c`: the arrays as the region finds them; after the body each input
    buffer still at its block, the output buffer at the product of the two blocks; the region's invariant the
    untouched scoped rest and generator register; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is handed at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of this region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/- Region 1 of the program: the first combine step, on one row block (5000 x 64) per grid point: the aggregated
   block plus the feature block scaled row by row by the squared inverse root degree column, plus the bias row,
   clamped below at zero, stored whole into the output block. Stated for ANY contents `V` of the core's buffers at
   the region's entry: which block of which array each window holds at a point, what the body leaves in the output
   window's buffer as a function of the four input blocks, and that the body, run on buffers holding those blocks,
   ends with the output buffer at that function of them — at every grid point. -/
import proofs.«415612_j18743237280393_1_alg».proof.Proof.Gen.KernelIdeal.Launch
import proofs.«415612_j18743237280393_1_alg».proof.Proof.Gen.KernelIdeal.Skeleton
import proofs.«415612_j18743237280393_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` works on, read off the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, fetched there or not (the bias row is fetched
    once: its block index never moves), for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rX1 : Rect S5000x64 := Rect.unit (s := S5000x64) ![0, 0] S5000x64.size inb_S5000x64_S5000x64_0_0
abbrev rC1 : Rect S5000x1 := Rect.unit (s := S5000x1) ![0, 0] S5000x1.size inb_S5000x1_S5000x1_0_0
abbrev rB1 : Rect S64 := Rect.unit (s := S64) ![0] S64.size inb_S64_S64_0

/-- What the body leaves in the output window's buffer: the aggregated block plus the row-scaled feature block
    plus the bias row, clamped below at zero. -/
def out1 (x0 x1 : Vec F S5000x64 .f32) (x2 : Vec F S5000x1 .f32) (x3 : Vec F S64 .f32) : Vec F S5000x64 .f32 :=
  View.canon [⟨rX1, k1_pay1 (View.ld x0 rX1) (View.ld x1 rX1) (View.ld x2 rC1) (View.ld x3 rB1)⟩]

theorem cover1 (p0 : Vec F S5000x64 .f32) (y : S5000x64.Idx) :
    ∃ pc ∈ ([⟨rX1, p0⟩] : List (View.Piece (Elt F) S5000x64 .f32)), y ∈ pc.1.set :=
  View.cover_of_tiled [⟨rX1, p0⟩] S5000x64.size (by rfl) y

set_option maxHeartbeats 1000000 in
/-- The body on whole buffers, the inputs at `x0` … `x3`, the output at anything: it ends with the inputs as they
    were and the output at `out1 x0 x1 x2 x3`. -/
theorem sound_kernel1 (c : Dev nD) (E : Set ℕ) (i : grid1.Coords) (a0 : Memref sig .tc .vmem S5000x64 .f32) (ha0 : a0.IsWhole)
    (a1 : Memref sig .tc .vmem S5000x64 .f32) (ha1 : a1.IsWhole) (a2 : Memref sig .tc .vmem S5000x1 .f32) (ha2 : a2.IsWhole)
    (a3 : Memref sig .tc .vmem S64 .f32) (ha3 : a3.IsWhole) (a4 : Memref sig .tc .vmem S5000x64 .f32) (ha4 : a4.IsWhole)
    (x0 x1 : Vec F S5000x64 .f32) (x2 : Vec F S5000x1 .f32) (x3 : Vec F S64 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ (∃ d, owns (c : Thread nD τ) a4 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare (out1 x0 x1 x2 x3)) -∗ K ⟨⟩))
      ⊢ wp frame (wpE (defs₀ (F := F)) Variants.none c none) E (cc1__combine_kernel i a0 ha0 a1 ha1 a2 ha2 a3 ha3 a4 ha4) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

/-- The proof data of this region on core `c`: the arrays as the region finds them; after the body each input
    buffer still at its block, the output buffer at the combination of the four blocks; the region's invariant the
    untouched scoped rest and generator register; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1 (iblk1 V c 0 t) (iblk1 V c 1 t) (iblk1 V c 2 t) (iblk1 V c 3 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is handed at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of this region, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/- Region 2 of the program: the second dense projection, one row block of the first layer's output (5000 x 64) times the whole weight
   matrix (64 x 64) per grid point, the product stored whole into the output block. Stated for ANY contents `V` of
   the core's buffers at the region's entry: which block of which array each window holds at a point, what the
   body leaves in the output window's buffer as a function of the two input blocks, and that the body, run on
   buffers holding those blocks, ends with the output buffer at that function of them — at every grid point. -/
import proofs.«415612_j18743237280393_1_alg».proof.Proof.Gen.KernelIdeal.Launch
import proofs.«415612_j18743237280393_1_alg».proof.Proof.Gen.KernelIdeal.Skeleton
import proofs.«415612_j18743237280393_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` works on, read off the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's buffer holds its block at every point, fetched there or not (the weight matrix is fetched
    once: its block index never moves), for any proof data over `V` whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rX2 : Rect S5000x64 := Rect.unit (s := S5000x64) ![0, 0] S5000x64.size inb_S5000x64_S5000x64_0_0
abbrev rW2 : Rect S64x64 := Rect.unit (s := S64x64) ![0, 0] S64x64.size inb_S64x64_S64x64_0_0

/-- What the body leaves in the output window's buffer: the product of the row block and the weights. -/
def out2 (x0 : Vec F S5000x64 .f32) (x1 : Vec F S64x64 .f32) : Vec F S5000x64 .f32 :=
  View.canon [⟨rX2, k2_pay1 (View.ld x0 rX2) (View.ld x1 rW2)⟩]

theorem cover2 (p0 : Vec F S5000x64 .f32) (y : S5000x64.Idx) :
    ∃ pc ∈ ([⟨rX2, p0⟩] : List (View.Piece (Elt F) S5000x64 .f32)), y ∈ pc.1.set :=
  View.cover_of_tiled [⟨rX2, p0⟩] S5000x64.size (by rfl) y

set_option maxHeartbeats 1000000 in
/-- The body on whole buffers, the inputs at `x0`, `x1`, the output at anything: it ends with the inputs as they
    were and the output at `out2 x0 x1`. -/
theorem sound_kernel2 (c : Dev nD) (E : Set ℕ) (i : grid2.Coords) (a0 : Memref sig .tc .vmem S5000x64 .f32) (ha0 : a0.IsWhole)
    (a1 : Memref sig .tc .vmem S64x64 .f32) (ha1 : a1.IsWhole) (a2 : Memref sig .tc .vmem S5000x64 .f32) (ha2 : a2.IsWhole)
    (x0 : Vec F S5000x64 .f32) (x1 : Vec F S64x64 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out2 x0 x1)) -∗ K ⟨⟩))
      ⊢ wp frame (wpE (defs₀ (F := F)) Variants.none c none) E (cc2__matmul_kernel i a0 ha0 a1 ha1 a2 ha2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The proof data of this region on core `c`: the arrays as the region finds them; after the body each input
    buffer still at its block, the output buffer at the product of the two blocks; the region's invariant the
    untouched scoped rest and generator register; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 (iblk2 V c 0 t) (iblk2 V c 1 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is handed at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of this region, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
/- Region 3 of the program: the second combine step, on one row block (5000 x 64) per grid point: the aggregated
   block plus the feature block scaled row by row by the squared inverse root degree column, plus the bias row
   (no clamp here), stored whole into the output block. Stated for ANY contents `V` of the core's buffers at
   the region's entry: which block of which array each window holds at a point, what the body leaves in the output
   window's buffer as a function of the four input blocks, and that the body, run on buffers holding those blocks,
   ends with the output buffer at that function of them — at every grid point. -/
import proofs.«415612_j18743237280393_1_alg».proof.Proof.Gen.KernelIdeal.Launch
import proofs.«415612_j18743237280393_1_alg».proof.Proof.Gen.KernelIdeal.Skeleton
import proofs.«415612_j18743237280393_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` works on, read off the entry contents. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's buffer holds its block at every point, fetched there or not (the bias row is fetched
    once: its block index never moves), for any proof data over `V` whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev rX3 : Rect S5000x64 := Rect.unit (s := S5000x64) ![0, 0] S5000x64.size inb_S5000x64_S5000x64_0_0
abbrev rC3 : Rect S5000x1 := Rect.unit (s := S5000x1) ![0, 0] S5000x1.size inb_S5000x1_S5000x1_0_0
abbrev rB3 : Rect S64 := Rect.unit (s := S64) ![0] S64.size inb_S64_S64_0

/-- What the body leaves in the output window's buffer: the aggregated block plus the row-scaled feature block
    plus the bias row, clamped below at zero. -/
def out3 (x0 x1 : Vec F S5000x64 .f32) (x2 : Vec F S5000x1 .f32) (x3 : Vec F S64 .f32) : Vec F S5000x64 .f32 :=
  View.canon [⟨rX3, k3_pay1 (View.ld x0 rX3) (View.ld x1 rX3) (View.ld x2 rC3) (View.ld x3 rB3)⟩]

theorem cover3 (p0 : Vec F S5000x64 .f32) (y : S5000x64.Idx) :
    ∃ pc ∈ ([⟨rX3, p0⟩] : List (View.Piece (Elt F) S5000x64 .f32)), y ∈ pc.1.set :=
  View.cover_of_tiled [⟨rX3, p0⟩] S5000x64.size (by rfl) y

set_option maxHeartbeats 1000000 in
/-- The body on whole buffers, the inputs at `x0` … `x3`, the output at anything: it ends with the inputs as they
    were and the output at `out3 x0 x1 x2 x3`. -/
theorem sound_kernel3 (c : Dev nD) (E : Set ℕ) (i : grid3.Coords) (a0 : Memref sig .tc .vmem S5000x64 .f32) (ha0 : a0.IsWhole)
    (a1 : Memref sig .tc .vmem S5000x64 .f32) (ha1 : a1.IsWhole) (a2 : Memref sig .tc .vmem S5000x1 .f32) (ha2 : a2.IsWhole)
    (a3 : Memref sig .tc .vmem S64 .f32) (ha3 : a3.IsWhole) (a4 : Memref sig .tc .vmem S5000x64 .f32) (ha4 : a4.IsWhole)
    (x0 x1 : Vec F S5000x64 .f32) (x2 : Vec F S5000x1 .f32) (x3 : Vec F S64 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ (∃ d, owns (c : Thread nD τ) a4 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare (out3 x0 x1 x2 x3)) -∗ K ⟨⟩))
      ⊢ wp frame (wpE (defs₀ (F := F)) Variants.none c none) E (cc3__combine_kernel i a0 ha0 a1 ha1 a2 ha2 a3 ha3 a4 ha4) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3 _)

/-- The proof data of this region on core `c`: the arrays as the region finds them; after the body each input
    buffer still at its block, the output buffer at the combination of the four blocks; the region's invariant the
    untouched scoped rest and generator register; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3 (iblk3 V c 0 t) (iblk3 V c 1 t) (iblk3 V c 2 t) (iblk3 V c 3 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is handed at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of this region, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Fold.lean ====
/- The contents of the core's buffers at each boundary between two items of @main, as a fold from the launch
   memory: a stretch of host operations applies them in order; a kernel region replaces each of its windows' arrays
   by what the region's write-backs leave there (an input array: what it held; an output array: the blocks the
   grid points wrote) and leaves every other buffer alone. Each region's proof data are taken at the contents the
   fold gives at that region's entry. The last region's proof data are a parameter here (any family of proof data
   over the entry contents), so that this module does not depend on that region's particulars. -/
import proofs.«415612_j18743237280393_1_alg».proof.Proof.Gen.KernelIdeal.Regions
import proofs.«415612_j18743237280393_1_alg».proof.Proof.KI.R0
import proofs.«415612_j18743237280393_1_alg».proof.Proof.KI.R1
import proofs.«415612_j18743237280393_1_alg».proof.Proof.KI.R2
import proofs.«415612_j18743237280393_1_alg».proof.Proof.KI.R3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A region's proof data as a function of the contents the region is entered at. -/
abbrev DatOf (cfg : Pipeline.Cfg sig Λ₀) : Type :=
  ((c : Dev nD) → (b : Ref sig .tc) → Buf (Elt F) ((c : Thread nD τ).loc b)) → (c : Dev nD) → Dat τ (Elt F) Unit ℕ (UR sig nD τ) ℕ cfg c

variable (d4 : DatOf (F := F) cfg4)
variable (m : (ℓ : Loc nD τ sig) → Buf (Elt F) ℓ)

/-! ## The fold -/

/-- At launch. -/
abbrev W0 (c : Dev nD) : Valuation τ sig (Elt F) := fun b => m (c, b)
/-- After the first stretch of host operations: region 0's entry. -/
abbrev W1 (c : Dev nD) : Valuation τ sig (Elt F) := StableHlo.after hostOps0 (W0 m c)
abbrev E0 (c : Dev nD) (b : Ref sig .tc) : Buf (Elt F) ((c : Thread nD τ).loc b) := W1 m c b
/-- After region 0. -/
def W2 (c : Dev nD) : Valuation τ sig (Elt F) :=
  Pipeline.withArrays spec0 c (W1 m c) fun w => (dat0 (E0 m) c).arrAt w cfg0.N
/-- After the second stretch: region 1's entry. -/
abbrev W3 (c : Dev nD) : Valuation τ sig (Elt F) := StableHlo.after hostOps1 (W2 m c)
abbrev E1 (c : Dev nD) (b : Ref sig .tc) : Buf (Elt F) ((c : Thread nD τ).loc b) := W3 m c b
/-- After region 1: region 2's entry. -/
def W4 (c : Dev nD) : Valuation τ sig (Elt F) :=
  Pipeline.withArrays spec1 c (W3 m c) fun w => (dat1 (E1 m) c).arrAt w cfg1.N
abbrev E2 (c : Dev nD) (b : Ref sig .tc) : Buf (Elt F) ((c : Thread nD τ).loc b) := W4 m c b
/-- After region 2. -/
def W5 (c : Dev nD) : Valuation τ sig (Elt F) :=
  Pipeline.withArrays spec2 c (W4 m c) fun w => (dat2 (E2 m) c).arrAt w cfg2.N
/-- After the third stretch: region 3's entry. -/
abbrev W6 (c : Dev nD) : Valuation τ sig (Elt F) := StableHlo.after hostOps3 (W5 m c)
abbrev E3 (c : Dev nD) (b : Ref sig .tc) : Buf (Elt F) ((c : Thread nD τ).loc b) := W6 m c b
/-- After region 3: region 4's entry. -/
def W7 (c : Dev nD) : Valuation τ sig (Elt F) :=
  Pipeline.withArrays spec3 c (W6 m c) fun w => (dat3 (E3 m) c).arrAt w cfg3.N
abbrev E4 (c : Dev nD) (b : Ref sig .tc) : Buf (Elt F) ((c : Thread nD τ).loc b) := W7 m c b
/-- After region 4: the end. -/
def W8 (c : Dev nD) : Valuation τ sig (Elt F) :=
  Pipeline.withArrays spec4 c (W7 m c) fun w => (d4 (E4 m) c).arrAt w cfg4.N

/-! ## A region's arrays after it, and every other buffer -/

theorem W2_arr (c : Dev nD) (w : Fin cfg0.W) :
    W2 m c (Proc.devRef .tc (Pipeline.arrRef spec0 w)) = (dat0 (E0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (dat1 (E1 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W5_arr (c : Dev nD) (w : Fin cfg2.W) :
    W5 m c (Proc.devRef .tc (Pipeline.arrRef spec2 w)) = (dat2 (E2 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
theorem W7_arr (c : Dev nD) (w : Fin cfg3.W) :
    W7 m c (Proc.devRef .tc (Pipeline.arrRef spec3 w)) = (dat3 (E3 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
theorem W8_arr (c : Dev nD) (w : Fin cfg4.W) :
    W8 d4 m c (Proc.devRef .tc (Pipeline.arrRef spec4 w)) = (d4 (E4 m) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 d4 m c (Proc.devRef .tc b) = W7 m c (Proc.devRef .tc b) := by
  unfold W8; exact Pipeline.withArrays_of_ne spec4 c _ _ b hb

/-- A buffer no operation of a stretch writes keeps its contents through the stretch. -/
theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W6_of (c : Dev nD) (r : Ref sig .tc) (h : r ∉ hostOps3_W) : W6 m c r = W5 m c r :=
  StableHlo.after_of_writes_sub hostOps3 _ hostOps3_writes h

/-- A region changes its output array only: an input array reads back as it was entered, and every buffer that
    is no array of the region passes through untouched. -/
theorem W2_keep (c : Dev nD) (r : Ref sig .tc) (hr : r ≠ main_v34) : W2 m c r = W1 m c r := by
  by_cases h : ∃ w, Pipeline.arrRef spec0 w = r
  · obtain ⟨w, rfl⟩ := h
    match w with
    | ⟨0, _⟩ => exact (W2_arr m c 0).trans (((dat0 (E0 m) c).arrAt_in 0 rfl _).trans (A_eq0 (E0 m) c 0))
    | ⟨1, _⟩ => exact (W2_arr m c 1).trans (((dat0 (E0 m) c).arrAt_in 1 rfl _).trans (A_eq0 (E0 m) c 1))
    | ⟨2, _⟩ => exact absurd rfl hr
  · exact W2_of_ne m c r (fun w e => h ⟨w, e⟩)
theorem W4_keep (c : Dev nD) (r : Ref sig .tc) (hr : r ≠ main_v53) : W4 m c r = W3 m c r := by
  by_cases h : ∃ w, Pipeline.arrRef spec1 w = r
  · obtain ⟨w, rfl⟩ := h
    match w with
    | ⟨0, _⟩ => exact (W4_arr m c 0).trans (((dat1 (E1 m) c).arrAt_in 0 rfl _).trans (A_eq1 (E1 m) c 0))
    | ⟨1, _⟩ => exact (W4_arr m c 1).trans (((dat1 (E1 m) c).arrAt_in 1 rfl _).trans (A_eq1 (E1 m) c 1))
    | ⟨2, _⟩ => exact (W4_arr m c 2).trans (((dat1 (E1 m) c).arrAt_in 2 rfl _).trans (A_eq1 (E1 m) c 2))
    | ⟨3, _⟩ => exact (W4_arr m c 3).trans (((dat1 (E1 m) c).arrAt_in 3 rfl _).trans (A_eq1 (E1 m) c 3))
    | ⟨4, _⟩ => exact absurd rfl hr
  · exact W4_of_ne m c r (fun w e => h ⟨w, e⟩)
theorem W5_keep (c : Dev nD) (r : Ref sig .tc) (hr : r ≠ main_v54) : W5 m c r = W4 m c r := by
  by_cases h : ∃ w, Pipeline.arrRef spec2 w = r
  · obtain ⟨w, rfl⟩ := h
    match w with
    | ⟨0, _⟩ => exact (W5_arr m c 0).trans (((dat2 (E2 m) c).arrAt_in 0 rfl _).trans (A_eq2 (E2 m) c 0))
    | ⟨1, _⟩ => exact (W5_arr m c 1).trans (((dat2 (E2 m) c).arrAt_in 1 rfl _).trans (A_eq2 (E2 m) c 1))
    | ⟨2, _⟩ => exact absurd rfl hr
  · exact W5_of_ne m c r (fun w e => h ⟨w, e⟩)
theorem W7_keep (c : Dev nD) (r : Ref sig .tc) (hr : r ≠ main_v73) : W7 m c r = W6 m c r := by
  by_cases h : ∃ w, Pipeline.arrRef spec3 w = r
  · obtain ⟨w, rfl⟩ := h
    match w with
    | ⟨0, _⟩ => exact (W7_arr m c 0).trans (((dat3 (E3 m) c).arrAt_in 0 rfl _).trans (A_eq3 (E3 m) c 0))
    | ⟨1, _⟩ => exact (W7_arr m c 1).trans (((dat3 (E3 m) c).arrAt_in 1 rfl _).trans (A_eq3 (E3 m) c 1))
    | ⟨2, _⟩ => exact (W7_arr m c 2).trans (((dat3 (E3 m) c).arrAt_in 2 rfl _).trans (A_eq3 (E3 m) c 2))
    | ⟨3, _⟩ => exact (W7_arr m c 3).trans (((dat3 (E3 m) c).arrAt_in 3 rfl _).trans (A_eq3 (E3 m) c 3))
    | ⟨4, _⟩ => exact absurd rfl hr
  · exact W7_of_ne m c r (fun w e => h ⟨w, e⟩)
theorem W8_keep (hA4 : ∀ V c w, (d4 V c).A w = V c (Pipeline.arrRef spec4 w)) (c : Dev nD) (r : Ref sig .tc) (hr : r ≠ main_v74) :
    W8 d4 m c r = W7 m c r := by
  by_cases h : ∃ w, Pipeline.arrRef spec4 w = r
  · obtain ⟨w, rfl⟩ := h
    match w with
    | ⟨0, _⟩ => exact (W8_arr d4 m c 0).trans (((d4 (E4 m) c).arrAt_in 0 rfl _).trans (hA4 (E4 m) c 0))
    | ⟨1, _⟩ => exact (W8_arr d4 m c 1).trans (((d4 (E4 m) c).arrAt_in 1 rfl _).trans (hA4 (E4 m) c 1))
    | ⟨2, _⟩ => exact (W8_arr d4 m c 2).trans (((d4 (E4 m) c).arrAt_in 2 rfl _).trans (hA4 (E4 m) c 2))
    | ⟨3, _⟩ => exact (W8_arr d4 m c 3).trans (((d4 (E4 m) c).arrAt_in 3 rfl _).trans (hA4 (E4 m) c 3))
    | ⟨4, _⟩ => exact absurd rfl hr
  · exact W8_of_ne d4 m c r (fun w e => h ⟨w, e⟩)

/-- A buffer that no stretch writes and that is no region's output array reaches the end as launched:
    an argument array, for one. -/
theorem W8_kept (hA4 : ∀ V c w, (d4 V c).A w = V c (Pipeline.arrRef spec4 w)) (c : Dev nD) (r : Ref sig .tc)
    (h0 : r ∉ hostOps0_W) (h1 : r ∉ hostOps1_W) (h3 : r ∉ hostOps3_W)
    (hr : r ∉ ([main_v34, main_v53, main_v54, main_v73, main_v74] : List (Ref sig .tc))) :
    W8 d4 m c r = m ((c : Thread nD τ).loc r) := by
  have hne : ∀ x ∈ ([main_v34, main_v53, main_v54, main_v73, main_v74] : List (Ref sig .tc)), r ≠ x := fun x hx e => hr (e ▸ hx)
  calc W8 d4 m c r
      _ = W7 m c r := W8_keep d4 m hA4 c r (hne _ (by simp))
      _ = W6 m c r := W7_keep m c r (hne _ (by simp))
      _ = W5 m c r := W6_of m c r h3
      _ = W4 m c r := W5_keep m c r (hne _ (by simp))
      _ = W3 m c r := W4_keep m c r (hne _ (by simp))
      _ = W2 m c r := W3_of m c r h1
      _ = W1 m c r := W2_keep m c r (hne _ (by simp))
      _ = W0 m c r := W1_of m c r h0
      _ = m ((c : Thread nD τ).loc r) := rfl

/-! ## The proof data family, and what rides beside the buffers through every item -/

/-- Every pallas_call's proof data, each at the contents the fold gives at its region's entry. -/
def pdats : (p : Fin 5) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
  | ⟨3, _⟩ => fun c => dat3 (E3 m) c
  | ⟨4, _⟩ => fun c => d4 (E4 m) c

/-- What the last region's proof data must satisfy for the run below: its arrays are the entry contents, its body
    obligation holds, its invariant starts from and ends in the scoped rest and the generator register, and it
    owes nothing at full shares, with no bound on the pairs its waits record. -/
structure LastFacts : Prop where
  hA : ∀ V c w, (d4 V c).A w = V c (Pipeline.arrRef spec4 w)
  hbody : ∀ V c, BodyObligation (d4 V c) (defs₀ (F := F)) Variants.none () Set.univ
  hin : ∀ V c, Pipeline.ΦA spec4 c ⊢ (d4 V c).Φ 0
  hout : ∀ V c, (d4 V c).Φ (Fin.last cfg4.N) ⊢ Pipeline.ΦA spec4 c
  howed : ∀ V c t, (d4 V c).owed t = 0
  hq : ∀ V c w, (d4 V c).q w = fullShare
  hrec : ∀ V c t, (d4 V c).recorded t = Set.univ

abbrev 𝒱₀ : Variants := Variants.none
/-- No core owes another anything: no level is assigned. -/
abbrev L : GSem nD τ sig → Finset Unit := fun _ => ∅
abbrev lv : GSem nD τ sig → Unit → ℕ := fun _ _ => 0
/-- Beside the buffers: the core's generator register at some state, and its dues, none. -/
abbrev R (c : Dev nD) : sProp 𝕄 := iprop((∃ r, prngReg c r) ∗ ∃ W, owes (c : Thread nD τ) (0 : CellTallies nD τ sig Unit) W)
/-- A stretch of host operations as a segment over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Seg0.lean ====
/- Region 0 of the program as one item of the run: entered with every unscoped buffer of the core at the contents
   the fold gives before it, left with them at the contents the fold gives after it. At entry the region's arrays
   are taken out of the unscoped buffers and the generator register goes into the region's invariant; at exit the
   arrays come back at what the write-backs left, the register comes back, and every other buffer is as it was. -/
import proofs.«415612_j18743237280393_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (d4 : DatOf (F := F) cfg4)
variable (m : (ℓ : Loc nD τ sig) → Buf (Elt F) ℓ)

/-- At the region's exit each of its arrays holds what the write-backs leave, -/
theorem hF0 (c : Dev nD) (w : Fin cfg0.W) :
    (dat0 (E0 m) c).arrAt w cfg0.N = (fun b : Ref sig .tc => W2 m c b) (Pipeline.arrRef spec0 w) :=
  (W2_arr m c w).symm
/-- and every buffer that is none of its arrays what it held at entry. -/
theorem hrest0 (c : Dev nD) : ∀ b, b ∉ Finset.univ.image (Pipeline.arrRef spec0) → (fun b : Ref sig .tc => W2 m c b) b = E0 m c b :=
  fun b hb => W2_of_ne m c b fun w e => hb (Finset.mem_image.mpr ⟨w, Finset.mem_univ _, e⟩)

set_option backward.isDefEq.respectTransparency.types false in
/-- The region over the thread state "every unscoped buffer at the boundary's contents, the generator register at
    some state, nothing owed": no semaphore of the kernel's own, nothing owed at any point, full shares. -/
def reg0 : Pipeline.RegionSeg (pcfgs (F := F)) adm (pdats d4 m) () defs₀ 𝒱₀ L lv
    0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats d4 m) launch0.win launch0.arr_whole c
      ((pdats d4 m 0 c).share_full fun _ => rfl) (E0 m c) fun w => A_eq0 (E0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats d4 m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats d4 m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats d4 m) ((pdats d4 m 0 c).share_full fun _ => rfl)
      (E0 m c) (fun b : Ref sig .tc => W2 m c b) ((pdats d4 m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg1.lean ====
/- Region 1 of the program as one item of the run: entered with every unscoped buffer of the core at the contents
   the fold gives before it, left with them at the contents the fold gives after it. At entry the region's arrays
   are taken out of the unscoped buffers and the generator register goes into the region's invariant; at exit the
   arrays come back at what the write-backs left, the register comes back, and every other buffer is as it was. -/
import proofs.«415612_j18743237280393_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (d4 : DatOf (F := F) cfg4)
variable (m : (ℓ : Loc nD τ sig) → Buf (Elt F) ℓ)

/-- At the region's exit each of its arrays holds what the write-backs leave, -/
theorem hF1 (c : Dev nD) (w : Fin cfg1.W) :
    (dat1 (E1 m) c).arrAt w cfg1.N = (fun b : Ref sig .tc => W4 m c b) (Pipeline.arrRef spec1 w) :=
  (W4_arr m c w).symm
/-- and every buffer that is none of its arrays what it held at entry. -/
theorem hrest1 (c : Dev nD) : ∀ b, b ∉ Finset.univ.image (Pipeline.arrRef spec1) → (fun b : Ref sig .tc => W4 m c b) b = E1 m c b :=
  fun b hb => W4_of_ne m c b fun w e => hb (Finset.mem_image.mpr ⟨w, Finset.mem_univ _, e⟩)

set_option backward.isDefEq.respectTransparency.types false in
/-- The region over the thread state "every unscoped buffer at the boundary's contents, the generator register at
    some state, nothing owed": no semaphore of the kernel's own, nothing owed at any point, full shares. -/
def reg1 : Pipeline.RegionSeg (pcfgs (F := F)) adm (pdats d4 m) () defs₀ 𝒱₀ L lv
    1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats d4 m) launch1.win launch1.arr_whole c
      ((pdats d4 m 1 c).share_full fun _ => rfl) (E1 m c) fun w => A_eq1 (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats d4 m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats d4 m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats d4 m) ((pdats d4 m 1 c).share_full fun _ => rfl)
      (E1 m c) (fun b : Ref sig .tc => W4 m c b) ((pdats d4 m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg2.lean ====
/- Region 2 of the program as one item of the run: entered with every unscoped buffer of the core at the contents
   the fold gives before it, left with them at the contents the fold gives after it. At entry the region's arrays
   are taken out of the unscoped buffers and the generator register goes into the region's invariant; at exit the
   arrays come back at what the write-backs left, the register comes back, and every other buffer is as it was. -/
import proofs.«415612_j18743237280393_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (d4 : DatOf (F := F) cfg4)
variable (m : (ℓ : Loc nD τ sig) → Buf (Elt F) ℓ)

/-- At the region's exit each of its arrays holds what the write-backs leave, -/
theorem hF2 (c : Dev nD) (w : Fin cfg2.W) :
    (dat2 (E2 m) c).arrAt w cfg2.N = (fun b : Ref sig .tc => W5 m c b) (Pipeline.arrRef spec2 w) :=
  (W5_arr m c w).symm
/-- and every buffer that is none of its arrays what it held at entry. -/
theorem hrest2 (c : Dev nD) : ∀ b, b ∉ Finset.univ.image (Pipeline.arrRef spec2) → (fun b : Ref sig .tc => W5 m c b) b = E2 m c b :=
  fun b hb => W5_of_ne m c b fun w e => hb (Finset.mem_image.mpr ⟨w, Finset.mem_univ _, e⟩)

set_option backward.isDefEq.respectTransparency.types false in
/-- The region over the thread state "every unscoped buffer at the boundary's contents, the generator register at
    some state, nothing owed": no semaphore of the kernel's own, nothing owed at any point, full shares. -/
def reg2 : Pipeline.RegionSeg (pcfgs (F := F)) adm (pdats d4 m) () defs₀ 𝒱₀ L lv
    2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats d4 m) launch2.win launch2.arr_whole c
      ((pdats d4 m 2 c).share_full fun _ => rfl) (E2 m c) fun w => A_eq2 (E2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats d4 m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats d4 m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats d4 m) ((pdats d4 m 2 c).share_full fun _ => rfl)
      (E2 m c) (fun b : Ref sig .tc => W5 m c b) ((pdats d4 m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg3.lean ====
/- Region 3 of the program as one item of the run: entered with every unscoped buffer of the core at the contents
   the fold gives before it, left with them at the contents the fold gives after it. At entry the region's arrays
   are taken out of the unscoped buffers and the generator register goes into the region's invariant; at exit the
   arrays come back at what the write-backs left, the register comes back, and every other buffer is as it was. -/
import proofs.«415612_j18743237280393_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (d4 : DatOf (F := F) cfg4)
variable (m : (ℓ : Loc nD τ sig) → Buf (Elt F) ℓ)

/-- At the region's exit each of its arrays holds what the write-backs leave, -/
theorem hF3 (c : Dev nD) (w : Fin cfg3.W) :
    (dat3 (E3 m) c).arrAt w cfg3.N = (fun b : Ref sig .tc => W7 m c b) (Pipeline.arrRef spec3 w) :=
  (W7_arr m c w).symm
/-- and every buffer that is none of its arrays what it held at entry. -/
theorem hrest3 (c : Dev nD) : ∀ b, b ∉ Finset.univ.image (Pipeline.arrRef spec3) → (fun b : Ref sig .tc => W7 m c b) b = E3 m c b :=
  fun b hb => W7_of_ne m c b fun w e => hb (Finset.mem_image.mpr ⟨w, Finset.mem_univ _, e⟩)

set_option backward.isDefEq.respectTransparency.types false in
/-- The region over the thread state "every unscoped buffer at the boundary's contents, the generator register at
    some state, nothing owed": no semaphore of the kernel's own, nothing owed at any point, full shares. -/
def reg3 : Pipeline.RegionSeg (pcfgs (F := F)) adm (pdats d4 m) () defs₀ 𝒱₀ L lv
    3 where
  win := launch3.win.to₀
  block_pos := launch3.block_pos
  stage_whole := launch3.stage_whole
  K := PEmpty
  osem k := k.elim
  ho := Pipeline.OwnSemFacts.none _
  hbody c := (body_obligation3 (E3 m) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := 3) (pcfgs (F := F)) adm (pdats d4 m) launch3.win launch3.arr_whole c
      ((pdats d4 m 3 c).share_full fun _ => rfl) (E3 m c) fun w => A_eq3 (E3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats d4 m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats d4 m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats d4 m) ((pdats d4 m 3 c).share_full fun _ => rfl)
      (E3 m c) (fun b : Ref sig .tc => W7 m c b) ((pdats d4 m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg4.lean ====
/- The last region of the program as one item of the run, for ANY proof data over its entry contents that meet the
   facts the run needs of them: entered with every unscoped buffer of the core at the contents the fold gives before
   it, left with them at the fold's final contents, the generator register at some state and the core owing nothing:
   the thread state the launch ends in. -/
import proofs.«415612_j18743237280393_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (d4 : DatOf (F := F) cfg4)
variable (m : (ℓ : Loc nD τ sig) → Buf (Elt F) ℓ)

/-- At the region's exit each of its arrays holds what the write-backs leave, -/
theorem hF4 (c : Dev nD) (w : Fin cfg4.W) :
    (d4 (E4 m) c).arrAt w cfg4.N = (fun b : Ref sig .tc => W8 d4 m c b) (Pipeline.arrRef spec4 w) :=
  (W8_arr d4 m c w).symm
/-- and every buffer that is none of its arrays what it held at entry. -/
theorem hrest4 (c : Dev nD) : ∀ b, b ∉ Finset.univ.image (Pipeline.arrRef spec4) → (fun b : Ref sig .tc => W8 d4 m c b) b = E4 m c b :=
  fun b hb => W8_of_ne d4 m c b fun w e => hb (Finset.mem_image.mpr ⟨w, Finset.mem_univ _, e⟩)

/-- The last thread state without the dues: every unscoped buffer at the final contents, the generator register
    at some state. -/
abbrev Tₙ (c : Dev nD) : sProp 𝕄 :=
  iprop(StableHlo.held (c : Thread nD τ) (Pipeline.ucRefs τ sig) (W8 d4 m c) ∗ ∃ r, prngReg c r)

set_option backward.isDefEq.respectTransparency.types false in
/-- The last region over the thread state: its invariant is reached from the scoped rest and the generator register
    and gives them back (the two facts `hin`, `hout` of the proof data, composed with the sorting of the pieces);
    nothing owed at any point, full shares, any recorded pair allowed at entry. -/
def reg4 (h4 : LastFacts d4) :
    Pipeline.RegionSeg (pcfgs (F := F)) adm (pdats d4 m) () defs₀ 𝒱₀ L lv 4 where
  win := launch4.win.to₀
  block_pos := launch4.block_pos
  stage_whole := launch4.stage_whole
  K := PEmpty
  osem k := k.elim
  ho := Pipeline.OwnSemFacts.none _
  hbody c := (h4.hbody (E4 m) c).loose
  hwaits := Pipeline.hwaits_of_owed_zero _ _ _ _ L lv 4 fun c t => h4.howed (E4 m) c t
  pre c := iprop(StableHlo.held (c : Thread nD τ) (Pipeline.ucRefs τ sig) (W7 m c) ∗ R c)
  post c := iprop(Tₙ d4 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (E4 m c)
  hentry c := by
    rw [Pipeline.ownSems0_none]
    have hsplit := Pipeline.arrays_of_unscopedBufs (p := 4) (pcfgs (F := F)) adm (pdats d4 m) launch4.win launch4.arr_whole c
      ((pdats d4 m 4 c).share_full fun w => h4.hq (E4 m) c w) (E4 m c) fun w => h4.hA (E4 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats d4 m 4 c).owed 0 = 0 from h4.howed (E4 m) c 0]
      icases HO with ⟨%W, HO⟩; iexists W; isplitr
      · ipureintro; intro x _; refine Or.inl ?_
        rw [show (pdats d4 m 4 c).recorded 0 = Set.univ from h4.hrec (E4 m) c 0]; trivial
      iexact HO
    isplitl [Hp]; · iexact Hp
    iexact Hrest
  hin c := by
    refine .trans ?_ (h4.hin (E4 m) c)
    unfold Pipeline.ΦA
    iintro ⟨Hp, -, Hr⟩
    isplitl [Hr]; · iexact Hr
    iexact Hp
  hout c := by
    rw [Pipeline.ownSems0_none]
    refine (h4.hout (E4 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats d4 m) ((pdats d4 m 4 c).share_full fun w => h4.hq (E4 m) c w)
      (E4 m c) (fun b : Ref sig .tc => W8 d4 m c b) ((pdats d4 m 4 c).arrAt · cfg4.N) (hF4 d4 m c) (hrest4 d4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats d4 m 4 c).owed (Fin.last _) = 0 from h4.howed (E4 m) c _]
    icases HO with ⟨%W, -, HO⟩; iexists W; iexact HO

end Cert.KernelIdeal.Hand

end
-- ==== Proof.KI.Run.lean ====
/- The launch of the whole program: @main as its eight items in order — a stretch of host operations, region 0, a
   stretch, regions 1 and 2, a stretch, regions 3 and 4 — each entered with every unscoped buffer of the core at the
   contents the fold gives at that boundary, beside the generator register and the core's dues (none). From any
   launch memory with zero counters every weakly fair execution terminates, and the final memory holds, at every
   unscoped buffer of every core, the fold's final contents. The last region's proof data are a parameter. -/
import proofs.«415612_j18743237280393_1_alg».proof.Proof.KI.Seg0
import proofs.«415612_j18743237280393_1_alg».proof.Proof.KI.Seg1
import proofs.«415612_j18743237280393_1_alg».proof.Proof.KI.Seg2
import proofs.«415612_j18743237280393_1_alg».proof.Proof.KI.Seg3
import proofs.«415612_j18743237280393_1_alg».proof.Proof.KI.Seg4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (d4 : DatOf (F := F) cfg4)
variable (m : (ℓ : Loc nD τ sig) → Buf (Elt F) ℓ)

/-- @main's eight items in order: a host item per stretch from its boundary's contents, a region per pallas_call. -/
abbrev segs (h4 : LastFacts d4) : List (Pipeline.Seg (pcfgs (F := F)) adm (pdats d4 m) () defs₀ 𝒱₀ L lv) :=
  [ .host (hseg hostOps0 hostOps0_sub hostOps0_fresh (W0 m)),
    .region (reg0 d4 m),
    .host (hseg hostOps1 hostOps1_sub hostOps1_fresh (W2 m)),
    .region (reg1 d4 m),
    .region (reg2 d4 m),
    .host (hseg hostOps3 hostOps3_sub hostOps3_fresh (W5 m)),
    .region (reg3 d4 m),
    .region (reg4 d4 m h4) ]

set_option backward.isDefEq.respectTransparency.types false in
/-- The run: termination, and every unscoped buffer of every core at the fold's final contents at the end. -/
theorem run_all (h4 : LastFacts d4) (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W8 d4 m c b) :=
  Pipeline.θ_run_regions_kit (pcfgs (F := F)) adm (pdats d4 m) () cellOf_inj emb₁ defs₀ 𝒱₀ L lv m ρ main (segs d4 m h4)
    (fun c Q => by
      rewrite [main_chain c, Pipeline.Seg.run_eq_chain,
        show (segs d4 m h4).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ d4 m)
    (hch := ⟨fun _ => .rfl, fun _ => .rfl, fun _ => .rfl, fun _ => .rfl, fun _ => .rfl, fun _ => .rfl, fun _ => .rfl,
      fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 d4 m c b)
    (hfin := fun c s' => by
      iintro ⟨⟨Hh, -⟩, HSI⟩
      unfold StableHlo.held
      imodintro
      iapply (pointsTo_read_all (Pipeline.ucRefs τ sig) (fun b => (((c : Thread nD τ)).1, b)) (W8 d4 m c) s')
      isplitl [Hh] <;> iassumption)
    (hQ := fun s h => h)

end Cert.KernelIdeal.Hand

end
-- ==== Proof.KI.R4.lean ====
/- Region 4 of the program: the readout. Each of the 20 grid points takes one row block of the node features
   (5000 x 64), the readout weights (64 x 8) and bias (8) and the block's graph ids (5000 x 1), and adds to two
   buffers the body keeps from point to point — per-graph sums (256 x 8) and per-graph counts (256 x 1), zeroed at
   the first point —; the last point turns the two into the output block (256 x 8), the only point that stores it.
   Stated for ANY contents `V` of the core's buffers at the region's entry: which block each window holds at a
   point, what the two kept buffers hold after each point as a recursion over the points, what the last point
   leaves in the output buffer, and that the body run on buffers holding those ends with them so — point by point. -/
import proofs.«415612_j18743237280393_1_alg».proof.Proof.Gen.KernelIdeal.Launch
import proofs.«415612_j18743237280393_1_alg».proof.Proof.Gen.KernelIdeal.Skeleton
import proofs.«415612_j18743237280393_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` works on, read off the entry contents. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's buffer holds its block at every point, fetched there or not (the weights and the bias are
    fetched once: their block index never moves), for any proof data over `V` whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The first branch condition of the body (the two kept buffers are zeroed under it), from the grid coordinates. -/
abbrev cond4_1 (i : grid4.Coords) : Prop :=
  Scalar.cmpi .ne (Scalar.extui (Scalar.cmpi .eq (BitVec.ofNat 32 (i 0).val) 0#32)) 0#32 = 1#1
/-- It holds at the first point only. -/
theorem hcond4_1 : ∀ t : Fin cfg4.N, cond4_1 (grid4.coords t) ↔ t.val % 20 = 0 :=
  (by decide +kernel : ∀ t : Fin grid4.N, cond4_1 (grid4.coords t) ↔ t.val % 20 = 0)
/-- The second branch condition of the body (the output block is stored under it), from the grid coordinates. -/
abbrev cond4_2 (i : grid4.Coords) : Prop := k4_cond2 i = 1#1
/-- It holds at the last point only. -/
theorem hcond4_2 : ∀ t : Fin cfg4.N, cond4_2 (grid4.coords t) ↔ t.val % 20 = 19 :=
  (by decide +kernel : ∀ t : Fin grid4.N, cond4_2 (grid4.coords t) ↔ t.val % 20 = 19)

theorem off2_zero : (![0, 0] : Fin 2 → Nat) = fun _ => 0 := funext fun a => by fin_cases a <;> rfl
theorem off1_zero : (![0] : Fin 1 → Nat) = fun _ => 0 := funext fun a => by fin_cases a; rfl

/-- A store through the whole-shape rectangle, the last of a buffer's stores, leaves its payload there whatever the
    buffer held and whatever was stored before. -/
theorem read_store_whole {κ : Kind} {sp : Space} {S : Shape} {e : EltTy} (v : View sig κ sp S e) {off : Fin S.rank → Nat}
    (h : off = fun _ => 0) (inb : ∀ a, off a + S.size a ≤ S.size a) (f : v.ty.Contents (Elt F)) (w : S.Idx → Elt F e)
    (L : List (View.Piece (Elt F) S e)) :
    v.read (Elt F) (v.writes (Elt F) f (⟨Rect.unit off S.size inb, w⟩ :: L)) = w :=
  (View.read_writes_eq_canon v f _ (fun y => ⟨_, List.mem_cons_self, View.mem_set_unit_zero h inb y⟩)).trans
    (View.canon_cons_unit_zero h inb w L)

/-- A load through the whole-shape rectangle reads the buffer's contents. -/
theorem readAt_whole {κ : Kind} {sp : Space} {S : Shape} {e : EltTy} (v : View sig κ sp S e) {off : Fin S.rank → Nat}
    (h : off = fun _ => 0) (inb : ∀ a, off a + S.size a ≤ S.size a) (f : v.ty.Contents (Elt F)) :
    v.readAt (Elt F) (Rect.unit off S.size inb).toLoadRect f = v.read (Elt F) f :=
  (View.readAt_eq_ld v f _).trans (View.ld_unit_zero h inb _)

set_option maxHeartbeats 1000000 in
/-- The body at the first point, on whole buffers: the inputs at `x0 … x3`, the two kept buffers at anything; it
    zeroes the kept buffers, then advances them by the point's block. The output buffer is not touched. -/
theorem sound_first4 (c : Dev nD) (E : Set ℕ) (i : grid4.Coords) (h1 : cond4_1 i) (h2 : ¬cond4_2 i)
    (a0 : Memref sig .tc .vmem S5000x64 .f32) (ha0 : a0.IsWhole) (a1 : Memref sig .tc .vmem S64x8 .f32) (ha1 : a1.IsWhole)
    (a2 : Memref sig .tc .vmem S8 .f32) (ha2 : a2.IsWhole) (a3 : Memref sig .tc .vmem S5000x1 .i32) (ha3 : a3.IsWhole)
    (a4 : Memref sig .tc .vmem S256x8 .f32) (ha4 : a4.IsWhole) (a5 : Memref sig .tc .vmem S256x8 .f32) (ha5 : a5.IsWhole)
    (a6 : Memref sig .tc .vmem S256x1 .f32) (ha6 : a6.IsWhole)
    (x0 : Vec F S5000x64 .f32) (x1 : Vec F S64x8 .f32) (x2 : Vec F S8 .f32) (x3 : Vec F S5000x1 .i32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ (∃ d, owns (c : Thread nD τ) a5 fullShare d) ∗ (∃ d, owns (c : Thread nD τ) a6 fullShare d)
        ∗ (iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a5 fullShare (k4_pay5 x0 x1 x2 x3 k4_pay2)
            ∗ owns (c : Thread nD τ) a6 fullShare (k4_pay6 x3 k4_pay3)) -∗ K ⟨⟩))
      ⊢ wp frame (wpE (defs₀ (F := F)) Variants.none c none) E (cc4__final_kernel i a0 ha0 a1 ha1 a2 ha2 a3 ha3 a4 ha4 a5 ha5 a6 ha6) K := by
  simp only [cc4__final_kernel_eq_skeleton]; unfold cc4__final_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, Hk⟩
  subst hf0; subst hf1; subst hf2; subst hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists _; isplitr
    swap; · iexact H5
    ipureintro
    sl_unfold_run_names
    refine (read_store_whole a5.view off2_zero _ _ _ _).trans ?_
    rw [readAt_whole a0.view off2_zero _ f0, readAt_whole a1.view off2_zero _ f1, readAt_whole a2.view off1_zero _ f2,
      readAt_whole a3.view off2_zero _ f3, View.readCov_unit_zero (Val := Elt F) a5.view off2_zero _ (k4_pay2 (F := F))]
  iexists _; isplitr
  swap; · iexact H6
  ipureintro
  sl_unfold_run_names
  refine (read_store_whole a6.view off2_zero _ _ _ _).trans ?_
  rw [readAt_whole a3.view off2_zero _ f3, View.readCov_unit_zero (Val := Elt F) a6.view off2_zero _ (k4_pay3 (F := F))]

set_option maxHeartbeats 1000000 in
/-- The body at a point that is neither the first nor the last, on whole buffers: the inputs at `x0 … x3`, the two
    kept buffers at `s0`, `s1`; it ends with the inputs as they were and the kept buffers advanced by the point's
    block. The output buffer is not touched. -/
theorem sound_mid4 (c : Dev nD) (E : Set ℕ) (i : grid4.Coords) (h1 : ¬cond4_1 i) (h2 : ¬cond4_2 i)
    (a0 : Memref sig .tc .vmem S5000x64 .f32) (ha0 : a0.IsWhole) (a1 : Memref sig .tc .vmem S64x8 .f32) (ha1 : a1.IsWhole)
    (a2 : Memref sig .tc .vmem S8 .f32) (ha2 : a2.IsWhole) (a3 : Memref sig .tc .vmem S5000x1 .i32) (ha3 : a3.IsWhole)
    (a4 : Memref sig .tc .vmem S256x8 .f32) (ha4 : a4.IsWhole) (a5 : Memref sig .tc .vmem S256x8 .f32) (ha5 : a5.IsWhole)
    (a6 : Memref sig .tc .vmem S256x1 .f32) (ha6 : a6.IsWhole)
    (x0 : Vec F S5000x64 .f32) (x1 : Vec F S64x8 .f32) (x2 : Vec F S8 .f32) (x3 : Vec F S5000x1 .i32)
    (s0 : Vec F S256x8 .f32) (s1 : Vec F S256x1 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a5 fullShare s0 ∗ owns (c : Thread nD τ) a6 fullShare s1
        ∗ (iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a5 fullShare (k4_pay5 x0 x1 x2 x3 s0)
            ∗ owns (c : Thread nD τ) a6 fullShare (k4_pay6 x3 s1)) -∗ K ⟨⟩))
      ⊢ wp frame (wpE (defs₀ (F := F)) Variants.none c none) E (cc4__final_kernel i a0 ha0 a1 ha1 a2 ha2 a3 ha3 a4 ha4 a5 ha5 a6 ha6) K := by
  simp only [cc4__final_kernel_eq_skeleton]; unfold cc4__final_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, Hk⟩
  subst hf0; subst hf1; subst hf2; subst hf3; subst hf5; subst hf6
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists _; isplitr
    swap; · iexact H5
    ipureintro
    refine (read_store_whole a5.view off2_zero _ _ _ _).trans ?_
    rw [readAt_whole a0.view off2_zero _ f0, readAt_whole a1.view off2_zero _ f1, readAt_whole a2.view off1_zero _ f2,
      readAt_whole a3.view off2_zero _ f3, readAt_whole a5.view off2_zero _ f5]
  iexists _; isplitr
  swap; · iexact H6
  ipureintro
  refine (read_store_whole a6.view off2_zero _ _ _ _).trans ?_
  rw [readAt_whole a3.view off2_zero _ f3, readAt_whole a6.view off2_zero _ f6]

set_option maxHeartbeats 1000000 in
/-- The body at the last point, on whole buffers: the inputs at `x0 … x3`, the two kept buffers at `s0`, `s1`, the
    output buffer at anything; it advances the kept buffers by the point's block, then stores into the output buffer
    what the advanced two give. -/
theorem sound_last4 (c : Dev nD) (E : Set ℕ) (i : grid4.Coords) (h1 : ¬cond4_1 i) (h2 : cond4_2 i)
    (a0 : Memref sig .tc .vmem S5000x64 .f32) (ha0 : a0.IsWhole) (a1 : Memref sig .tc .vmem S64x8 .f32) (ha1 : a1.IsWhole)
    (a2 : Memref sig .tc .vmem S8 .f32) (ha2 : a2.IsWhole) (a3 : Memref sig .tc .vmem S5000x1 .i32) (ha3 : a3.IsWhole)
    (a4 : Memref sig .tc .vmem S256x8 .f32) (ha4 : a4.IsWhole) (a5 : Memref sig .tc .vmem S256x8 .f32) (ha5 : a5.IsWhole)
    (a6 : Memref sig .tc .vmem S256x1 .f32) (ha6 : a6.IsWhole)
    (x0 : Vec F S5000x64 .f32) (x1 : Vec F S64x8 .f32) (x2 : Vec F S8 .f32) (x3 : Vec F S5000x1 .i32)
    (s0 : Vec F S256x8 .f32) (s1 : Vec F S256x1 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a5 fullShare s0 ∗ owns (c : Thread nD τ) a6 fullShare s1
        ∗ (∃ d, owns (c : Thread nD τ) a4 fullShare d)
        ∗ (iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a5 fullShare (k4_pay5 x0 x1 x2 x3 s0)
            ∗ owns (c : Thread nD τ) a6 fullShare (k4_pay6 x3 s1)
            ∗ owns (c : Thread nD τ) a4 fullShare (k4_pay1 (k4_pay5 x0 x1 x2 x3 s0) (k4_pay6 x3 s1))) -∗ K ⟨⟩))
      ⊢ wp frame (wpE (defs₀ (F := F)) Variants.none c none) E (cc4__final_kernel i a0 ha0 a1 ha1 a2 ha2 a3 ha3 a4 ha4 a5 ha5 a6 ha6) K := by
  simp only [cc4__final_kernel_eq_skeleton]; unfold cc4__final_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, ⟨%d4, %f4, -, H4⟩, Hk⟩
  subst hf0; subst hf1; subst hf2; subst hf3; subst hf5; subst hf6
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists _; isplitr
    swap; · iexact H5
    ipureintro
    refine (read_store_whole a5.view off2_zero _ _ _ _).trans ?_
    rw [readAt_whole a0.view off2_zero _ f0, readAt_whole a1.view off2_zero _ f1, readAt_whole a2.view off1_zero _ f2,
      readAt_whole a3.view off2_zero _ f3, readAt_whole a5.view off2_zero _ f5]
  isplitl [H6]
  · iexists _; isplitr
    swap; · iexact H6
    ipureintro
    refine (read_store_whole a6.view off2_zero _ _ _ _).trans ?_
    rw [readAt_whole a3.view off2_zero _ f3, readAt_whole a6.view off2_zero _ f6]
  iexists _; isplitr
  swap; · iexact H4
  ipureintro
  sl_unfold_run_names
  refine (read_store_whole a4.view off2_zero _ _ _ _).trans ?_
  refine congrArg₂ k4_pay1 ((View.readCov_unit_zero (Val := Elt F) a5.view off2_zero _ _).trans ?_)
    ((View.readCov_unit_zero (Val := Elt F) a6.view off2_zero _ _).trans ?_)
  · rw [readAt_whole a0.view off2_zero _ f0, readAt_whole a1.view off2_zero _ f1, readAt_whole a2.view off1_zero _ f2,
      readAt_whole a3.view off2_zero _ f3, readAt_whole a5.view off2_zero _ f5]
  · rw [readAt_whole a3.view off2_zero _ f3, readAt_whole a6.view off2_zero _ f6]

/-- The two kept buffers after point `n`: the running per-graph sums and counts. The first point starts them from
    zero, every later one from what the point before left. -/
def sc4 (c : Dev nD) : (n : ℕ) → n < cfg4.N → Vec F S256x8 .f32 × Vec F S256x1 .f32
  | 0, h => (k4_pay5 (iblk4 V c 0 ⟨0, h⟩) (iblk4 V c 1 ⟨0, h⟩) (iblk4 V c 2 ⟨0, h⟩) (iblk4 V c 3 ⟨0, h⟩) k4_pay2, k4_pay6 (iblk4 V c 3 ⟨0, h⟩) k4_pay3)
  | n + 1, h => (k4_pay5 (iblk4 V c 0 ⟨n + 1, h⟩) (iblk4 V c 1 ⟨n + 1, h⟩) (iblk4 V c 2 ⟨n + 1, h⟩) (iblk4 V c 3 ⟨n + 1, h⟩) (sc4 c n (Nat.lt_of_succ_lt h)).1,
      k4_pay6 (iblk4 V c 3 ⟨n + 1, h⟩) (sc4 c n (Nat.lt_of_succ_lt h)).2)

/-- What the last point stores into the output buffer, from the two kept buffers. -/
def fin4 (s : Vec F S256x8 .f32 × Vec F S256x1 .f32) : Vec F S256x8 .f32 := k4_pay1 s.1 s.2

/-- The kept buffers after the first point. -/
theorem sc4_first (c : Dev nD) (t : Fin cfg4.N) (h : t.val = 0) :
    sc4 V c t.val t.isLt = (k4_pay5 (iblk4 V c 0 t) (iblk4 V c 1 t) (iblk4 V c 2 t) (iblk4 V c 3 t) k4_pay2, k4_pay6 (iblk4 V c 3 t) k4_pay3) := by
  obtain ⟨n, hn⟩ := t
  cases n with
  | zero => rfl
  | succ n => exact absurd h (Nat.succ_ne_zero n)

/-- The kept buffers after a later point, over what the point before left. -/
theorem sc4_next (c : Dev nD) (t : Fin cfg4.N) (h : t.val ≠ 0) :
    sc4 V c t.val t.isLt
      = (k4_pay5 (iblk4 V c 0 t) (iblk4 V c 1 t) (iblk4 V c 2 t) (iblk4 V c 3 t) (sc4 V c (t.val - 1) (Nat.lt_of_le_of_lt (Nat.sub_le _ _) t.isLt)).1,
          k4_pay6 (iblk4 V c 3 t) (sc4 V c (t.val - 1) (Nat.lt_of_le_of_lt (Nat.sub_le _ _) t.isLt)).2) := by
  obtain ⟨n, hn⟩ := t
  cases n with
  | zero => exact absurd rfl h
  | succ n => rfl

/-- The two buffers the body keeps from point to point, as the whole memrefs it is passed. -/
abbrev scM4_0 : Memref sig .tc .vmem S256x8 .f32 := Memref.whole cc4_scratch0
abbrev scM4_1 : Memref sig .tc .vmem S256x1 .f32 := Memref.whole cc4_scratch1

/-- The region's invariant before position `n`: before the first point what the launch hands over (every scoped
    buffer at anything, the generator register at some state); afterwards the two kept buffers owned whole at what
    the point before left in them, beside the other scoped buffers and the register. -/
def Phi4 (c : Dev nD) : (n : ℕ) → n ≤ cfg4.N → sProp 𝕄
  | 0, _ => Pipeline.ΦA spec4 c
  | n + 1, hn => iprop(owns (c : Thread nD τ) scM4_0 fullShare (sc4 V c n hn).1 ∗ owns (c : Thread nD τ) scM4_1 fullShare (sc4 V c n hn).2
      ∗ Pipeline.scopedRestBut spec4 c [cc4_scratch0, cc4_scratch1] ∗ (∃ r, prngReg c r))

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop(owns (c : Thread nD τ) scM4_0 fullShare (sc4 V c n hn).1 ∗ owns (c : Thread nD τ) scM4_1 fullShare (sc4 V c n hn).2
      ∗ Pipeline.scopedRestBut spec4 c [cc4_scratch0, cc4_scratch1] ∗ (∃ r, prngReg c r)) := rfl

theorem Phi4_pos (c : Dev nD) (n : ℕ) (h : n ≤ cfg4.N) (hz : n ≠ 0) :
    Phi4 V c n h = iprop(owns (c : Thread nD τ) scM4_0 fullShare (sc4 V c (n - 1) (by omega)).1
      ∗ owns (c : Thread nD τ) scM4_1 fullShare (sc4 V c (n - 1) (by omega)).2
      ∗ Pipeline.scopedRestBut spec4 c [cc4_scratch0, cc4_scratch1] ∗ (∃ r, prngReg c r)) := by
  cases n with
  | zero => exact absurd rfl hz
  | succ n => rfl

/-- What the launch hands the region, with the two kept buffers taken out of the scoped rest as memrefs owned at
    some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut spec4 c [cc4_scratch0, cc4_scratch1]) ∗ (∃ r, prngReg c r)) := by
  unfold Pipeline.ΦA; rw [scopedRest4_split]; simp only [scM4_0, scM4_1, owns_whole]; try rfl

/-- The proof data of this region on core `c`: the arrays as the region finds them; after the body each input
    buffer still at its block, the output buffer at what the kept buffers after the point give (only the last
    point's is ever read: elsewhere the window is idle and not written back); the invariant `Phi4`; nothing owed,
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => fin4 (sc4 V c t.val t.isLt)
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = fin4 (sc4 V c t.val t.isLt) := by dsimp only [dat4]
theorem owed4 (c : Dev nD) (t : Fin (cfg4.N + 1)) : (dat4 V c).owed t = 0 := rfl
theorem q4 (c : Dev nD) (w : Fin cfg4.W) : (dat4 V c).q w = fullShare := rfl
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- The invariant at a point's start, restated at the point's number. -/
theorem Phi4_castSucc (c : Dev nD) (t : Fin cfg4.N) :
    (dat4 V c).Φ t.castSucc = Phi4 V c t.val (Nat.le_of_lt t.isLt) := by
  dsimp only [dat4]; simp only [Fin.coe_castSucc]

/-- What the launch hands the region is the invariant before the first point. -/
theorem Phi_in4 (c : Dev nD) : Pipeline.ΦA spec4 c ⊢ (dat4 V c).Φ 0 := by
  rw [show (dat4 V c).Φ 0 = Phi4 V c 0 (Nat.zero_le _) from rfl, Phi4_zero V c 0 _ rfl]
  try exact Idealize.SL.BI.Entails.refl _

/-- After the last point the invariant gives it back: what the two kept buffers hold is forgotten. -/
theorem Phi_out4 (c : Dev nD) : (dat4 V c).Φ (Fin.last cfg4.N) ⊢ Pipeline.ΦA spec4 c := by
  rw [show (dat4 V c).Φ (Fin.last cfg4.N) = Phi4 V c (Fin.last cfg4.N).val (Nat.le_of_lt_succ (Fin.last cfg4.N).isLt) from rfl,
    Phi4_pos V c _ _ (by rw [Fin.val_last]; have : cfg4.N = 20 := N_4; omega), PhiA4_eq]
  iintro ⟨H0, H1, HR, Hg⟩
  isplitl [H0 H1 HR]
  · isplitl [H0 H1]
    · isplitl [H0]
      · iexists _; iexact H0
      iexists _; iexact H1
    iexact HR
  iexact Hg

/-- Where the printed configuration calls a window idle: an input never; the output at every point but the last,
    and those points do not write it back. -/
theorem live4_0 : ∀ t : Fin cfg4.N, cfg4.idle 0 (grid4.coords t) = false := fun _ => rfl
theorem live4_1 : ∀ t : Fin cfg4.N, cfg4.idle 1 (grid4.coords t) = false := fun _ => rfl
theorem live4_2 : ∀ t : Fin cfg4.N, cfg4.idle 2 (grid4.coords t) = false := fun _ => rfl
theorem live4_3 : ∀ t : Fin cfg4.N, cfg4.idle 3 (grid4.coords t) = false := fun _ => rfl
theorem idle4_4 : ∀ t : Fin cfg4.N, ¬cond4_2 (grid4.coords t) → cfg4.idle 4 (grid4.coords t) = true := by decide +kernel
theorem live4_4 : ∀ t : Fin cfg4.N, cond4_2 (grid4.coords t) → cfg4.idle 4 (grid4.coords t) = false := by decide +kernel
theorem noflush4_4 (t : Fin cfg4.N) (h : ¬cond4_2 (grid4.coords t)) : (cfg4.win 4).flush t = false :=
  Bool.eq_false_iff.2 fun hf => h ((hcond4_2 t).2 ((flush4_4 t).1 hf))

/-- At a point live for a window the body's post for it is the buffer at what the body leaves. -/
theorem leaves4_0 (c : Dev nD) (t : Fin cfg4.N) :
    (dat4 V c).leavesExact 0 t = owns (c : Thread nD τ) (st4_0 t) fullShare (iblk4 V c 0 t) := by
  unfold Dat.leavesExact; rw [live4_0 t, after4_0]
theorem leaves4_1 (c : Dev nD) (t : Fin cfg4.N) :
    (dat4 V c).leavesExact 1 t = owns (c : Thread nD τ) (st4_1 t) fullShare (iblk4 V c 1 t) := by
  unfold Dat.leavesExact; rw [live4_1 t, after4_1]
theorem leaves4_2 (c : Dev nD) (t : Fin cfg4.N) :
    (dat4 V c).leavesExact 2 t = owns (c : Thread nD τ) (st4_2 t) fullShare (iblk4 V c 2 t) := by
  unfold Dat.leavesExact; rw [live4_2 t, after4_2]
theorem leaves4_3 (c : Dev nD) (t : Fin cfg4.N) :
    (dat4 V c).leavesExact 3 t = owns (c : Thread nD τ) (st4_3 t) fullShare (iblk4 V c 3 t) := by
  unfold Dat.leavesExact; rw [live4_3 t, after4_3]
theorem leaves4_4_last (c : Dev nD) (t : Fin cfg4.N) (h : cond4_2 (grid4.coords t)) :
    (dat4 V c).leavesExact 4 t = owns (c : Thread nD τ) (st4_4 t) fullShare (fin4 (sc4 V c t.val t.isLt)) := by
  unfold Dat.leavesExact; rw [live4_4 t h, after4_4]

/-- What the body is handed at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it hands back. -/
def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t ∗ (dat4 V c).leavesExact 2 t
    ∗ (dat4 V c).leavesExact 3 t ∗ (dat4 V c).leavesExact 4 t)

set_option maxHeartbeats 1000000 in
/-- The body at the first point: the invariant hands it the two kept buffers at anything and takes them back at what the point leaves; the output window is idle and handed back as found. -/
theorem sound_body4_first (c : Dev nD) (t : Fin cfg4.N) (ht : t.val = 0) :
    bodyPre4 V c t ⊢ wp frame (wpE (defs₀ (F := F)) Variants.none c none) Set.univ (bodyAt4 t) (fun _ => bodyPost4 V c t) := by
  have hN : t.val < 20 := lt_of_lt_of_eq t.isLt (show cfg4.N = 20 from N_4)
  have hc1 : cond4_1 (grid4.coords t) := (hcond4_1 t).mpr (by omega)
  have hc2 : ¬cond4_2 (grid4.coords t) := fun h => by have := (hcond4_2 t).mp h; omega
  unfold bodyPre4 bodyPost4 bodyAt4
  simp only [before4_0, before4_1, before4_2, before4_3]
  rw [show (dat4 V c).owesAt () t.succ = (dat4 V c).owesAt () t.castSucc from rfl,
    show (dat4 V c).Φ t.succ = Phi4 V c (t.val + 1) t.isLt from rfl, Phi4_succ,
    leaves4_0, leaves4_1, leaves4_2, leaves4_3,
    Dat.leavesExact_idle (dat4 V c) 4 t (idle4_4 t hc2) (noflush4_4 t hc2),
    sc4_first V c t ht, Phi4_castSucc V c t, Phi4_zero V c _ _ ht, PhiA4_eq]
  iintro ⟨⟨⟨⟨⟨%e5, HS0⟩, ⟨%e6, HS1⟩⟩, HR⟩, Hg⟩, Ho, ⟨%d0, H0⟩, ⟨%d1, H1⟩, ⟨%d2, H2⟩, ⟨%d3, H3⟩, H4⟩
  iapply (sound_first4 c Set.univ (grid4.coords t) hc1 hc2 _ _ _ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [HS0]; · iexists _; iexact HS0
  isplitl [HS1]; · iexists _; iexact HS1
  iintro ⟨H0, H1, H2, H3, HS0, HS1⟩
  isplitl [HS0 HS1 HR Hg]
  · isplitl [HS0]; · iexact HS0
    isplitl [HS1]; · iexact HS1
    isplitl [HR]; · iexact HR
    iexact Hg
  isplitl [Ho]; · iexact Ho
  isplitl [H0]; · iexact H0
  isplitl [H1]; · iexact H1
  isplitl [H2]; · iexact H2
  isplitl [H3]; · iexact H3
  iexact H4

set_option maxHeartbeats 1000000 in
/-- The body at a point neither first nor last: the invariant hands it the two kept buffers at what the point before left and takes them back advanced; the output window is idle and handed back as found. -/
theorem sound_body4_mid (c : Dev nD) (t : Fin cfg4.N) (ht : t.val ≠ 0) (ht' : t.val ≠ 19) :
    bodyPre4 V c t ⊢ wp frame (wpE (defs₀ (F := F)) Variants.none c none) Set.univ (bodyAt4 t) (fun _ => bodyPost4 V c t) := by
  have hN : t.val < 20 := lt_of_lt_of_eq t.isLt (show cfg4.N = 20 from N_4)
  have hc1 : ¬cond4_1 (grid4.coords t) := fun h => by have := (hcond4_1 t).mp h; omega
  have hc2 : ¬cond4_2 (grid4.coords t) := fun h => by have := (hcond4_2 t).mp h; omega
  unfold bodyPre4 bodyPost4 bodyAt4
  simp only [before4_0, before4_1, before4_2, before4_3]
  rw [show (dat4 V c).owesAt () t.succ = (dat4 V c).owesAt () t.castSucc from rfl,
    show (dat4 V c).Φ t.succ = Phi4 V c (t.val + 1) t.isLt from rfl, Phi4_succ,
    leaves4_0, leaves4_1, leaves4_2, leaves4_3,
    Dat.leavesExact_idle (dat4 V c) 4 t (idle4_4 t hc2) (noflush4_4 t hc2),
    sc4_next V c t ht, Phi4_castSucc V c t, Phi4_pos V c _ _ ht]
  iintro ⟨⟨HS0, HS1, HR, Hg⟩, Ho, ⟨%d0, H0⟩, ⟨%d1, H1⟩, ⟨%d2, H2⟩, ⟨%d3, H3⟩, H4⟩
  iapply (sound_mid4 c Set.univ (grid4.coords t) hc1 hc2 _ _ _ _ _ _ _ _ _ _ _ _ _ _ (iblk4 V c 0 t) (iblk4 V c 1 t) (iblk4 V c 2 t) (iblk4 V c 3 t) _ _ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, HS0, HS1⟩
  isplitl [HS0 HS1 HR Hg]
  · isplitl [HS0]; · iexact HS0
    isplitl [HS1]; · iexact HS1
    isplitl [HR]; · iexact HR
    iexact Hg
  isplitl [Ho]; · iexact Ho
  isplitl [H0]; · iexact H0
  isplitl [H1]; · iexact H1
  isplitl [H2]; · iexact H2
  isplitl [H3]; · iexact H3
  iexact H4

set_option maxHeartbeats 1000000 in
/-- The body at the last point: as at a middle point, and the output window, live here, is left at what the advanced kept buffers give. -/
theorem sound_body4_last (c : Dev nD) (t : Fin cfg4.N) (ht : t.val = 19) :
    bodyPre4 V c t ⊢ wp frame (wpE (defs₀ (F := F)) Variants.none c none) Set.univ (bodyAt4 t) (fun _ => bodyPost4 V c t) := by
  have hN : t.val < 20 := lt_of_lt_of_eq t.isLt (show cfg4.N = 20 from N_4)
  have ht0 : t.val ≠ 0 := by omega
  have hc1 : ¬cond4_1 (grid4.coords t) := fun h => by have := (hcond4_1 t).mp h; omega
  have hc2 : cond4_2 (grid4.coords t) := (hcond4_2 t).mpr (by omega)
  unfold bodyPre4 bodyPost4 bodyAt4
  simp only [before4_0, before4_1, before4_2, before4_3]
  rw [show (dat4 V c).owesAt () t.succ = (dat4 V c).owesAt () t.castSucc from rfl,
    show (dat4 V c).Φ t.succ = Phi4 V c (t.val + 1) t.isLt from rfl, Phi4_succ,
    leaves4_0, leaves4_1, leaves4_2, leaves4_3, leaves4_4_last V c t hc2]
  unfold fin4
  rw [sc4_next V c t ht0, Phi4_castSucc V c t, Phi4_pos V c _ _ ht0]
  iintro ⟨⟨HS0, HS1, HR, Hg⟩, Ho, ⟨%d0, H0⟩, ⟨%d1, H1⟩, ⟨%d2, H2⟩, ⟨%d3, H3⟩, ⟨%d4, H4⟩⟩
  iapply (sound_last4 c Set.univ (grid4.coords t) hc1 hc2 _ _ _ _ _ _ _ _ _ _ _ _ _ _ (iblk4 V c 0 t) (iblk4 V c 1 t) (iblk4 V c 2 t) (iblk4 V c 3 t) _ _ _)
  isplitl [H0]; · iexact H0
  isplitl [H1]; · iexact H1
  isplitl [H2]; · iexact H2
  isplitl [H3]; · iexact H3
  isplitl [HS0]; · iexact HS0
  isplitl [HS1]; · iexact HS1
  isplitl [H4]; · iexists _; iexact H4
  iintro ⟨H0, H1, H2, H3, HS0, HS1, H4⟩
  isplitl [HS0 HS1 HR Hg]
  · isplitl [HS0]; · iexact HS0
    isplitl [HS1]; · iexact HS1
    isplitl [HR]; · iexact HR
    iexact Hg
  isplitl [Ho]; · iexact Ho
  isplitl [H0]; · iexact H0
  isplitl [H1]; · iexact H1
  isplitl [H2]; · iexact H2
  isplitl [H3]; · iexact H3
  iexact H4

/-- The body at any point: by which of the three kinds of point it is. -/
theorem sound_body4 (c : Dev nD) (t : Fin cfg4.N) :
    bodyPre4 V c t ⊢ wp frame (wpE (defs₀ (F := F)) Variants.none c none) Set.univ (bodyAt4 t) (fun _ => bodyPost4 V c t) := by
  by_cases h0 : t.val = 0
  · exact sound_body4_first V c t h0
  · by_cases h19 : t.val = 19
    · exact sound_body4_last V c t h19
    · exact sound_body4_mid V c t h0 h19

/-- The body obligation of this region, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Frame.lean ====
/- The two things the certificate takes from the run: the FRAME — every weakly fair execution of @main terminates
   and each argument array ends as launched (no stretch of host operations writes an argument and no region has one
   for an output) — and the VALUE — the result array ends at what the fold's last valuation holds there, the output
   of the last region. Both with the last region's proof data put in for the fold's parameter. -/
import proofs.«415612_j18743237280393_1_alg».proof.Proof.KI.Run
import proofs.«415612_j18743237280393_1_alg».proof.Proof.KI.R4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The last region's proof data satisfy what the run asks of them. -/
theorem lastFacts4 : LastFacts (F := F) dat4 :=
  ⟨A_eq4, body_obligation4, Phi_in4, Phi_out4, owed4, fun _ _ _ => rfl, fun _ _ _ => rfl⟩

variable (m : (ℓ : Loc nD τ sig) → Buf (Elt F) ℓ) (ρ : Dev nD → PrngReg)

/-- An argument array reaches the end as launched. -/
theorem kept_arg (c : Dev nD) (r : Ref sig .tc) (h0 : r ∉ hostOps0_W) (h1 : r ∉ hostOps1_W) (h3 : r ∉ hostOps3_W)
    (hr : r ∉ ([main_v34, main_v53, main_v54, main_v73, main_v74] : List (Ref sig .tc))) :
    W8 dat4 m c r = m ((c : Thread nD τ).loc r) :=
  W8_kept dat4 m (lastFacts4 (F := F)).hA c r h0 h1 h3 hr

/-- The run's value and frame in one: the result array at the last region's output, the arguments as launched. -/
theorem run_value : θ_run defs (onTc (τ := τ) (main (F := F))) ⟨m, fun _ => 0, ρ⟩ (fun r => ∀ c : Dev nD,
      r.2.mem ((c.tc : Thread nD τ).loc main_v74) = W8 dat4 m c main_v74
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v74 (by decide)),
     (h c _ (mem_uc main_arg0 (by decide))).trans (kept_arg m c main_arg0 (by decide) (by decide) (by decide) (by decide)),
     (h c _ (mem_uc main_arg1 (by decide))).trans (kept_arg m c main_arg1 (by decide) (by decide) (by decide) (by decide)),
     (h c _ (mem_uc main_arg2 (by decide))).trans (kept_arg m c main_arg2 (by decide) (by decide) (by decide) (by decide)),
     (h c _ (mem_uc main_arg3 (by decide))).trans (kept_arg m c main_arg3 (by decide) (by decide) (by decide) (by decide)),
     (h c _ (mem_uc main_arg4 (by decide))).trans (kept_arg m c main_arg4 (by decide) (by decide) (by decide) (by decide)),
     (h c _ (mem_uc main_arg5 (by decide))).trans (kept_arg m c main_arg5 (by decide) (by decide) (by decide) (by decide)),
     (h c _ (mem_uc main_arg6 (by decide))).trans (kept_arg m c main_arg6 (by decide) (by decide) (by decide) (by decide)),
     (h c _ (mem_uc main_arg7 (by decide))).trans (kept_arg m c main_arg7 (by decide) (by decide) (by decide) (by decide)),
     (h c _ (mem_uc main_arg8 (by decide))).trans (kept_arg m c main_arg8 (by decide) (by decide) (by decide) (by decide))⟩)
    (run_all dat4 m (lastFacts4 (F := F)) ρ)

/-- The frame: the arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_value m ρ)

end Cert.KernelIdeal.Hand

end
-- ==== Proof.Spec.lean ====
/- The mathematics both programs compute, stage by stage, over the extended reals: a dense projection of the node
   features, the graph-convolution finish (aggregated neighbours, plus the node's own row scaled by its inverse
   degree, plus a bias; once followed by a clamp at zero), the class logits, their mean over each graph of the
   batch (a node belongs to graph `g` when its 32-bit id word is the word of `g`; a node whose id names no graph
   contributes nowhere; an empty graph divides by one), and the row-wise log-softmax of the means. Each stage is ONE
   function of whole arrays, read index by index; nothing here mentions a program. -/
import Idealize.ShloMosaic.PureOps.Ideal
import Idealize.ShloMosaic.Lib.ValueIdx

noncomputable section

namespace Cert.Spec

open Idealize.ShloMosaic Idealize.ShloMosaic.ValueIdx

/-- nodes x features, features x features, nodes x 1, features, features x classes, classes, nodes x classes,
    graphs x classes, graphs x 1. -/
abbrev SNxD : Shape := ⟨2, ![100000, 64]⟩
abbrev SDxD : Shape := ⟨2, ![64, 64]⟩
abbrev SNx1 : Shape := ⟨2, ![100000, 1]⟩
abbrev SD : Shape := ⟨1, ![64]⟩
abbrev SDxK : Shape := ⟨2, ![64, 8]⟩
abbrev SK : Shape := ⟨1, ![8]⟩
abbrev SNxK : Shape := ⟨2, ![100000, 8]⟩
abbrev SGxK : Shape := ⟨2, ![256, 8]⟩
abbrev SGx1 : Shape := ⟨2, ![256, 1]⟩

/-- The dense projection `x · w`: entry (n, j) is the sum over the 64 features of `x n k * w k j`. -/
def proj (x : SNxD.Idx → EReal) (w : SDxD.Idx → EReal) : SNxD.Idx → EReal :=
  fun i => ∑ k : Fin 64, x (ix2 (i 0) k) * w (ix2 k (i 1))

/-- The convolution's finish: the aggregate, plus the node's own projected row times its squared inverse root
    degree (a column), plus the bias (a row). -/
def finish (agg h : SNxD.Idx → EReal) (d2 : SNx1.Idx → EReal) (b : SD.Idx → EReal) : SNxD.Idx → EReal :=
  fun i => agg i + h i * d2 (ix2 (i 0) 0) + b (ix1 (i 1))

/-- The same, clamped below at zero. -/
def finishRelu (agg h : SNxD.Idx → EReal) (d2 : SNx1.Idx → EReal) (b : SD.Idx → EReal) : SNxD.Idx → EReal :=
  fun i => max (finish agg h d2 b i) 0

/-- The class logits of every node: `h · wl + bl`. -/
def logits (h : SNxD.Idx → EReal) (wl : SDxK.Idx → EReal) (bl : SK.Idx → EReal) : SNxK.Idx → EReal :=
  fun i => (∑ k : Fin 64, h (ix2 (i 0) k) * wl (ix2 k (i 1))) + bl (ix1 (i 1))

/-- The sum of the logits over the nodes of graph `g`, class by class. -/
def segSum (batch : SNx1.Idx → BitVec 32) (lg : SNxK.Idx → EReal) : SGxK.Idx → EReal :=
  fun j => ∑ n : Fin 100000, if batch (ix2 n 0) = BitVec.ofNat 32 (j 0).val then lg (ix2 n (j 1)) else 0

/-- The number of nodes of graph `g`. -/
def segCnt (batch : SNx1.Idx → BitVec 32) : SGx1.Idx → EReal :=
  fun j => ∑ n : Fin 100000, if batch (ix2 n 0) = BitVec.ofNat 32 (j 0).val then (1 : EReal) else 0

/-- The mean logits of each graph (an empty graph's sum over one). -/
def pooled (sums : SGxK.Idx → EReal) (cnt : SGx1.Idx → EReal) : SGxK.Idx → EReal :=
  fun j => Ideal.div (sums j) (max (cnt (ix2 (j 0) 0)) 1)

/-- The greatest entry of row `g` (the least extended real for an empty row, which no row here is). -/
def rowMax (p : SGxK.Idx → EReal) (g : Fin 256) : EReal := Finset.univ.sup fun k : Fin 8 => p (ix2 g k)

/-- The row-wise log-softmax: the entry less its row's maximum, less the logarithm of the row's sum of
    exponentials of the entries so shifted. -/
def logSoftmax (p : SGxK.Idx → EReal) : SGxK.Idx → EReal :=
  fun j => (p j - rowMax p (j 0)) - Ideal.log (∑ k : Fin 8, Ideal.exp (p (ix2 (j 0) k) - rowMax p (j 0)))

/-- The read-out: mean logits per graph, then the row-wise log-softmax. -/
def readout (h : SNxD.Idx → EReal) (wl : SDxK.Idx → EReal) (bl : SK.Idx → EReal) (batch : SNx1.Idx → BitVec 32) :
    SGxK.Idx → EReal :=
  logSoftmax (pooled (segSum batch (logits h wl bl)) (segCnt batch))

end Cert.Spec

end
-- ==== Proof.KI.Val1.lean ====
/- The first graph-convolution finish, over the extended reals. Each of the twenty grid points works on one block of
   5000 rows: entry (p, q) of what it stores is the aggregate's entry, plus the projected feature's entry times the
   squared inverse root degree of row p (a column, spread along the row), plus the bias at q (a row, spread down the
   block), clamped below at zero. Block t of every row-blocked array is rows 5000 t to 5000 t + 4999 of that array and
   the bias block is the whole bias, so what point t writes back is block t of ONE function of the four whole arrays;
   the twenty blocks tile the 100000 rows (row r lies in block r / 5000), so the array the region leaves is that
   function: the specification's clamped finish. -/
import proofs.«415612_j18743237280393_1_alg».proof.Proof.KI.R1
import proofs.«415612_j18743237280393_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- A column broadcast along the rows: a [a, 1] array broadcast to [a, b] reads, at (p, c), the operand's row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The bias row spread over a block: entry (p, q) is the bias at q. -/
theorem bias_apply (x3 : Vec Ideal S64 .f32) (p : Fin 5000) (q : Fin 64) :
    broadcastTo S5000x64 (shapeCast S1x64 x3 shapeCasts_S64_S1x64) broadcasts_S1x64_S5000x64 (ix2 p q) = x3 (ix1 q) :=
  (broadcastTo_1b_ab_apply (shapeCast S1x64 x3 shapeCasts_S64_S1x64) broadcasts_S1x64_S5000x64 p q).trans
    (shapeCast_a_1a_apply x3 shapeCasts_S64_S1x64 (0 : Fin 1) q)

/-- The degree column spread over a block: entry (p, q) is the column at row p. -/
theorem col_apply (x2 : Vec Ideal S5000x1 .f32) (p : Fin 5000) (q : Fin 64) :
    broadcastTo S5000x64 x2 broadcasts_S5000x1_S5000x64 (ix2 p q) = x2 (ix2 p (0 : Fin 1)) :=
  broadcastTo_a1_ab_apply x2 broadcasts_S5000x1_S5000x64 p q

/-- The clamped finish of one block, entry by entry. -/
theorem pay1_apply (x0 x1 : Vec Ideal S5000x64 .f32) (x2 : Vec Ideal S5000x1 .f32) (x3 : Vec Ideal S64 .f32)
    (p : Fin 5000) (q : Fin 64) :
    k1_pay1 x0 x1 x2 x3 (ix2 p q) = max (x0 (ix2 p q) + x1 (ix2 p q) * x2 (ix2 p (0 : Fin 1)) + x3 (ix1 q)) 0 := by
  unfold k1_pay1
  simp only [shapeCast_self]
  rw [maximumf_apply, addf_apply, addf_apply, mulf_apply, broadcast_apply, col_apply, bias_apply]
  show max _ (Ideal.ofBits .f32 0x00000000#32) = _
  rw [Ideal.ofBits_zero_f32]

/-- A block's entry (p, q) is the whole arrays' clamped finish at index i, once the four blocks' entries it reads are
    the arrays' entries that index names: the aggregate and the features at i, the column at i's row, the bias at i's
    column. -/
theorem blk_finishRelu (A H : Cert.Spec.SNxD.Idx → EReal) (D : Cert.Spec.SNx1.Idx → EReal) (B : Cert.Spec.SD.Idx → EReal)
    (x0 x1 : Vec Ideal S5000x64 .f32) (x2 : Vec Ideal S5000x1 .f32) (x3 : Vec Ideal S64 .f32)
    (p : Fin 5000) (q : Fin 64) (i : Cert.Spec.SNxD.Idx)
    (h0 : x0 (ix2 p q) = A i) (h1 : x1 (ix2 p q) = H i) (h2 : x2 (ix2 p (0 : Fin 1)) = D (ix2 (i 0) 0))
    (h3 : x3 (ix1 q) = B (ix1 (i 1))) :
    k1_pay1 x0 x1 x2 x3 (ix2 p q) = Cert.Spec.finishRelu A H D B i := by
  rw [pay1_apply, h0, h1, h2, h3]
  rfl

theorem hz2 : (![0, 0] : Fin 2 → Nat) = fun _ => 0 := funext fun a => by fin_cases a <;> rfl
theorem hz1 : (![0] : Fin 1 → Nat) = fun _ => 0 := funext fun a => by fin_cases a; rfl

/-- The block index maps over the grid: the row-block windows sit at block (t, 0), the bias at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- What point t writes back is block t of the whole arrays' clamped finish: rows 5000 t to 5000 t + 4999. -/
theorem flushed1_eq (c : Dev nD) (t : Fin cfg1.N) :
    (dat1 (F := Ideal) V c).flushed 4 t = ((cfg1.win 4).blk t).view.read (Elt Ideal)
      (Cert.Spec.finishRelu (V c main_v52) (V c main_v34) (V c main_v32) (V c main_arg4)) := by
  show (cfg1.win 4).cut (grid1.coords t) ((dat1 (F := Ideal) V c).after 4 t) = _
  rw [after1_4]
  unfold out1
  rw [View.canon_unit_zero hz2]
  simp only [View.ld_unit_zero (S := S5000x64) hz2, View.ld_unit_zero (S := S5000x1) hz2, View.ld_unit_zero (S := S64) hz1]
  obtain ⟨e00, e01, e10, e11, e20, e21, e30, e40, e41⟩ := idx_facts1 t
  funext j
  have hj0 : (j 0).val < 5000 := (j 0).isLt
  have hj1 : (j 1).val < 64 := (j 1).isLt
  have hx : (cfg1.win 4).xinj (grid1.coords t) j = ix2 (⟨(j 0).val, hj0⟩ : Fin 5000) (⟨(j 1).val, hj1⟩ : Fin 64) :=
    funext fun a => match a with | ⟨0, _⟩ => rfl | ⟨1, _⟩ => rfl
  refine (congrArg (k1_pay1 (iblk1 V c 0 t) (iblk1 V c 1 t) (iblk1 V c 2 t) (iblk1 V c 3 t)) hx).trans ?_
  refine blk_finishRelu (V c main_v52) (V c main_v34) (V c main_v32) (V c main_arg4)
    (iblk1 V c 0 t) (iblk1 V c 1 t) (iblk1 V c 2 t) (iblk1 V c 3 t) ⟨(j 0).val, hj0⟩ ⟨(j 1).val, hj1⟩
    (((cfg1.win 4).blk t).view.emb j) ?_ ?_ ?_ ?_
  · show V c main_v52 (((cfg1.win 0).blk t).view.emb (ix2 (⟨(j 0).val, hj0⟩ : Fin 5000) (⟨(j 1).val, hj1⟩ : Fin 64)))
      = V c main_v52 (((cfg1.win 4).blk t).view.emb j)
    refine congrArg (V c main_v52) (funext fun a => Fin.ext ?_)
    match a with
    | ⟨0, _⟩ => show win1_0.index t (0 : Fin 2) * 5000 + 1 * (j 0).val = win1_4.index t (0 : Fin 2) * 5000 + 1 * (j 0).val; rw [e00, e40]
    | ⟨1, _⟩ => show win1_0.index t (1 : Fin 2) * 64 + 1 * (j 1).val = win1_4.index t (1 : Fin 2) * 64 + 1 * (j 1).val; rw [e01, e41]
  · show V c main_v34 (((cfg1.win 1).blk t).view.emb (ix2 (⟨(j 0).val, hj0⟩ : Fin 5000) (⟨(j 1).val, hj1⟩ : Fin 64)))
      = V c main_v34 (((cfg1.win 4).blk t).view.emb j)
    refine congrArg (V c main_v34) (funext fun a => Fin.ext ?_)
    match a with
    | ⟨0, _⟩ => show win1_1.index t (0 : Fin 2) * 5000 + 1 * (j 0).val = win1_4.index t (0 : Fin 2) * 5000 + 1 * (j 0).val; rw [e10, e40]
    | ⟨1, _⟩ => show win1_1.index t (1 : Fin 2) * 64 + 1 * (j 1).val = win1_4.index t (1 : Fin 2) * 64 + 1 * (j 1).val; rw [e11, e41]
  · show V c main_v32 (((cfg1.win 2).blk t).view.emb (ix2 (⟨(j 0).val, hj0⟩ : Fin 5000) (0 : Fin 1)))
      = V c main_v32 (ix2 ((((cfg1.win 4).blk t).view.emb j) 0) 0)
    refine congrArg (V c main_v32) (funext fun a => Fin.ext ?_)
    match a with
    | ⟨0, _⟩ => show win1_2.index t (0 : Fin 2) * 5000 + 1 * (j 0).val = win1_4.index t (0 : Fin 2) * 5000 + 1 * (j 0).val; rw [e20, e40]
    | ⟨1, _⟩ => show win1_2.index t (1 : Fin 2) * 1 + 1 * 0 = 0; rw [e21]
  · show V c main_arg4 (((cfg1.win 3).blk t).view.emb (ix1 (⟨(j 1).val, hj1⟩ : Fin 64)))
      = V c main_arg4 (ix1 ((((cfg1.win 4).blk t).view.emb j) 1))
    refine congrArg (V c main_arg4) (funext fun a => Fin.ext ?_)
    match a with
    | ⟨0, _⟩ => show win1_3.index t (0 : Fin 1) * 64 + 1 * (j 1).val = win1_4.index t (1 : Fin 2) * 64 + 1 * (j 1).val; rw [e30, e41]

/-- An index of the array is in point t's block iff each coordinate is in the block's range on its axis. -/
theorem mem_blk1 (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v53).slice (win1_4.rect t)).set ↔ _
  rw [View.set_slice_whole, Rect.mem_set_unit]
  exact Iff.rfl

/-- Every row lies in the block of the point its number divided by 5000 names, and every point writes back. -/
theorem rows_cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  have ht : (i 0).val / 5000 < cfg1.N := by rw [hN]; omega
  obtain ⟨-, -, -, -, -, -, -, e40, e41⟩ := idx_facts1 ⟨(i 0).val / 5000, ht⟩
  refine ⟨⟨(i 0).val / 5000, ht⟩, flush1_4 _, ?_⟩
  rw [mem_blk1]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e40]
    show (i 0).val / 5000 * 5000 ≤ (i 0).val ∧ (i 0).val < (i 0).val / 5000 * 5000 + 5000
    omega
  | ⟨1, _⟩ =>
    show win1_4.index ⟨(i 0).val / 5000, ht⟩ (1 : Fin 2) * 64 ≤ (i 1).val
      ∧ (i 1).val < win1_4.index ⟨(i 0).val / 5000, ht⟩ (1 : Fin 2) * 64 + 64
    rw [e41]
    omega

/-- The array the region leaves: the clamped finish of the four arrays it found, entry by entry. -/
theorem arr1_eq (c : Dev nD) :
    (dat1 (F := Ideal) V c).arrAt 4 cfg1.N = Cert.Spec.finishRelu (V c main_v52) (V c main_v34) (V c main_v32) (V c main_arg4) :=
  (dat1 (F := Ideal) V c).arrAt_eq_of_cover 4
    (Cert.Spec.finishRelu (V c main_v52) (V c main_v34) (V c main_v32) (V c main_arg4))
    (fun t _ => flushed1_eq V c t) rows_cover1

end Cert.KernelIdeal.Hand

end
-- ==== Proof.KI.Val2.lean ====
/- The second dense projection, kernel side: what region 2 leaves in its output array. A grid point takes one block
   of 5000 rows of the first layer's output, re-reads it at its own shape (which changes nothing), and multiplies it
   by the whole 64 x 64 matrix of second weights; entry (p, q) of the product block is the sum over the 64 features k
   of (row p, feature k) times (weight k, q), the change of float format being the identity on the extended reals and
   the accumulator starting at zero. Row r of the block of point t is row 5000 t + r of the array, the weights are
   the same at every point, and the twenty blocks tile the 100000 rows: so the array ends holding the projection of
   the first layer's output by the second weights, entry by entry. -/
import proofs.«415612_j18743237280393_1_alg».proof.Proof.KI.R2
import proofs.«415612_j18743237280393_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The zero offsets of a whole-buffer rectangle, as the constant function. -/
theorem zero_off2 : (![0, 0] : Fin 2 → Nat) = fun _ => 0 := funext fun a => by fin_cases a <;> rfl

/-! ## One entry of the product block -/

/-- The left operand of the block product is read at the output's row … -/
theorem lhs_blk2_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and at the contracted feature; -/
theorem lhs_blk2_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand at the contracted feature … -/
theorem rhs_blk2_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … and at the output's column. -/
theorem rhs_blk2_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (p, q) of the product of a row block, re-read at its own shape, and the weights: the sum over the features. -/
theorem pay2_apply (x0 : Vec Ideal S5000x64 .f32) (x1 : Vec Ideal S64x64 .f32) (p : Fin 5000) (q : Fin 64) :
    k2_pay1 (F := Ideal) x0 x1 (ix2 p q) = ∑ k : Fin 64, x0 (ix2 p k) * x1 (ix2 k q) := by
  unfold k2_pay1
  refine (Ideal.matmul_constant_zero_apply dot_S5000x64_S64x64_S5000x64_1_0_0_1_n_n none _ _ (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_blk2_0 _ _
    | ⟨1, _⟩ => exact (lhs_blk2_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_blk2_0 _ _).trans hk
    | ⟨1, _⟩ => exact rhs_blk2_1 _ _)
  rw [el, er]
  exact congrArg (· * x1 (ix2 k q)) (congrFun (shapeCast_self x0 shapeCasts_S5000x64_S5000x64) (ix2 p k))

/-- The same entry against whole arrays: if row `j 0` of the block is row `i 0` of the first layer's output, and column
    `j 1` of the block's weights is column `i 1` of the weights, entry `j` of the product block is entry `i` of the
    projection. -/
theorem p2_entry (A : S100000x64.Idx → EReal) (W : S64x64.Idx → EReal)
    (x0 : Vec Ideal S5000x64 .f32) (x1 : Vec Ideal S64x64 .f32) (j : S5000x64.Idx) (i : S100000x64.Idx)
    (hx0 : ∀ k : Fin 64, x0 (ix2 (j 0) k) = A (ix2 (i 0) k))
    (hx1 : ∀ k : Fin 64, x1 (ix2 k (j 1)) = W (ix2 k (i 1))) :
    k2_pay1 (F := Ideal) x0 x1 j = Cert.Spec.proj A W i := by
  obtain ⟨p, q, rfl⟩ : ∃ (p : Fin 5000) (q : Fin 64), j = ix2 p q := ⟨j 0, j 1, eq_ix2 j⟩
  refine (pay2_apply x0 x1 p q).trans ?_
  show ∑ k : Fin 64, x0 (ix2 p k) * x1 (ix2 k q) = ∑ k : Fin 64, A (ix2 (i 0) k) * W (ix2 k (i 1))
  exact Finset.sum_congr rfl fun k _ => congrArg₂ (· * ·) (hx0 k) (hx1 k)

/-! ## The blocks of a grid point -/

/-- The block indices of the three windows, decided once over the twenty points: the first layer's output and this
    region's output move down one block of rows per point, the weights stay. -/
theorem p2_idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- WHAT POINT `t` WRITES BACK is block `t` of the projection of the first layer's output by the second weights as
    the region finds them. -/
theorem p2_flushed_eq (V : (c : Dev nD) → (b : Ref sig .tc) → Buf (Elt Ideal) ((c : Thread nD τ).loc b)) (c : Dev nD) (t : Fin cfg2.N) :
    (dat2 (F := Ideal) V c).flushed 2 t
      = ((cfg2.win 2).blk t).view.read (Elt Ideal) (Cert.Spec.proj (V c main_v53) (V c main_arg5)) := by
  show (cfg2.win 2).cut (grid2.coords t) ((dat2 (F := Ideal) V c).after 2 t) = _
  rw [after2_2]
  unfold out2
  rw [View.canon_unit_zero zero_off2]
  simp only [View.ld_unit_zero (S := S5000x64) zero_off2, View.ld_unit_zero (S := S64x64) zero_off2]
  obtain ⟨e00, e01, e10, e11, e20, e21⟩ := p2_idx_facts t
  funext j
  refine p2_entry (V c main_v53) (V c main_arg5) (iblk2 V c 0 t) (iblk2 V c 1 t) j (((cfg2.win 2).blk t).view.emb j) (fun k => ?_) (fun k => ?_)
  · show V c main_v53 (((cfg2.win 0).blk t).view.emb (ix2 (j 0) k)) = V c main_v53 (ix2 ((((cfg2.win 2).blk t).view.emb j) 0) k)
    refine congrArg (V c main_v53) (funext fun a => Fin.ext ?_)
    match a with
    | ⟨0, _⟩ => show win2_0.index t (0 : Fin 2) * 5000 + 1 * (j 0).val = win2_2.index t (0 : Fin 2) * 5000 + 1 * (j 0).val; rw [e00, e20]
    | ⟨1, _⟩ => show win2_0.index t (1 : Fin 2) * 64 + 1 * k.val = k.val; rw [e01]; omega
  · show V c main_arg5 (((cfg2.win 1).blk t).view.emb (ix2 k (j 1))) = V c main_arg5 (ix2 k ((((cfg2.win 2).blk t).view.emb j) 1))
    refine congrArg (V c main_arg5) (funext fun a => Fin.ext ?_)
    match a with
    | ⟨0, _⟩ => show win2_1.index t (0 : Fin 2) * 64 + 1 * k.val = k.val; rw [e10]; omega
    | ⟨1, _⟩ => show win2_1.index t (1 : Fin 2) * 64 + 1 * (j 1).val = win2_2.index t (1 : Fin 2) * 64 + 1 * (j 1).val; rw [e11, e21]

/-! ## The twenty blocks tile the array -/

/-- An index of the array is in point `t`'s block iff each coordinate is in the block's range on its axis. -/
theorem p2_mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v54).slice (win2_2.rect t)).set ↔ _
  rw [View.set_slice_whole, Rect.mem_set_unit]
  exact Iff.rfl

/-- Row `n` of the array is in the block of point `n / 5000`, which is written back. -/
theorem p2_rows_cover (i : S100000x64.Idx) :
    ∃ t : Fin cfg2.N, (cfg2.win 2).flush t = true ∧ i ∈ ((cfg2.win 2).blk t).view.set := by
  have hN : cfg2.N = 20 := N_2
  have hi0 : (i 0).val < 100000 := idx2_lt0 i
  have hi1 : (i 1).val < 64 := idx2_lt1 i
  have ht : (i 0).val / 5000 < cfg2.N := by rw [hN]; omega
  refine ⟨⟨(i 0).val / 5000, ht⟩, flush2_2 _, ?_⟩
  obtain ⟨-, -, -, -, e20, e21⟩ := p2_idx_facts ⟨(i 0).val / 5000, ht⟩
  have e20' : win2_2.index ⟨(i 0).val / 5000, ht⟩ (0 : Fin 2) = (i 0).val / 5000 := e20
  rw [p2_mem_blk]
  intro a
  match a with
  | ⟨0, _⟩ => show win2_2.index ⟨(i 0).val / 5000, ht⟩ (0 : Fin 2) * 5000 ≤ (i 0).val ∧ (i 0).val < win2_2.index ⟨(i 0).val / 5000, ht⟩ (0 : Fin 2) * 5000 + 5000; rw [e20']; omega
  | ⟨1, _⟩ => show win2_2.index ⟨(i 0).val / 5000, ht⟩ (1 : Fin 2) * 64 ≤ (i 1).val ∧ (i 1).val < win2_2.index ⟨(i 0).val / 5000, ht⟩ (1 : Fin 2) * 64 + 64; rw [e21]; omega

/-- THE ARRAY after the region: the projection of the first layer's output by the second weights, entry by entry. -/
theorem arr2_eq (V : (c : Dev nD) → (b : Ref sig .tc) → Buf (Elt Ideal) ((c : Thread nD τ).loc b)) (c : Dev nD) :
    (dat2 (F := Ideal) V c).arrAt 2 cfg2.N = Cert.Spec.proj (V c main_v53) (V c main_arg5) :=
  (dat2 (F := Ideal) V c).arrAt_eq_of_cover 2 (Cert.Spec.proj (V c main_v53) (V c main_arg5))
    (fun t _ => p2_flushed_eq V c t) p2_rows_cover

end Cert.KernelIdeal.Hand

end
-- ==== Proof.KI.Val3.lean ====
/- The second graph-convolution finish, over the extended reals: the first one without the clamp. Each of the twenty
   grid points works on one block of 5000 rows: entry (p, q) of what it stores is the aggregate's entry, plus the
   projected feature's entry times the squared inverse root degree of row p (a column, spread along the row), plus the
   bias at q (a row, spread down the block). Block t of every row-blocked array is rows 5000 t to 5000 t + 4999 of that
   array and the bias block is the whole bias, so what point t writes back is block t of ONE function of the four whole
   arrays; the twenty blocks tile the 100000 rows (row r lies in block r / 5000), so the array the region leaves is
   that function: the specification's finish. -/
import proofs.«415612_j18743237280393_1_alg».proof.Proof.KI.R3
import proofs.«415612_j18743237280393_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

theorem hz2_3 : (![0, 0] : Fin 2 → Nat) = fun _ => 0 := funext fun a => by fin_cases a <;> rfl
theorem hz1_3 : (![0] : Fin 1 → Nat) = fun _ => 0 := funext fun a => by fin_cases a; rfl

/-- The degree column spread over a block: entry (p, q) is the column at row p. -/
theorem col3_apply (x2 : Vec Ideal S5000x1 .f32) (p : Fin 5000) (q : Fin 64) :
    broadcastTo S5000x64 x2 broadcasts_S5000x1_S5000x64 (ix2 p q) = x2 (ix2 p (0 : Fin 1)) := by
  refine broadcastTo_apply x2 broadcasts_S5000x1_S5000x64 (ix2 p q) (ix2 p (0 : Fin 1)) fun ax => ?_
  match ax with
  | ⟨0, _⟩ => rfl
  | ⟨1, _⟩ => rfl

/-- The bias row spread over a block: entry (p, q) is the bias at q. -/
theorem bias3_apply (x3 : Vec Ideal S64 .f32) (p : Fin 5000) (q : Fin 64) :
    broadcastTo S5000x64 (shapeCast S1x64 x3 shapeCasts_S64_S1x64) broadcasts_S1x64_S5000x64 (ix2 p q) = x3 (ix1 q) :=
  (broadcastTo_1b_ab_apply (shapeCast S1x64 x3 shapeCasts_S64_S1x64) broadcasts_S1x64_S5000x64 p q).trans
    (shapeCast_a_1a_apply x3 shapeCasts_S64_S1x64 (0 : Fin 1) q)

/-- The finish of one block, entry by entry. -/
theorem pay3_apply (x0 x1 : Vec Ideal S5000x64 .f32) (x2 : Vec Ideal S5000x1 .f32) (x3 : Vec Ideal S64 .f32)
    (p : Fin 5000) (q : Fin 64) :
    k3_pay1 x0 x1 x2 x3 (ix2 p q) = x0 (ix2 p q) + x1 (ix2 p q) * x2 (ix2 p (0 : Fin 1)) + x3 (ix1 q) := by
  unfold k3_pay1
  simp only [shapeCast_self]
  rw [addf_apply, addf_apply, mulf_apply, col3_apply, bias3_apply]

/-- A block's entry (p, q) is the whole arrays' finish at index i, once the four blocks' entries it reads are the
    arrays' entries that index names: the aggregate and the features at i, the column at i's row, the bias at i's
    column. -/
theorem blk_finish (A H : Cert.Spec.SNxD.Idx → EReal) (D : Cert.Spec.SNx1.Idx → EReal) (B : Cert.Spec.SD.Idx → EReal)
    (x0 x1 : Vec Ideal S5000x64 .f32) (x2 : Vec Ideal S5000x1 .f32) (x3 : Vec Ideal S64 .f32)
    (p : Fin 5000) (q : Fin 64) (i : Cert.Spec.SNxD.Idx)
    (h0 : x0 (ix2 p q) = A i) (h1 : x1 (ix2 p q) = H i) (h2 : x2 (ix2 p (0 : Fin 1)) = D (ix2 (i 0) 0))
    (h3 : x3 (ix1 q) = B (ix1 (i 1))) :
    k3_pay1 x0 x1 x2 x3 (ix2 p q) = Cert.Spec.finish A H D B i := by
  rw [pay3_apply, h0, h1, h2, h3]
  rfl

/-- The block index maps over the grid: the row-block windows sit at block (t, 0), the bias at block 0. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

variable (V : (c : Dev nD) → (b : Ref sig .tc) → Buf (Elt Ideal) ((c : Thread nD τ).loc b))

/-- What point t writes back is block t of the whole arrays' finish: rows 5000 t to 5000 t + 4999. -/
theorem flushed3_eq (c : Dev nD) (t : Fin cfg3.N) :
    (dat3 (F := Ideal) V c).flushed 4 t = ((cfg3.win 4).blk t).view.read (Elt Ideal)
      (Cert.Spec.finish (V c main_v72) (V c main_v54) (V c main_v32) (V c main_arg6)) := by
  show (cfg3.win 4).cut (grid3.coords t) ((dat3 (F := Ideal) V c).after 4 t) = _
  rw [after3_4]
  unfold out3
  rw [View.canon_unit_zero hz2_3]
  simp only [View.ld_unit_zero (S := S5000x64) hz2_3, View.ld_unit_zero (S := S5000x1) hz2_3, View.ld_unit_zero (S := S64) hz1_3]
  obtain ⟨e00, e01, e10, e11, e20, e21, e30, e40, e41⟩ := idx_facts3 t
  funext j
  have hj0 : (j 0).val < 5000 := (j 0).isLt
  have hj1 : (j 1).val < 64 := (j 1).isLt
  have hx : (cfg3.win 4).xinj (grid3.coords t) j = ix2 (⟨(j 0).val, hj0⟩ : Fin 5000) (⟨(j 1).val, hj1⟩ : Fin 64) :=
    funext fun a => match a with | ⟨0, _⟩ => rfl | ⟨1, _⟩ => rfl
  refine (congrArg (k3_pay1 (iblk3 V c 0 t) (iblk3 V c 1 t) (iblk3 V c 2 t) (iblk3 V c 3 t)) hx).trans ?_
  refine blk_finish (V c main_v72) (V c main_v54) (V c main_v32) (V c main_arg6)
    (iblk3 V c 0 t) (iblk3 V c 1 t) (iblk3 V c 2 t) (iblk3 V c 3 t) ⟨(j 0).val, hj0⟩ ⟨(j 1).val, hj1⟩
    (((cfg3.win 4).blk t).view.emb j) ?_ ?_ ?_ ?_
  · show V c main_v72 (((cfg3.win 0).blk t).view.emb (ix2 (⟨(j 0).val, hj0⟩ : Fin 5000) (⟨(j 1).val, hj1⟩ : Fin 64)))
      = V c main_v72 (((cfg3.win 4).blk t).view.emb j)
    refine congrArg (V c main_v72) (funext fun a => Fin.ext ?_)
    match a with
    | ⟨0, _⟩ => show win3_0.index t (0 : Fin 2) * 5000 + 1 * (j 0).val = win3_4.index t (0 : Fin 2) * 5000 + 1 * (j 0).val; rw [e00, e40]
    | ⟨1, _⟩ => show win3_0.index t (1 : Fin 2) * 64 + 1 * (j 1).val = win3_4.index t (1 : Fin 2) * 64 + 1 * (j 1).val; rw [e01, e41]
  · show V c main_v54 (((cfg3.win 1).blk t).view.emb (ix2 (⟨(j 0).val, hj0⟩ : Fin 5000) (⟨(j 1).val, hj1⟩ : Fin 64)))
      = V c main_v54 (((cfg3.win 4).blk t).view.emb j)
    refine congrArg (V c main_v54) (funext fun a => Fin.ext ?_)
    match a with
    | ⟨0, _⟩ => show win3_1.index t (0 : Fin 2) * 5000 + 1 * (j 0).val = win3_4.index t (0 : Fin 2) * 5000 + 1 * (j 0).val; rw [e10, e40]
    | ⟨1, _⟩ => show win3_1.index t (1 : Fin 2) * 64 + 1 * (j 1).val = win3_4.index t (1 : Fin 2) * 64 + 1 * (j 1).val; rw [e11, e41]
  · show V c main_v32 (((cfg3.win 2).blk t).view.emb (ix2 (⟨(j 0).val, hj0⟩ : Fin 5000) (0 : Fin 1)))
      = V c main_v32 (ix2 ((((cfg3.win 4).blk t).view.emb j) 0) 0)
    refine congrArg (V c main_v32) (funext fun a => Fin.ext ?_)
    match a with
    | ⟨0, _⟩ => show win3_2.index t (0 : Fin 2) * 5000 + 1 * (j 0).val = win3_4.index t (0 : Fin 2) * 5000 + 1 * (j 0).val; rw [e20, e40]
    | ⟨1, _⟩ => show win3_2.index t (1 : Fin 2) * 1 + 1 * 0 = 0; rw [e21]
  · show V c main_arg6 (((cfg3.win 3).blk t).view.emb (ix1 (⟨(j 1).val, hj1⟩ : Fin 64)))
      = V c main_arg6 (ix1 ((((cfg3.win 4).blk t).view.emb j) 1))
    refine congrArg (V c main_arg6) (funext fun a => Fin.ext ?_)
    match a with
    | ⟨0, _⟩ => show win3_3.index t (0 : Fin 1) * 64 + 1 * (j 1).val = win3_4.index t (1 : Fin 2) * 64 + 1 * (j 1).val; rw [e30, e41]

/-- An index of the array is in point t's block iff each coordinate is in the block's range on its axis. -/
theorem mem_blk3 (t : Fin cfg3.N) (i : S100000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v73).slice (win3_4.rect t)).set ↔ _
  rw [View.set_slice_whole, Rect.mem_set_unit]
  exact Iff.rfl

/-- Every row lies in the block of the point its number divided by 5000 names, and every point writes back. -/
theorem rows_cover3 (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 20 := N_3
  have ht : (i 0).val / 5000 < cfg3.N := by rw [hN]; omega
  obtain ⟨-, -, -, -, -, -, -, e40, e41⟩ := idx_facts3 ⟨(i 0).val / 5000, ht⟩
  refine ⟨⟨(i 0).val / 5000, ht⟩, flush3_4 _, ?_⟩
  rw [mem_blk3]
  intro a
  match a with
  | ⟨0, _⟩ =>
    show win3_4.index ⟨(i 0).val / 5000, ht⟩ (0 : Fin 2) * 5000 ≤ (i 0).val
      ∧ (i 0).val < win3_4.index ⟨(i 0).val / 5000, ht⟩ (0 : Fin 2) * 5000 + 5000
    rw [e40]
    show (i 0).val / 5000 * 5000 ≤ (i 0).val ∧ (i 0).val < (i 0).val / 5000 * 5000 + 5000
    omega
  | ⟨1, _⟩ =>
    show win3_4.index ⟨(i 0).val / 5000, ht⟩ (1 : Fin 2) * 64 ≤ (i 1).val
      ∧ (i 1).val < win3_4.index ⟨(i 0).val / 5000, ht⟩ (1 : Fin 2) * 64 + 64
    rw [e41]
    omega

/-- The array the region leaves: the finish of the four arrays it found, entry by entry. -/
theorem arr3_eq (c : Dev nD) :
    (dat3 (F := Ideal) V c).arrAt 4 cfg3.N = Cert.Spec.finish (V c main_v72) (V c main_v54) (V c main_v32) (V c main_arg6) :=
  (dat3 (F := Ideal) V c).arrAt_eq_of_cover 4
    (Cert.Spec.finish (V c main_v72) (V c main_v54) (V c main_v32) (V c main_arg6))
    (fun t _ => flushed3_eq V c t) rows_cover3

end Cert.KernelIdeal.Hand

end
-- ==== Proof.KI.Val4a.lean ====
/- The last grid point's store of the read-out, read index by index over the extended reals: the per-graph sums
   divided by the per-graph counts clamped below at one are the graph means; each row's greatest entry is taken off the
   row, the exponentials of the shifted row are summed, and the logarithm of that sum is taken off again: the row-wise
   log-softmax of the means. -/
import proofs.«415612_j18743237280393_1_alg».proof.Proof.Gen.KernelIdeal.Skeleton
import proofs.«415612_j18743237280393_1_alg».proof.Proof.Spec
import Idealize.ShloMosaic.Lib.Pipeline.Value
import Idealize.ShloMosaic.Lib.ValueIdx
import Idealize.ShloMosaic.Lib.IdealHost
import Idealize.ShloMosaic.PureOps.Ideal
import Idealize.ShloMosaic.PureOps.Ideal.Laws

noncomputable section

namespace Cert.KernelIdeal.Hand

open Cert.KernelIdeal Cert.KernelIdeal.Gen
open Idealize.ShloMosaic Idealize.ShloMosaic.ValueIdx

/-- The word of the float minus infinity denotes the least extended real. -/
theorem v4_bot : Ideal.ofBits .f32 0xFF800000#32 = ⊥ := by
  simp [Ideal.ofBits, Ideal.ieee]

/-- A column spread along a row: entry (g, k) is the column's entry g. -/
theorem v4_bcast_col {α : Type} (v : S256x1.Idx → α) (g : Fin 256) (k : Fin 8) :
    broadcastTo S256x8 v broadcasts_S256x1_S256x8 (ix2 g k) = v (ix2 g (0 : Fin 1)) := by
  refine broadcastTo_apply v broadcasts_S256x1_S256x8 (ix2 g k) (ix2 g (0 : Fin 1)) fun ax => ?_
  match ax with
  | ⟨0, _⟩ => rfl
  | ⟨1, _⟩ => rfl

/-- A vector of 256 entries viewed as a column: entry (g, 0) is entry g. -/
theorem v4_cast_col {α : Type} (v : S256.Idx → α) (g : Fin 256) :
    shapeCast S256x1 v shapeCasts_S256_S256x1 (ix2 g (0 : Fin 1)) = v (ix1 g) :=
  shapeCast_apply v shapeCasts_S256_S256x1 _ _ (by
    rw [Shape.rowMajor_val_two, Shape.rowMajor_val_one]
    show g.val = g.val * 1 + 0
    omega)

/-- The index of row g with k put back on the reduced axis is (g, k). -/
theorem v4_lift (g : Fin 256) (k : Fin 8) : reduces_S256x8_S256.lift (ix1 g) k = ix2 g k :=
  funext fun a => Fin.ext (by
    match a with
    | ⟨0, _⟩ => rfl
    | ⟨1, _⟩ => rfl)

/-- The graph means: the sums over the counts clamped below at one. -/
theorem v4_pooled (s0 : S256x8.Idx → EReal) (s1 : S256x1.Idx → EReal) :
    divf (F := Ideal) (s := S256x8) (φ := .f32) s0
        (broadcastTo S256x8
          (maximumf (F := Ideal) (s := S256x1) (φ := .f32) s1
            (broadcast S256x1 (Scalar.ofBits (F := Ideal) .f32 0x3F800000#32)))
          broadcasts_S256x1_S256x8)
      = Cert.Spec.pooled s0 s1 := by
  funext j
  obtain ⟨g, k, rfl⟩ : ∃ (g : Fin 256) (k : Fin 8), j = ix2 g k := ⟨j 0, j 1, eq_ix2 j⟩
  unfold Cert.Spec.pooled
  refine (congrArg (Ideal.div (s0 (ix2 g k))) (v4_bcast_col _ g k)).trans ?_
  show Ideal.div (s0 (ix2 g k)) (max (s1 (ix2 g 0)) (Ideal.ofBits .f32 0x3F800000#32)) = _
  rw [Ideal.ofBits_one_f32]

/-- The greatest entry of row g. -/
theorem v4_rowMax (p : S256x8.Idx → EReal) (g : Fin 256) :
    multiReduction (F := Ideal) (φ := .f32) .maximumf [1] S256 p 0xFF800000#32 reduces_S256x8_S256 (.inl rfl) rfl (ix1 g)
      = Cert.Spec.rowMax p g := by
  refine (Ideal.multiReduction_maximumf_single (φ := .f32) p 0xFF800000#32 reduces_S256x8_S256 (.inl rfl) rfl (ix1 g)).trans ?_
  unfold Cert.Spec.rowMax
  show Finset.fold max (Ideal.ofBits .f32 0xFF800000#32) (fun k : Fin 8 => p (reduces_S256x8_S256.lift (ix1 g) k)) Finset.univ
    = Finset.univ.sup fun k : Fin 8 => p (ix2 g k)
  have hf : (fun k : Fin 8 => p (reduces_S256x8_S256.lift (ix1 g) k)) = fun k : Fin 8 => p (ix2 g k) :=
    funext fun k => congrArg p (v4_lift g k)
  rw [v4_bot, hf]
  rfl

/-- The sum of row g. -/
theorem v4_rowSum (q : S256x8.Idx → EReal) (g : Fin 256) :
    multiReduction (F := Ideal) (φ := .f32) .add [1] S256 q 0x00000000#32 reduces_S256x8_S256 (.inl rfl) rfl (ix1 g)
      = ∑ k : Fin 8, q (ix2 g k) := by
  refine (Ideal.multiReduction_add_single q _ reduces_S256x8_S256 (.inl rfl) rfl (ix1 g)).trans ?_
  exact Finset.sum_congr rfl fun k _ => congrArg q (v4_lift g k)

/-- The row less its greatest entry. -/
def v4_shiftFn (p : S256x8.Idx → EReal) : S256x8.Idx → EReal :=
  subf (F := Ideal) (s := S256x8) (φ := .f32) p
    (broadcastTo S256x8
      (shapeCast S256x1
        (multiReduction (F := Ideal) (φ := .f32) .maximumf [1] S256 p 0xFF800000#32 reduces_S256x8_S256 (.inl rfl) rfl)
        shapeCasts_S256_S256x1)
      broadcasts_S256x1_S256x8)

theorem v4_shift (p : S256x8.Idx → EReal) (g : Fin 256) (k : Fin 8) :
    v4_shiftFn p (ix2 g k) = p (ix2 g k) - Cert.Spec.rowMax p g := by
  unfold v4_shiftFn
  show p (ix2 g k) - broadcastTo S256x8 _ broadcasts_S256x1_S256x8 (ix2 g k) = _
  rw [v4_bcast_col, v4_cast_col, v4_rowMax]

/-- The shifted row less the logarithm of the sum of its exponentials. -/
def v4_tailFn (p : S256x8.Idx → EReal) : S256x8.Idx → EReal :=
  subf (F := Ideal) (s := S256x8) (φ := .f32) (v4_shiftFn p)
    (broadcastTo S256x8
      (log (F := Ideal) (s := S256x1) (φ := .f32)
        (shapeCast S256x1
          (multiReduction (F := Ideal) (φ := .f32) .add [1] S256
            (exp (F := Ideal) (s := S256x8) (φ := .f32) (v4_shiftFn p)) 0x00000000#32 reduces_S256x8_S256 (.inl rfl) rfl)
          shapeCasts_S256_S256x1))
      broadcasts_S256x1_S256x8)

theorem v4_tail (p : S256x8.Idx → EReal) : v4_tailFn p = Cert.Spec.logSoftmax p := by
  funext j
  obtain ⟨g, k, rfl⟩ : ∃ (g : Fin 256) (k : Fin 8), j = ix2 g k := ⟨j 0, j 1, eq_ix2 j⟩
  unfold v4_tailFn Cert.Spec.logSoftmax
  show v4_shiftFn p (ix2 g k) - broadcastTo S256x8 _ broadcasts_S256x1_S256x8 (ix2 g k)
    = (p (ix2 g k) - Cert.Spec.rowMax p g) - Ideal.log (∑ k' : Fin 8, Ideal.exp (p (ix2 g k') - Cert.Spec.rowMax p g))
  rw [v4_bcast_col]
  show v4_shiftFn p (ix2 g k) - Ideal.log (shapeCast S256x1 _ shapeCasts_S256_S256x1 (ix2 g 0)) = _
  rw [v4_cast_col, v4_rowSum, v4_shift]
  refine congrArg (fun t => (p (ix2 g k) - Cert.Spec.rowMax p g) - Ideal.log t) ?_
  refine Finset.sum_congr rfl fun k' _ => ?_
  show Ideal.exp (v4_shiftFn p (ix2 g k')) = _
  rw [v4_shift]

/-- The store of the read-out is the row-wise log-softmax of the graph means. -/
theorem fin4_eq (s0 : Vec Ideal S256x8 .f32) (s1 : Vec Ideal S256x1 .f32) :
    k4_pay1 (F := Ideal) s0 s1 = Cert.Spec.logSoftmax (Cert.Spec.pooled s0 s1) := by
  refine Eq.trans (b := v4_tailFn (Cert.Spec.pooled s0 s1)) ?_ (v4_tail _)
  rw [← v4_pooled s0 s1]
  rfl

end Cert.KernelIdeal.Hand

end
-- ==== Proof.KI.Val4c.lean ====
/- Twenty blocks of 5000 rows are the 100000 rows of an array: row r of block t is row 5000 t + r. So a sum over the
   rows, taken block by block, is the sum over all rows; and a running quantity that starts from zero and at point n
   adds the sum over block n has, after the twentieth point, added the sum over every row. Stated for any commutative
   additive monoid: nothing but reordering finite sums is used. -/
import Mathlib.Algebra.BigOperators.Fin
import Mathlib.Data.Fintype.BigOperators
import Mathlib.Logic.Equiv.Fin.Basic

namespace Cert.KernelIdeal.Hand

/-- The double sum over the blocks and the rows inside a block is the sum over the rows of the array. -/
theorem v4_sum_blocks {M : Type*} [AddCommMonoid M] (f : Fin 100000 → M) :
    ∑ t : Fin 20, ∑ r : Fin 5000, f ⟨5000 * t.val + r.val, by have := t.isLt; have := r.isLt; omega⟩
      = ∑ m : Fin 100000, f m := by
  refine (Fintype.sum_prod_type' (fun (t : Fin 20) (r : Fin 5000) =>
    f ⟨5000 * t.val + r.val, by have := t.isLt; have := r.isLt; omega⟩)).symm.trans ?_
  exact Fintype.sum_equiv (finProdFinEquiv (m := 20) (n := 5000)) _ _ fun p => congrArg f (Fin.ext (by
    show 5000 * p.1.val + p.2.val = p.2.val + 5000 * p.1.val
    omega))

/-- The sum over block t, zero past the twentieth block. -/
def v4_blockSum {M : Type*} [AddCommMonoid M] (f : Fin 100000 → M) (t : ℕ) : M :=
  if ht : t < 20 then ∑ r : Fin 5000, f ⟨5000 * t + r.val, by have := r.isLt; omega⟩ else 0

/-- A running quantity that is block 0's sum at point 0 and adds block n + 1's sum at point n + 1 is, at point n,
    the sum of the blocks' sums up to n. -/
theorem v4_acc_partial {M : Type*} [AddCommMonoid M] (f : Fin 100000 → M) (a : (n : ℕ) → n < 20 → M)
    (h0 : ∀ h : 0 < 20, a 0 h = ∑ r : Fin 5000, f ⟨5000 * 0 + r.val, by have := r.isLt; omega⟩)
    (hs : ∀ (n : ℕ) (h : n + 1 < 20), a (n + 1) h
      = a n (Nat.lt_of_succ_lt h) + ∑ r : Fin 5000, f ⟨5000 * (n + 1) + r.val, by have := r.isLt; omega⟩) :
    ∀ (n : ℕ) (h : n < 20), a n h = ∑ t ∈ Finset.range (n + 1), v4_blockSum f t
  | 0, h => by
    rw [Finset.sum_range_one, h0 h]
    unfold v4_blockSum
    rw [dif_pos h]
  | n + 1, h => by
    rw [Finset.sum_range_succ, hs n h, v4_acc_partial f a h0 hs n (Nat.lt_of_succ_lt h)]
    congr 1
    unfold v4_blockSum
    rw [dif_pos h]

/-- After the twentieth point it is the sum over every row. -/
theorem v4_acc_total {M : Type*} [AddCommMonoid M] (f : Fin 100000 → M) (a : (n : ℕ) → n < 20 → M)
    (h0 : ∀ h : 0 < 20, a 0 h = ∑ r : Fin 5000, f ⟨5000 * 0 + r.val, by have := r.isLt; omega⟩)
    (hs : ∀ (n : ℕ) (h : n + 1 < 20), a (n + 1) h
      = a n (Nat.lt_of_succ_lt h) + ∑ r : Fin 5000, f ⟨5000 * (n + 1) + r.val, by have := r.isLt; omega⟩) :
    a 19 (by omega) = ∑ m : Fin 100000, f m := by
  rw [v4_acc_partial f a h0 hs 19 (by omega), ← Fin.sum_univ_eq_sum_range (v4_blockSum f) 20, ← v4_sum_blocks f]
  refine Finset.sum_congr rfl fun t _ => ?_
  unfold v4_blockSum
  rw [dif_pos t.isLt]

end Cert.KernelIdeal.Hand
-- ==== Proof.KI.Val4b.lean ====
/- One grid point's update of the two running buffers of the read-out, read index by index over the extended reals.
   The block's 5000 rows carry a graph id word each; entry (r, g) of the one-hot block is one when row r's word is the
   word of g and zero otherwise. The class logits of the block's rows are the feature rows times the 64 x 8 weights plus
   the bias row. Contracting the one-hot block with the logits over the rows adds, to entry (g, k) of the running sums,
   the logits of class k of exactly the rows whose id is g; contracting it with a column of ones adds, to entry g of the
   running counts, the number of those rows. Both buffers start at zero. -/
import proofs.«415612_j18743237280393_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx

/-- The sixteen-bit word of the float one denotes the extended real one. -/
theorem v4_one_bf16 : Ideal.ofBits .bf16 0x3F80#16 = 1 := by
  simp [Ideal.ofBits, Ideal.ieee, -EReal.coe_mul] <;> norm_num

/-- The id column broadcast along the 256 graphs: entry (r, g) is row r's id word. -/
theorem v4_bcast_ids {α : Type} (v : S5000x1.Idx → α) (r : Fin 5000) (g : Fin 256) :
    broadcastTo S5000x256 v broadcasts_S5000x1_S5000x256 (ix2 r g) = v (ix2 r (0 : Fin 1)) := by
  refine broadcastTo_apply v broadcasts_S5000x1_S5000x256 (ix2 r g) (ix2 r (0 : Fin 1)) fun ax => ?_
  match ax with
  | ⟨0, _⟩ => rfl
  | ⟨1, _⟩ => rfl

/-- Entry (r, g) of the one-hot block: one when row r's id word is the word of g, zero otherwise. -/
theorem v4_onehot (x3 : Vec Ideal S5000x1 .i32) (r : Fin 5000) (g : Fin 256) :
    k4_pay4 (F := Ideal) x3 (ix2 r g) = if x3 (ix2 r (0 : Fin 1)) = BitVec.ofNat 32 g.val then (1 : EReal) else 0 := by
  unfold k4_pay4
  show FloatOps.sitofp (F := Ideal) .f32
      ((IntOp.cmpi .eq (broadcastTo S5000x256 (shapeCast S5000x1 x3 shapeCasts_S5000x1_S5000x1) broadcasts_S5000x1_S5000x256 (ix2 r g))
        (iota .tc S5000x256 32 [1] iota_S5000x256_d1_w32 (ix2 r g))).setWidth 32) = _
  rw [v4_bcast_ids, shapeCast_self, iota_single_apply]
  show (((((IntOp.cmpi .eq (x3 (ix2 r (0 : Fin 1))) (BitVec.ofNat 32 g.val)).setWidth 32).toInt : ℤ) : ℝ) : EReal) = _
  by_cases h : x3 (ix2 r (0 : Fin 1)) = BitVec.ofNat 32 g.val
  · rw [if_pos h, h]
    simp [IntOp.cmpi]
  · rw [if_neg h]
    have hb : (x3 (ix2 r (0 : Fin 1)) == BitVec.ofNat 32 g.val) = false := by simpa using h
    simp [IntOp.cmpi, hb]

/-! The operand indices of the three products, axis by axis. -/
theorem lhs_lg_0 (i : S5000x8.Idx) (q : dot_S5000x64_S64x8_S5000x8_1_0_0_1_n_n.contr.Idx) :
    (dot_S5000x64_S64x8_S5000x8_1_0_0_1_n_n.lhsIdx i q 0).val = (i 0).val := by
  unfold DotDims.lhsIdx
  rw [dif_neg (show ¬(0 : Fin S5000x64.rank) ∈ dot_S5000x64_S64x8_S5000x8_1_0_0_1_n_n.lhsBatch by decide), dif_pos (show (0 : Fin S5000x64.rank) ∈ dot_S5000x64_S64x8_S5000x8_1_0_0_1_n_n.lhsNonContracting by decide)]
  rfl
theorem lhs_lg_1 (i : S5000x8.Idx) (q : dot_S5000x64_S64x8_S5000x8_1_0_0_1_n_n.contr.Idx) :
    (dot_S5000x64_S64x8_S5000x8_1_0_0_1_n_n.lhsIdx i q 1).val = (q ⟨0, by decide⟩).val :=
  dot_S5000x64_S64x8_S5000x8_1_0_0_1_n_n.lhsIdx_val_of_single rfl i q
theorem rhs_lg_0 (i : S5000x8.Idx) (q : dot_S5000x64_S64x8_S5000x8_1_0_0_1_n_n.contr.Idx) :
    (dot_S5000x64_S64x8_S5000x8_1_0_0_1_n_n.rhsIdx i q 0).val = (q ⟨0, by decide⟩).val :=
  dot_S5000x64_S64x8_S5000x8_1_0_0_1_n_n.rhsIdx_val_of_single rfl i q
theorem rhs_lg_1 (i : S5000x8.Idx) (q : dot_S5000x64_S64x8_S5000x8_1_0_0_1_n_n.contr.Idx) :
    (dot_S5000x64_S64x8_S5000x8_1_0_0_1_n_n.rhsIdx i q 1).val = (i 1).val := by
  unfold DotDims.rhsIdx
  rw [dif_neg (show ¬(1 : Fin S64x8.rank) ∈ dot_S5000x64_S64x8_S5000x8_1_0_0_1_n_n.rhsBatch by decide), dif_pos (show (1 : Fin S64x8.rank) ∈ dot_S5000x64_S64x8_S5000x8_1_0_0_1_n_n.rhsNonContracting by decide)]
  rfl
theorem lhs_sm_0 (i : S256x8.Idx) (q : dot_S5000x256_S5000x8_S256x8_0_0_1_1_n_n.contr.Idx) :
    (dot_S5000x256_S5000x8_S256x8_0_0_1_1_n_n.lhsIdx i q 0).val = (q ⟨0, by decide⟩).val :=
  dot_S5000x256_S5000x8_S256x8_0_0_1_1_n_n.lhsIdx_val_of_single rfl i q
theorem lhs_sm_1 (i : S256x8.Idx) (q : dot_S5000x256_S5000x8_S256x8_0_0_1_1_n_n.contr.Idx) :
    (dot_S5000x256_S5000x8_S256x8_0_0_1_1_n_n.lhsIdx i q 1).val = (i 0).val := by
  unfold DotDims.lhsIdx
  rw [dif_neg (show ¬(1 : Fin S5000x256.rank) ∈ dot_S5000x256_S5000x8_S256x8_0_0_1_1_n_n.lhsBatch by decide), dif_pos (show (1 : Fin S5000x256.rank) ∈ dot_S5000x256_S5000x8_S256x8_0_0_1_1_n_n.lhsNonContracting by decide)]
  rfl
theorem rhs_sm_0 (i : S256x8.Idx) (q : dot_S5000x256_S5000x8_S256x8_0_0_1_1_n_n.contr.Idx) :
    (dot_S5000x256_S5000x8_S256x8_0_0_1_1_n_n.rhsIdx i q 0).val = (q ⟨0, by decide⟩).val :=
  dot_S5000x256_S5000x8_S256x8_0_0_1_1_n_n.rhsIdx_val_of_single rfl i q
theorem rhs_sm_1 (i : S256x8.Idx) (q : dot_S5000x256_S5000x8_S256x8_0_0_1_1_n_n.contr.Idx) :
    (dot_S5000x256_S5000x8_S256x8_0_0_1_1_n_n.rhsIdx i q 1).val = (i 1).val := by
  unfold DotDims.rhsIdx
  rw [dif_neg (show ¬(1 : Fin S5000x8.rank) ∈ dot_S5000x256_S5000x8_S256x8_0_0_1_1_n_n.rhsBatch by decide), dif_pos (show (1 : Fin S5000x8.rank) ∈ dot_S5000x256_S5000x8_S256x8_0_0_1_1_n_n.rhsNonContracting by decide)]
  rfl
theorem lhs_ct_0 (i : S256x1.Idx) (q : dot_S5000x256_S5000x1_S256x1_0_0_1_1_n_n.contr.Idx) :
    (dot_S5000x256_S5000x1_S256x1_0_0_1_1_n_n.lhsIdx i q 0).val = (q ⟨0, by decide⟩).val :=
  dot_S5000x256_S5000x1_S256x1_0_0_1_1_n_n.lhsIdx_val_of_single rfl i q
theorem lhs_ct_1 (i : S256x1.Idx) (q : dot_S5000x256_S5000x1_S256x1_0_0_1_1_n_n.contr.Idx) :
    (dot_S5000x256_S5000x1_S256x1_0_0_1_1_n_n.lhsIdx i q 1).val = (i 0).val := by
  unfold DotDims.lhsIdx
  rw [dif_neg (show ¬(1 : Fin S5000x256.rank) ∈ dot_S5000x256_S5000x1_S256x1_0_0_1_1_n_n.lhsBatch by decide), dif_pos (show (1 : Fin S5000x256.rank) ∈ dot_S5000x256_S5000x1_S256x1_0_0_1_1_n_n.lhsNonContracting by decide)]
  rfl
theorem rhs_ct_0 (i : S256x1.Idx) (q : dot_S5000x256_S5000x1_S256x1_0_0_1_1_n_n.contr.Idx) :
    (dot_S5000x256_S5000x1_S256x1_0_0_1_1_n_n.rhsIdx i q 0).val = (q ⟨0, by decide⟩).val :=
  dot_S5000x256_S5000x1_S256x1_0_0_1_1_n_n.rhsIdx_val_of_single rfl i q
theorem rhs_ct_1 (i : S256x1.Idx) (q : dot_S5000x256_S5000x1_S256x1_0_0_1_1_n_n.contr.Idx) :
    (dot_S5000x256_S5000x1_S256x1_0_0_1_1_n_n.rhsIdx i q 1).val = (i 1).val := by
  unfold DotDims.rhsIdx
  rw [dif_neg (show ¬(1 : Fin S5000x1.rank) ∈ dot_S5000x256_S5000x1_S256x1_0_0_1_1_n_n.rhsBatch by decide), dif_pos (show (1 : Fin S5000x1.rank) ∈ dot_S5000x256_S5000x1_S256x1_0_0_1_1_n_n.rhsNonContracting by decide)]
  rfl

/-- The rows-by-weights product at (r, c): the sum over the 64 features. -/
theorem v4_mm_lg (a : FVec Ideal S5000x64 .bf16) (b : FVec Ideal S64x8 .bf16) (p : Fin 5000) (c : Fin 8) :
    matmul dot_S5000x64_S64x8_S5000x8_1_0_0_1_n_n none a b (constant (F := Ideal) S5000x8 .f32 0x00000000#32) (ix2 p c)
      = ∑ k : Fin 64, a (ix2 p k) * b (ix2 k c) := by
  simp only [matmul]
  rw [Ideal.matmul_constant_zero_apply, ← Equiv.sum_comp (ValueIdx.contrEquiv1 dot_S5000x64_S64x8_S5000x8_1_0_0_1_n_n 64 rfl rfl).symm]
  refine Finset.sum_congr rfl fun k _ => ?_
  have hk := ValueIdx.contrEquiv1_symm_val dot_S5000x64_S64x8_S5000x8_1_0_0_1_n_n 64 rfl rfl k
  have el : dot_S5000x64_S64x8_S5000x8_1_0_0_1_n_n.lhsIdx (ix2 p c) ((ValueIdx.contrEquiv1 dot_S5000x64_S64x8_S5000x8_1_0_0_1_n_n 64 rfl rfl).symm k) = ix2 p k := funext fun ax => Fin.ext (by
    match ax with
    | ⟨0, _⟩ => exact lhs_lg_0 _ _
    | ⟨1, _⟩ => exact (lhs_lg_1 _ _).trans hk)
  have er : dot_S5000x64_S64x8_S5000x8_1_0_0_1_n_n.rhsIdx (ix2 p c) ((ValueIdx.contrEquiv1 dot_S5000x64_S64x8_S5000x8_1_0_0_1_n_n 64 rfl rfl).symm k) = ix2 k c := funext fun ax => Fin.ext (by
    match ax with
    | ⟨0, _⟩ => exact (rhs_lg_0 _ _).trans hk
    | ⟨1, _⟩ => exact rhs_lg_1 _ _)
  rw [el, er]

/-- The one-hot block contracted with a 5000 x 8 block over the rows, at (g, c): the sum over the 5000 rows. -/
theorem v4_mm_sm (a : FVec Ideal S5000x256 .bf16) (b : FVec Ideal S5000x8 .bf16) (p : Fin 256) (c : Fin 8) :
    matmul dot_S5000x256_S5000x8_S256x8_0_0_1_1_n_n none a b (constant (F := Ideal) S256x8 .f32 0x00000000#32) (ix2 p c)
      = ∑ k : Fin 5000, a (ix2 k p) * b (ix2 k c) := by
  simp only [matmul]
  rw [Ideal.matmul_constant_zero_apply, ← Equiv.sum_comp (ValueIdx.contrEquiv1 dot_S5000x256_S5000x8_S256x8_0_0_1_1_n_n 5000 rfl rfl).symm]
  refine Finset.sum_congr rfl fun k _ => ?_
  have hk := ValueIdx.contrEquiv1_symm_val dot_S5000x256_S5000x8_S256x8_0_0_1_1_n_n 5000 rfl rfl k
  have el : dot_S5000x256_S5000x8_S256x8_0_0_1_1_n_n.lhsIdx (ix2 p c) ((ValueIdx.contrEquiv1 dot_S5000x256_S5000x8_S256x8_0_0_1_1_n_n 5000 rfl rfl).symm k) = ix2 k p := funext fun ax => Fin.ext (by
    match ax with
    | ⟨0, _⟩ => exact (lhs_sm_0 _ _).trans hk
    | ⟨1, _⟩ => exact lhs_sm_1 _ _)
  have er : dot_S5000x256_S5000x8_S256x8_0_0_1_1_n_n.rhsIdx (ix2 p c) ((ValueIdx.contrEquiv1 dot_S5000x256_S5000x8_S256x8_0_0_1_1_n_n 5000 rfl rfl).symm k) = ix2 k c := funext fun ax => Fin.ext (by
    match ax with
    | ⟨0, _⟩ => exact (rhs_sm_0 _ _).trans hk
    | ⟨1, _⟩ => exact rhs_sm_1 _ _)
  rw [el, er]

/-- The one-hot block contracted with a 5000 x 1 column over the rows, at (g, 0): the sum over the 5000 rows. -/
theorem v4_mm_ct (a : FVec Ideal S5000x256 .bf16) (b : FVec Ideal S5000x1 .bf16) (p : Fin 256) (c : Fin 1) :
    matmul dot_S5000x256_S5000x1_S256x1_0_0_1_1_n_n none a b (constant (F := Ideal) S256x1 .f32 0x00000000#32) (ix2 p c)
      = ∑ k : Fin 5000, a (ix2 k p) * b (ix2 k c) := by
  simp only [matmul]
  rw [Ideal.matmul_constant_zero_apply, ← Equiv.sum_comp (ValueIdx.contrEquiv1 dot_S5000x256_S5000x1_S256x1_0_0_1_1_n_n 5000 rfl rfl).symm]
  refine Finset.sum_congr rfl fun k _ => ?_
  have hk := ValueIdx.contrEquiv1_symm_val dot_S5000x256_S5000x1_S256x1_0_0_1_1_n_n 5000 rfl rfl k
  have el : dot_S5000x256_S5000x1_S256x1_0_0_1_1_n_n.lhsIdx (ix2 p c) ((ValueIdx.contrEquiv1 dot_S5000x256_S5000x1_S256x1_0_0_1_1_n_n 5000 rfl rfl).symm k) = ix2 k p := funext fun ax => Fin.ext (by
    match ax with
    | ⟨0, _⟩ => exact (lhs_ct_0 _ _).trans hk
    | ⟨1, _⟩ => exact lhs_ct_1 _ _)
  have er : dot_S5000x256_S5000x1_S256x1_0_0_1_1_n_n.rhsIdx (ix2 p c) ((ValueIdx.contrEquiv1 dot_S5000x256_S5000x1_S256x1_0_0_1_1_n_n 5000 rfl rfl).symm k) = ix2 k c := funext fun ax => Fin.ext (by
    match ax with
    | ⟨0, _⟩ => exact (rhs_ct_0 _ _).trans hk
    | ⟨1, _⟩ => exact rhs_ct_1 _ _)
  rw [el, er]

/-- The bias row laid over the block's rows: entry (r, c) is the bias of class c. -/
theorem v4_bias {α : Type} (x2 : S8.Idx → α) (r : Fin 5000) (c : Fin 8) :
    broadcastTo S5000x8 (shapeCast S1x8 x2 shapeCasts_S8_S1x8) broadcasts_S1x8_S5000x8 (ix2 r c) = x2 (ix1 c) :=
  (broadcastTo_1b_ab_apply (shapeCast S1x8 x2 shapeCasts_S8_S1x8) broadcasts_S1x8_S5000x8 r c).trans
    (shapeCast_a_1a_apply x2 shapeCasts_S8_S1x8 (0 : Fin 1) c)

/-- The block's class logits at (r, c): row r of the features against column c of the weights, plus the bias of c. -/
theorem v4_logit (x0 : Vec Ideal S5000x64 .f32) (x1 : Vec Ideal S64x8 .f32) (x2 : Vec Ideal S8 .f32) (r : Fin 5000) (c : Fin 8) :
    (truncf .bf16 (addf (matmul dot_S5000x64_S64x8_S5000x8_1_0_0_1_n_n none
        (truncf .bf16 (shapeCast S5000x64 x0 shapeCasts_S5000x64_S5000x64) bitsLt_bf16_f32) (truncf .bf16 x1 bitsLt_bf16_f32)
        (constant (F := Ideal) S5000x8 .f32 0x00000000#32))
      (broadcastTo S5000x8 (shapeCast S1x8 x2 shapeCasts_S8_S1x8) broadcasts_S1x8_S5000x8)) bitsLt_bf16_f32 : FVec Ideal S5000x8 .bf16) (ix2 r c)
      = (∑ j : Fin 64, x0 (ix2 r j) * x1 (ix2 j c)) + x2 (ix1 c) := by
  refine (addf_apply _ _ (ix2 r c)).trans ?_
  rw [v4_mm_lg, v4_bias, shapeCast_self]
  rfl

/-- One point's update of the running sums at (g, c): the logits of class c of the block's rows whose id is g are added. -/
theorem v4_pay5_apply (x0 : Vec Ideal S5000x64 .f32) (x1 : Vec Ideal S64x8 .f32) (x2 : Vec Ideal S8 .f32)
    (x3 : Vec Ideal S5000x1 .i32) (s : Vec Ideal S256x8 .f32) (g : Fin 256) (c : Fin 8) :
    k4_pay5 (F := Ideal) x0 x1 x2 x3 s (ix2 g c)
      = s (ix2 g c) + ∑ r : Fin 5000, (if x3 (ix2 r (0 : Fin 1)) = BitVec.ofNat 32 g.val
          then (∑ j : Fin 64, x0 (ix2 r j) * x1 (ix2 j c)) + x2 (ix1 c) else 0) := by
  unfold k4_pay5
  refine (congrFun (shapeCast_self _ shapeCasts_S256x8_S256x8) (ix2 g c)).trans ?_
  refine (addf_apply _ _ (ix2 g c)).trans ?_
  refine congrArg (fun z => s (ix2 g c) + z) ?_
  refine (v4_mm_sm _ _ g c).trans ?_
  refine Finset.sum_congr rfl fun r _ => ?_
  rw [v4_onehot, v4_logit]
  split
  · exact one_mul _
  · exact zero_mul _

/-- One point's update of the running counts at (g, 0): the number of the block's rows whose id is g is added. -/
theorem v4_pay6_apply (x3 : Vec Ideal S5000x1 .i32) (s : Vec Ideal S256x1 .f32) (g : Fin 256) :
    k4_pay6 (F := Ideal) x3 s (ix2 g (0 : Fin 1))
      = s (ix2 g (0 : Fin 1)) + ∑ r : Fin 5000, (if x3 (ix2 r (0 : Fin 1)) = BitVec.ofNat 32 g.val then (1 : EReal) else 0) := by
  unfold k4_pay6
  refine (congrFun (shapeCast_self _ shapeCasts_S256x1_S256x1) (ix2 g (0 : Fin 1))).trans ?_
  refine (addf_apply _ _ (ix2 g (0 : Fin 1))).trans ?_
  refine congrArg (fun z => s (ix2 g (0 : Fin 1)) + z) ?_
  refine (v4_mm_ct _ _ g (0 : Fin 1)).trans ?_
  refine Finset.sum_congr rfl fun r _ => ?_
  rw [v4_onehot]
  show _ * Ideal.ofBits .bf16 0x3F80#16 = _
  rw [v4_one_bf16, mul_one]

/-- The running sums start at zero. -/
theorem v4_pay2_apply (j : S256x8.Idx) : k4_pay2 (F := Ideal) j = 0 := by
  unfold k4_pay2
  refine (congrFun (shapeCast_self _ shapeCasts_S256x8_S256x8) j).trans ?_
  exact Ideal.ofBits_zero_f32

/-- The running counts start at zero. -/
theorem v4_pay3_apply (j : S256x1.Idx) : k4_pay3 (F := Ideal) j = 0 := by
  unfold k4_pay3
  refine (congrFun (shapeCast_self _ shapeCasts_S256x1_S256x1) j).trans ?_
  exact Ideal.ofBits_zero_f32

end Cert.KernelIdeal.Hand

end
-- ==== Proof.KI.Val4d.lean ====
/- Where the blocks of the read-out's grid points sit in their arrays, and one point's update read against whole
   arrays. The feature rows and the graph id column move down one block of 5000 rows per point, so row r of the block
   of point t is row 5000 t + r of the array; the weights, the bias and the 256 x 8 output are one block at every
   point; only the twentieth point writes the output back, and its one block is the whole output. If a point's blocks
   are those rows of the arrays, its update adds to the running sums the class logits of the rows of its block whose
   id word is the graph's, and to the running counts the number of those rows. -/
import proofs.«415612_j18743237280393_1_alg».proof.Proof.Gen.KernelIdeal.Launch
import proofs.«415612_j18743237280393_1_alg».proof.Proof.Gen.KernelIdeal.Points
import proofs.«415612_j18743237280393_1_alg».proof.Proof.KI.Val4b
import proofs.«415612_j18743237280393_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The block indices of the five windows, decided once over the twenty points: the feature rows and the id column
    move down one block per point, the weights, the bias and the output stay. -/
theorem v4_idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0
    ∧ win4_4.index t (0 : Fin 2) = 0 ∧ win4_4.index t (1 : Fin 2) = 0 :=
  (by decide +kernel : ∀ t : Fin grid4.N, _)

/-- Row r of the block of point t, as a row of the array. -/
abbrev v4_row (t : Fin cfg4.N) (r : Fin 5000) : Fin 100000 :=
  ⟨5000 * t.val + r.val, by have hN : cfg4.N = 20 := N_4; have := t.isLt; have := r.isLt; omega⟩

/-- Entry (r, j) of point t's feature block is entry (5000 t + r, j) of the features. -/
theorem v4_emb0 (t : Fin cfg4.N) (r : Fin 5000) (j : Fin 64) :
    (((cfg4.win 0).blk t).view.emb (ix2 r j) : S100000x64.Idx) = ix2 (v4_row t r) j := by
  obtain ⟨e00, e01, -, -, -, -, -, -, -⟩ := v4_idx_facts t
  refine funext fun a => Fin.ext ?_
  match a with
  | ⟨0, _⟩ => show win4_0.index t (0 : Fin 2) * 5000 + 1 * r.val = 5000 * t.val + r.val; rw [e00]; omega
  | ⟨1, _⟩ => show win4_0.index t (1 : Fin 2) * 64 + 1 * j.val = j.val; rw [e01]; omega

/-- The weights' block is the weights. -/
theorem v4_emb1 (t : Fin cfg4.N) (j : Fin 64) (k : Fin 8) :
    (((cfg4.win 1).blk t).view.emb (ix2 j k) : S64x8.Idx) = ix2 j k := by
  obtain ⟨-, -, e10, e11, -, -, -, -, -⟩ := v4_idx_facts t
  refine funext fun a => Fin.ext ?_
  match a with
  | ⟨0, _⟩ => show win4_1.index t (0 : Fin 2) * 64 + 1 * j.val = j.val; rw [e10]; omega
  | ⟨1, _⟩ => show win4_1.index t (1 : Fin 2) * 8 + 1 * k.val = k.val; rw [e11]; omega

/-- The bias's block is the bias. -/
theorem v4_emb2 (t : Fin cfg4.N) (k : Fin 8) :
    (((cfg4.win 2).blk t).view.emb (ix1 k) : S8.Idx) = ix1 k := by
  obtain ⟨-, -, -, -, e20, -, -, -, -⟩ := v4_idx_facts t
  refine funext fun a => Fin.ext ?_
  match a with
  | ⟨0, _⟩ => show win4_2.index t (0 : Fin 1) * 8 + 1 * k.val = k.val; rw [e20]; omega

/-- Entry (r, 0) of point t's id block is entry (5000 t + r, 0) of the id column. -/
theorem v4_emb3 (t : Fin cfg4.N) (r : Fin 5000) :
    (((cfg4.win 3).blk t).view.emb (ix2 r (0 : Fin 1)) : S100000x1.Idx) = ix2 (v4_row t r) (0 : Fin 1) := by
  obtain ⟨-, -, -, -, -, e30, e31, -, -⟩ := v4_idx_facts t
  refine funext fun a => Fin.ext ?_
  match a with
  | ⟨0, _⟩ => show win4_3.index t (0 : Fin 2) * 5000 + 1 * r.val = 5000 * t.val + r.val; rw [e30]; omega
  | ⟨1, _⟩ => show win4_3.index t (1 : Fin 2) * 1 + 1 * 0 = 0; rw [e31]

/-- The output's block is the output. -/
theorem v4_emb4 (t : Fin cfg4.N) (j : S256x8.Idx) :
    (((cfg4.win 4).blk t).view.emb j : S256x8.Idx) = j := by
  obtain ⟨-, -, -, -, -, -, -, e40, e41⟩ := v4_idx_facts t
  refine funext fun a => Fin.ext ?_
  match a with
  | ⟨0, _⟩ => show win4_4.index t (0 : Fin 2) * 256 + 1 * (j 0).val = (j 0).val; rw [e40]; omega
  | ⟨1, _⟩ => show win4_4.index t (1 : Fin 2) * 8 + 1 * (j 1).val = (j 1).val; rw [e41]; omega

/-- An index of the output is in point t's block iff each coordinate is in the block's range on its axis. -/
theorem v4_mem_blk (t : Fin cfg4.N) (i : S256x8.Idx) :
    i ∈ ((cfg4.win 4).blk t).view.set ↔ ∀ a : Fin 2, win4_4.index t a * S256x8.size a ≤ (i a).val ∧ (i a).val < win4_4.index t a * S256x8.size a + S256x8.size a := by
  show i ∈ ((View.whole main_v74).slice (win4_4.rect t)).set ↔ _
  rw [View.set_slice_whole, Rect.mem_set_unit]
  exact Iff.rfl

/-- A point that writes back is the twentieth. -/
theorem v4_flush_last (t : Fin cfg4.N) (hf : (cfg4.win 4).flush t = true) : t.val = 19 := by
  have hN : cfg4.N = 20 := N_4
  have := (flush4_4 t).mp hf
  have := t.isLt
  omega

/-- Every entry of the output is in the block of the twentieth point, which is written back. -/
theorem v4_cover (i : S256x8.Idx) :
    ∃ t : Fin cfg4.N, (cfg4.win 4).flush t = true ∧ i ∈ ((cfg4.win 4).blk t).view.set := by
  have hN : cfg4.N = 20 := N_4
  have hi0 : (i 0).val < 256 := idx2_lt0 i
  have hi1 : (i 1).val < 8 := idx2_lt1 i
  have ht : 19 < cfg4.N := by rw [hN]; omega
  refine ⟨⟨19, ht⟩, (flush4_4 _).mpr rfl, ?_⟩
  obtain ⟨-, -, -, -, -, -, -, e40, e41⟩ := v4_idx_facts ⟨19, ht⟩
  rw [v4_mem_blk]
  intro a
  match a with
  | ⟨0, _⟩ => show win4_4.index ⟨19, ht⟩ (0 : Fin 2) * 256 ≤ (i 0).val ∧ (i 0).val < win4_4.index ⟨19, ht⟩ (0 : Fin 2) * 256 + 256; rw [e40]; omega
  | ⟨1, _⟩ => show win4_4.index ⟨19, ht⟩ (1 : Fin 2) * 8 ≤ (i 1).val ∧ (i 1).val < win4_4.index ⟨19, ht⟩ (1 : Fin 2) * 8 + 8; rw [e41]; omega

/-! ## One point's update against whole arrays -/

/-- What row m contributes to the running sum of graph g, class k: its logit when its id word is g's, else nothing. -/
abbrev v4_term (A : S100000x64.Idx → EReal) (W : S64x8.Idx → EReal) (b : S8.Idx → EReal) (ids : S100000x1.Idx → BitVec 32)
    (g : Fin 256) (k : Fin 8) (m : Fin 100000) : EReal :=
  if ids (ix2 m (0 : Fin 1)) = BitVec.ofNat 32 g.val then Cert.Spec.logits A W b (ix2 m k) else 0

/-- What row m contributes to the running count of graph g: one when its id word is g's, else nothing. -/
abbrev v4_unit (ids : S100000x1.Idx → BitVec 32) (g : Fin 256) (m : Fin 100000) : EReal :=
  if ids (ix2 m (0 : Fin 1)) = BitVec.ofNat 32 g.val then 1 else 0

/-- If a point's blocks are rows 5000 n .. 5000 n + 4999 of the features and of the id column, and the whole weights
    and bias, its update adds to the running sum at (g, k) the contributions of those rows. -/
theorem v4_step_sum (A : S100000x64.Idx → EReal) (W : S64x8.Idx → EReal) (b : S8.Idx → EReal) (ids : S100000x1.Idx → BitVec 32)
    (x0 : Vec Ideal S5000x64 .f32) (x1 : Vec Ideal S64x8 .f32) (x2 : Vec Ideal S8 .f32) (x3 : Vec Ideal S5000x1 .i32)
    (s : Vec Ideal S256x8 .f32) (row : Fin 5000 → Fin 100000) (g : Fin 256) (k : Fin 8)
    (hx0 : ∀ (r : Fin 5000) (j : Fin 64), x0 (ix2 r j) = A (ix2 (row r) j))
    (hx1 : ∀ (j : Fin 64), x1 (ix2 j k) = W (ix2 j k))
    (hx2 : x2 (ix1 k) = b (ix1 k))
    (hx3 : ∀ r : Fin 5000, x3 (ix2 r (0 : Fin 1)) = ids (ix2 (row r) (0 : Fin 1))) :
    k4_pay5 (F := Ideal) x0 x1 x2 x3 s (ix2 g k) = s (ix2 g k) + ∑ r : Fin 5000, v4_term A W b ids g k (row r) := by
  refine (v4_pay5_apply x0 x1 x2 x3 s g k).trans ?_
  refine congrArg (fun z => s (ix2 g k) + z) ?_
  refine Finset.sum_congr rfl fun r _ => ?_
  show (if x3 (ix2 r (0 : Fin 1)) = BitVec.ofNat 32 g.val then (∑ j : Fin 64, x0 (ix2 r j) * x1 (ix2 j k)) + x2 (ix1 k) else 0)
    = if ids (ix2 (row r) (0 : Fin 1)) = BitVec.ofNat 32 g.val then (∑ j : Fin 64, A (ix2 (row r) j) * W (ix2 j k)) + b (ix1 k) else 0
  rw [hx3 r, hx2]
  refine congrArg (fun z => if ids (ix2 (row r) (0 : Fin 1)) = BitVec.ofNat 32 g.val then z + b (ix1 k) else 0) ?_
  exact Finset.sum_congr rfl fun j _ => congrArg₂ (· * ·) (hx0 r j) (hx1 j)

/-- … and to the running count at (g, 0) their number. -/
theorem v4_step_cnt (ids : S100000x1.Idx → BitVec 32) (x3 : Vec Ideal S5000x1 .i32) (s : Vec Ideal S256x1 .f32)
    (row : Fin 5000 → Fin 100000) (g : Fin 256)
    (hx3 : ∀ r : Fin 5000, x3 (ix2 r (0 : Fin 1)) = ids (ix2 (row r) (0 : Fin 1))) :
    k4_pay6 (F := Ideal) x3 s (ix2 g (0 : Fin 1)) = s (ix2 g (0 : Fin 1)) + ∑ r : Fin 5000, v4_unit ids g (row r) := by
  refine (v4_pay6_apply x3 s g).trans ?_
  refine congrArg (fun z => s (ix2 g (0 : Fin 1)) + z) ?_
  refine Finset.sum_congr rfl fun r _ => ?_
  show (if x3 (ix2 r (0 : Fin 1)) = BitVec.ofNat 32 g.val then (1 : EReal) else 0) = if ids (ix2 (row r) (0 : Fin 1)) = BitVec.ofNat 32 g.val then 1 else 0
  rw [hx3 r]

end Cert.KernelIdeal.Hand

end
-- ==== Proof.KI.Val4.lean ====
/- The read-out, kernel side: what region 4 leaves in its output array. Over the twenty grid points two buffers are
   kept: the per-graph sums of the class logits and the per-graph counts of the rows. Point n adds the rows of its
   block, rows 5000 n .. 5000 n + 4999 of the features and of the graph id column, each row to the graph whose word its
   id is; the buffers start at zero. After the twentieth point every one of the 100000 rows has been added exactly once,
   so the buffers hold the sum of the logits over each graph's rows and the number of those rows. The twentieth point
   alone stores the output: the sums over the counts clamped below at one, then the row-wise log-softmax; its one block
   is the whole 256 x 8 output, and no other point writes back: the array ends holding the read-out of the arrays the
   region found. -/
import proofs.«415612_j18743237280393_1_alg».proof.Proof.KI.R4
import proofs.«415612_j18743237280393_1_alg».proof.Proof.KI.Val4a
import proofs.«415612_j18743237280393_1_alg».proof.Proof.KI.Val4c
import proofs.«415612_j18743237280393_1_alg».proof.Proof.KI.Val4d
import proofs.«415612_j18743237280393_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The blocks and the arrays, at their literal types -/

/-- Point t's block of feature rows, of the weights, of the bias and of graph ids. -/
abbrev v4_x0 (c : Dev nD) (t : Fin cfg4.N) : Vec Ideal S5000x64 .f32 := iblk4 (F := Ideal) V c 0 t
abbrev v4_x1 (c : Dev nD) (t : Fin cfg4.N) : Vec Ideal S64x8 .f32 := iblk4 (F := Ideal) V c 1 t
abbrev v4_x2 (c : Dev nD) (t : Fin cfg4.N) : Vec Ideal S8 .f32 := iblk4 (F := Ideal) V c 2 t
abbrev v4_x3 (c : Dev nD) (t : Fin cfg4.N) : Vec Ideal S5000x1 .i32 := iblk4 (F := Ideal) V c 3 t

/-- The features, the weights, the bias and the graph ids as the region finds them. -/
abbrev v4_A (c : Dev nD) : S100000x64.Idx → EReal := V c main_v73
abbrev v4_W (c : Dev nD) : S64x8.Idx → EReal := V c main_arg7
abbrev v4_b (c : Dev nD) : S8.Idx → EReal := V c main_arg8
abbrev v4_ids (c : Dev nD) : S100000x1.Idx → BitVec 32 := V c main_v33

/-- Row r of point t's feature block is row 5000 t + r of the features. -/
theorem v4_blk0 (c : Dev nD) (t : Fin cfg4.N) (r : Fin 5000) (j : Fin 64) :
    v4_x0 V c t (ix2 r j) = v4_A V c (ix2 (v4_row t r) j) := by
  show V c main_v73 (((cfg4.win 0).blk t).view.emb (ix2 r j)) = V c main_v73 (ix2 (v4_row t r) j)
  exact congrArg (V c main_v73) (v4_emb0 t r j)

/-- Point t's weights are the weights. -/
theorem v4_blk1 (c : Dev nD) (t : Fin cfg4.N) (j : Fin 64) (k : Fin 8) :
    v4_x1 V c t (ix2 j k) = v4_W V c (ix2 j k) := by
  show V c main_arg7 (((cfg4.win 1).blk t).view.emb (ix2 j k)) = V c main_arg7 (ix2 j k)
  exact congrArg (V c main_arg7) (v4_emb1 t j k)

/-- Point t's bias is the bias. -/
theorem v4_blk2 (c : Dev nD) (t : Fin cfg4.N) (k : Fin 8) :
    v4_x2 V c t (ix1 k) = v4_b V c (ix1 k) := by
  show V c main_arg8 (((cfg4.win 2).blk t).view.emb (ix1 k)) = V c main_arg8 (ix1 k)
  exact congrArg (V c main_arg8) (v4_emb2 t k)

/-- Row r of point t's id block is row 5000 t + r of the id column. -/
theorem v4_blk3 (c : Dev nD) (t : Fin cfg4.N) (r : Fin 5000) :
    v4_x3 V c t (ix2 r (0 : Fin 1)) = v4_ids V c (ix2 (v4_row t r) (0 : Fin 1)) := by
  show V c main_v33 (((cfg4.win 3).blk t).view.emb (ix2 r (0 : Fin 1))) = V c main_v33 (ix2 (v4_row t r) (0 : Fin 1))
  exact congrArg (V c main_v33) (v4_emb3 t r)

/-! ## The kept buffers after the twentieth point -/

/-- The running sum of graph g, class k after the twentieth point: every row's contribution, once. -/
theorem v4_sc_sum (c : Dev nD) (h19 : 19 < cfg4.N) (g : Fin 256) (k : Fin 8) :
    (sc4 (F := Ideal) V c 19 h19).1 (ix2 g k)
      = ∑ m : Fin 100000, v4_term (v4_A V c) (v4_W V c) (v4_b V c) (v4_ids V c) g k m := by
  have hN : cfg4.N = 20 := N_4
  refine v4_acc_total (v4_term (v4_A V c) (v4_W V c) (v4_b V c) (v4_ids V c) g k)
    (fun n (h : n < 20) => (sc4 (F := Ideal) V c n (hN.symm ▸ h)).1 (ix2 g k)) (fun h => ?_) (fun n h => ?_)
  · have h' : 0 < cfg4.N := hN.symm ▸ h
    show k4_pay5 (F := Ideal) (v4_x0 V c ⟨0, h'⟩) (v4_x1 V c ⟨0, h'⟩) (v4_x2 V c ⟨0, h'⟩) (v4_x3 V c ⟨0, h'⟩) (k4_pay2 (F := Ideal)) (ix2 g k) = _
    refine (v4_step_sum (v4_A V c) (v4_W V c) (v4_b V c) (v4_ids V c) (v4_x0 V c ⟨0, h'⟩) (v4_x1 V c ⟨0, h'⟩) (v4_x2 V c ⟨0, h'⟩)
      (v4_x3 V c ⟨0, h'⟩) (k4_pay2 (F := Ideal)) (v4_row ⟨0, h'⟩) g k (fun r j => v4_blk0 V c ⟨0, h'⟩ r j) (fun j => v4_blk1 V c ⟨0, h'⟩ j k)
      (v4_blk2 V c ⟨0, h'⟩ k) (fun r => v4_blk3 V c ⟨0, h'⟩ r)).trans ?_
    rw [v4_pay2_apply, zero_add]
  · have h' : n + 1 < cfg4.N := hN.symm ▸ h
    show k4_pay5 (F := Ideal) (v4_x0 V c ⟨n + 1, h'⟩) (v4_x1 V c ⟨n + 1, h'⟩) (v4_x2 V c ⟨n + 1, h'⟩) (v4_x3 V c ⟨n + 1, h'⟩)
      (sc4 (F := Ideal) V c n (Nat.lt_of_succ_lt h')).1 (ix2 g k) = _
    exact v4_step_sum (v4_A V c) (v4_W V c) (v4_b V c) (v4_ids V c) (v4_x0 V c ⟨n + 1, h'⟩) (v4_x1 V c ⟨n + 1, h'⟩) (v4_x2 V c ⟨n + 1, h'⟩)
      (v4_x3 V c ⟨n + 1, h'⟩) (sc4 (F := Ideal) V c n (Nat.lt_of_succ_lt h')).1 (v4_row ⟨n + 1, h'⟩) g k (fun r j => v4_blk0 V c ⟨n + 1, h'⟩ r j)
      (fun j => v4_blk1 V c ⟨n + 1, h'⟩ j k) (v4_blk2 V c ⟨n + 1, h'⟩ k) (fun r => v4_blk3 V c ⟨n + 1, h'⟩ r)

/-- The running count of graph g after the twentieth point: one for every row whose id is g. -/
theorem v4_sc_cnt (c : Dev nD) (h19 : 19 < cfg4.N) (g : Fin 256) :
    (sc4 (F := Ideal) V c 19 h19).2 (ix2 g (0 : Fin 1)) = ∑ m : Fin 100000, v4_unit (v4_ids V c) g m := by
  have hN : cfg4.N = 20 := N_4
  refine v4_acc_total (v4_unit (v4_ids V c) g)
    (fun n (h : n < 20) => (sc4 (F := Ideal) V c n (hN.symm ▸ h)).2 (ix2 g (0 : Fin 1))) (fun h => ?_) (fun n h => ?_)
  · have h' : 0 < cfg4.N := hN.symm ▸ h
    show k4_pay6 (F := Ideal) (v4_x3 V c ⟨0, h'⟩) (k4_pay3 (F := Ideal)) (ix2 g (0 : Fin 1)) = _
    refine (v4_step_cnt (v4_ids V c) (v4_x3 V c ⟨0, h'⟩) (k4_pay3 (F := Ideal)) (v4_row ⟨0, h'⟩) g (fun r => v4_blk3 V c ⟨0, h'⟩ r)).trans ?_
    rw [v4_pay3_apply, zero_add]
  · have h' : n + 1 < cfg4.N := hN.symm ▸ h
    show k4_pay6 (F := Ideal) (v4_x3 V c ⟨n + 1, h'⟩) (sc4 (F := Ideal) V c n (Nat.lt_of_succ_lt h')).2 (ix2 g (0 : Fin 1)) = _
    exact v4_step_cnt (v4_ids V c) (v4_x3 V c ⟨n + 1, h'⟩) (sc4 (F := Ideal) V c n (Nat.lt_of_succ_lt h')).2 (v4_row ⟨n + 1, h'⟩) g
      (fun r => v4_blk3 V c ⟨n + 1, h'⟩ r)

/-- After the twentieth point the first kept buffer holds the per-graph sums of the logits … -/
theorem v4_sc_last_sum (c : Dev nD) (h19 : 19 < cfg4.N) :
    (sc4 (F := Ideal) V c 19 h19).1
      = Cert.Spec.segSum (V c main_v33) (Cert.Spec.logits (V c main_v73) (V c main_arg7) (V c main_arg8)) := by
  funext j
  obtain ⟨g, k, rfl⟩ : ∃ (g : Fin 256) (k : Fin 8), j = ix2 g k := ⟨j 0, j 1, eq_ix2 j⟩
  refine (v4_sc_sum V c h19 g k).trans ?_
  unfold Cert.Spec.segSum
  exact Finset.sum_congr rfl fun m _ => rfl

/-- … and the second the per-graph counts. -/
theorem v4_sc_last_cnt (c : Dev nD) (h19 : 19 < cfg4.N) :
    (sc4 (F := Ideal) V c 19 h19).2 = Cert.Spec.segCnt (V c main_v33) := by
  funext j
  obtain ⟨g, u, rfl⟩ : ∃ (g : Fin 256) (u : Fin 1), j = ix2 g u := ⟨j 0, j 1, eq_ix2 j⟩
  obtain rfl : u = 0 := Subsingleton.elim _ _
  refine (v4_sc_cnt V c h19 g).trans ?_
  unfold Cert.Spec.segCnt
  exact Finset.sum_congr rfl fun m _ => rfl

/-! ## The array after the region -/

/-- WHAT A POINT THAT WRITES BACK WRITES is its block — the whole — of the read-out of the arrays the region found. -/
theorem v4_flushed_eq (c : Dev nD) (t : Fin cfg4.N) (hf : (cfg4.win 4).flush t = true) :
    (dat4 (F := Ideal) V c).flushed 4 t
      = ((cfg4.win 4).blk t).view.read (Elt Ideal) (Cert.Spec.readout (V c main_v73) (V c main_arg7) (V c main_arg8) (V c main_v33)) := by
  show (cfg4.win 4).cut (grid4.coords t) ((dat4 (F := Ideal) V c).after 4 t) = _
  rw [after4_4]
  have h19 := v4_flush_last t hf
  obtain ⟨n, hn⟩ := t
  obtain rfl : n = 19 := h19
  funext j
  show fin4 (F := Ideal) (sc4 (F := Ideal) V c 19 hn) j
    = Cert.Spec.readout (V c main_v73) (V c main_arg7) (V c main_arg8) (V c main_v33) (((cfg4.win 4).blk ⟨19, hn⟩).view.emb j)
  rw [v4_emb4 ⟨19, hn⟩ j]
  unfold fin4
  rw [v4_sc_last_sum V c hn, v4_sc_last_cnt V c hn]
  unfold Cert.Spec.readout
  exact congrFun (fin4_eq (Cert.Spec.segSum (V c main_v33) (Cert.Spec.logits (V c main_v73) (V c main_arg7) (V c main_arg8)))
    (Cert.Spec.segCnt (V c main_v33))) j

/-- THE ARRAY after the region: the read-out of the features, the weights, the bias and the graph ids. -/
theorem arr4_eq (V : (c : Dev nD) → (b : Ref sig .tc) → Buf (Elt Ideal) ((c : Thread nD τ).loc b)) (c : Dev nD) :
    (dat4 (F := Ideal) V c).arrAt 4 cfg4.N
      = Cert.Spec.readout (V c main_v73) (V c main_arg7) (V c main_arg8) (V c main_v33) :=
  (dat4 (F := Ideal) V c).arrAt_eq_of_cover 4 (Cert.Spec.readout (V c main_v73) (V c main_arg7) (V c main_arg8) (V c main_v33))
    (fun t hf => v4_flushed_eq V c t hf) v4_cover

end Cert.KernelIdeal.Hand

end
-- ==== Proof.Ref.Dense.lean ====
/- The reference's dense stages over the extended reals, read index by index: the projection `x · w` is the sum
   over the 64 features of the products; the convolution's finish is the aggregate plus the node's own projected
   row times the node's column entry plus the bias row's entry, once clamped below at zero. The statements are over
   arbitrary operand arrays, so they serve both layers. -/
import proofs.«415612_j18743237280393_1_alg».proof.Proof.Gen.ReferenceIdeal.Read
import proofs.«415612_j18743237280393_1_alg».proof.Proof.Spec
import Idealize.ShloMosaic.PureOps.Ideal
import Idealize.ShloMosaic.PureOps.Ideal.Laws
import Idealize.ShloMosaic.Lib.ValueIdx
import Idealize.ShloMosaic.Lib.Pipeline.Value

noncomputable section

namespace Cert.ReferenceIdeal.Stages

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The projection: entry (n, j) of `x · w` is the sum over the features `k` of `x n k * w k j`. -/
theorem ref_proj (x : S100000x64.Idx → EReal) (w : S64x64.Idx → EReal) :
    Host.dotGeneral (F := Ideal) (φ₁ := .f32) (φ₂ := .f32) dot_S100000x64_S64x64_S100000x64_1_0_0_1_n_n none x w = Cert.Spec.proj x w := by
  funext i
  refine (val_main_v4_apply x w i).trans ?_
  unfold Cert.Spec.proj
  refine Finset.sum_congr rfl fun k _ => ?_
  have el : lidx_main_v4 i k = ix2 (i 0) k :=
    funext fun a => Fin.ext (by match a with | ⟨0, _⟩ => rfl | ⟨1, _⟩ => rfl)
  have er : ridx_main_v4 i k = ix2 k (i 1) :=
    funext fun a => Fin.ext (by match a with | ⟨0, _⟩ => rfl | ⟨1, _⟩ => rfl)
  exact congrArg₂ (· * ·) (congrArg x el) (congrArg w er)

/-- A column spread along the features reads, at (n, j), the column's entry at row n. -/
theorem col_apply (c : S100000x1.Idx → EReal) (i : S100000x64.Idx) :
    broadcastInDim S100000x64 ![0, 1] bcast_S100000x1_S100000x64_0_1 c i = c (ix2 (i 0) 0) :=
  broadcastInDim_apply _ bcast_S100000x1_S100000x64_0_1 c i (ix2 (i 0) 0) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

/-- A row spread along the nodes reads, at (n, j), the row's entry j. -/
theorem row_apply (b : S64.Idx → EReal) (i : S100000x64.Idx) :
    broadcastInDim S100000x64 ![0, 1] bcast_S1x64_S100000x64_0_1 (broadcastInDim S1x64 ![1] bcast_S64_S1x64_1 b) i
      = b (ix1 (i 1)) := by
  refine (broadcastInDim_apply _ bcast_S1x64_S100000x64_0_1 _ i (ix2 0 (i 1)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])).trans ?_
  exact broadcastInDim_apply _ bcast_S64_S1x64_1 b (ix2 0 (i 1)) (ix1 (i 1)) (fun a => match a with
    | ⟨0, _⟩ => by show (i 1).val = if (64 : Nat) = 1 then 0 else (i 1).val; rw [if_neg (by decide)])

/-- The clamp's other operand is zero everywhere. -/
theorem zeros_apply (i : S100000x64.Idx) : (val_main_call0_v0 (F := Ideal) i : EReal) = 0 := by
  rw [val_main_call0_v0_apply, val_main_call0_cst_apply, Ideal.ofBits_def, Ideal.ofBits_zero_f32]

/-- The finish without the clamp. -/
theorem ref_finish (agg h : S100000x64.Idx → EReal) (d : S100000.Idx → EReal) (b : S64.Idx → EReal) :
    addf (F := Ideal) (s := S100000x64) (φ := .f32)
        (addf (F := Ideal) (s := S100000x64) (φ := .f32) agg
          (mulf (F := Ideal) (s := S100000x64) (φ := .f32) h
            (broadcastInDim S100000x64 ![0, 1] bcast_S100000x1_S100000x64_0_1
              (broadcastInDim S100000x1 ![0] bcast_S100000_S100000x1_0 d))))
        (broadcastInDim S100000x64 ![0, 1] bcast_S1x64_S100000x64_0_1 (broadcastInDim S1x64 ![1] bcast_S64_S1x64_1 b))
      = Cert.Spec.finish agg h (broadcastInDim S100000x1 ![0] bcast_S100000_S100000x1_0 d) b := by
  funext i
  unfold Cert.Spec.finish
  simp only [addf, mulf, Ideal.addf_def, Ideal.mulf_def]
  rw [col_apply, row_apply]

/-- The finish with the clamp at zero. -/
theorem ref_finishRelu (agg h : S100000x64.Idx → EReal) (d : S100000.Idx → EReal) (b : S64.Idx → EReal) :
    maximumf (F := Ideal) (s := S100000x64) (φ := .f32)
      (addf (F := Ideal) (s := S100000x64) (φ := .f32)
        (addf (F := Ideal) (s := S100000x64) (φ := .f32) agg
          (mulf (F := Ideal) (s := S100000x64) (φ := .f32) h
            (broadcastInDim S100000x64 ![0, 1] bcast_S100000x1_S100000x64_0_1
              (broadcastInDim S100000x1 ![0] bcast_S100000_S100000x1_0 d))))
        (broadcastInDim S100000x64 ![0, 1] bcast_S1x64_S100000x64_0_1 (broadcastInDim S1x64 ![1] bcast_S64_S1x64_1 b)))
      (val_main_call0_v0 (F := Ideal))
      = Cert.Spec.finishRelu agg h (broadcastInDim S100000x1 ![0] bcast_S100000_S100000x1_0 d) b := by
  rw [ref_finish]
  funext i
  unfold Cert.Spec.finishRelu
  simp only [maximumf, Ideal.maximumf_def]
  rw [zeros_apply]

theorem ref_v4 (x0 : (⟨S100000x64, .f32⟩ : BufTy).Contents (Elt Ideal)) (x3 : (⟨S64x64, .f32⟩ : BufTy).Contents (Elt Ideal)) :
    val_main_v4 (F := Ideal) x0 x3 = Cert.Spec.proj x0 x3 :=
  ref_proj x0 x3

theorem ref_v56 (x0 : (⟨S100000x64, .f32⟩ : BufTy).Contents (Elt Ideal)) (x1 : (⟨S2x1250000, .i32⟩ : BufTy).Contents (Elt Ideal))
    (x3 : (⟨S64x64, .f32⟩ : BufTy).Contents (Elt Ideal)) (x4 : (⟨S64, .f32⟩ : BufTy).Contents (Elt Ideal)) :
    val_main_v56 (F := Ideal) x0 x1 x3 x4
      = Cert.Spec.finishRelu (val_main_v47 (F := Ideal) x0 x1 x3) (val_main_v4 (F := Ideal) x0 x3) (val_main_v49 (F := Ideal) x1) x4 := by
  unfold val_main_v56 val_main_v55 val_main_v54 val_main_v53 val_main_v52 val_main_v51 val_main_v50 val_main_v49
  exact ref_finishRelu (val_main_v47 (F := Ideal) x0 x1 x3) (val_main_v4 (F := Ideal) x0 x3) (val_main_v48 (F := Ideal) x1) x4

theorem ref_v57 (x0 : (⟨S100000x64, .f32⟩ : BufTy).Contents (Elt Ideal)) (x1 : (⟨S2x1250000, .i32⟩ : BufTy).Contents (Elt Ideal))
    (x3 : (⟨S64x64, .f32⟩ : BufTy).Contents (Elt Ideal)) (x4 : (⟨S64, .f32⟩ : BufTy).Contents (Elt Ideal))
    (x5 : (⟨S64x64, .f32⟩ : BufTy).Contents (Elt Ideal)) :
    val_main_v57 (F := Ideal) x0 x1 x3 x4 x5 = Cert.Spec.proj (val_main_v56 (F := Ideal) x0 x1 x3 x4) x5 :=
  ref_proj (val_main_v56 (F := Ideal) x0 x1 x3 x4) x5

theorem ref_v108 (x0 : (⟨S100000x64, .f32⟩ : BufTy).Contents (Elt Ideal)) (x1 : (⟨S2x1250000, .i32⟩ : BufTy).Contents (Elt Ideal))
    (x3 : (⟨S64x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal)) :
    val_main_v108 (F := Ideal) x0 x1 x3 x4 x5 x6
      = Cert.Spec.finish (val_main_v100 (F := Ideal) x0 x1 x3 x4 x5) (val_main_v57 (F := Ideal) x0 x1 x3 x4 x5)
          (val_main_v102 (F := Ideal) x1) x6 := by
  unfold val_main_v108 val_main_v107 val_main_v106 val_main_v105 val_main_v104 val_main_v103 val_main_v102
  exact ref_finish (val_main_v100 (F := Ideal) x0 x1 x3 x4 x5) (val_main_v57 (F := Ideal) x0 x1 x3 x4 x5)
    (val_main_v101 (F := Ideal) x1) x6

end Cert.ReferenceIdeal.Stages

end
-- ==== Proof.Ref.Readout.lean ====
/- The reference's read-out, first part: the two scatter-adds over the graph ids. An update (n, k) of a scatter
   whose start is the id word of node n, read as a signed integer and not clamped, lands on (g, k) exactly when that
   integer is g, and nowhere when it is negative or 256 or more; a signed 32-bit word is g < 256 exactly when it is
   the word of g. So the scatter-add from zeros is, at (g, k), the sum over the nodes whose id word is the word of g
   of their update at k: the segment sum of the logits, and, with every update one, the segment's count. -/
import proofs.«415612_j18743237280393_1_alg».proof.Proof.Gen.ReferenceIdeal.Read
import proofs.«415612_j18743237280393_1_alg».proof.Proof.Spec
import Idealize.ShloMosaic.Lib.IdealHost

noncomputable section

namespace Cert.ReferenceIdeal.Stages

open Cert.ReferenceIdeal Cert.ReferenceIdeal.Gen Cert.ReferenceIdeal.Read Idealize.ShloMosaic Idealize.ShloMosaic.ValueIdx Idealize.ShloMosaic.StableHlo

/-- A 32-bit word read as a signed integer is the graph number g (below 256) exactly when it is the word of g. -/
theorem toInt_eq_iff_ofNat (w : BitVec 32) (g : Nat) (hg : g < 256) : w.toInt = (g : Int) ↔ w = BitVec.ofNat 32 g := by
  have hw : w.toNat < 4294967296 := w.isLt
  constructor
  · intro h
    apply BitVec.eq_of_toNat_eq
    rw [BitVec.toNat_ofNat, show (2 : Nat) ^ 32 = 4294967296 by norm_num, Nat.mod_eq_of_lt (by omega)]
    rw [BitVec.toInt_eq_toNat_cond] at h
    split at h <;> omega
  · rintro rfl
    rw [BitVec.toInt_eq_toNat_cond, BitVec.toNat_ofNat, show (2 : Nat) ^ 32 = 4294967296 by norm_num, Nat.mod_eq_of_lt (by omega)]
    rw [if_pos (by omega)]

/-! ## The scatter into 256 x 8 -/

/-- Every update index reads its start from the id word of its node: row (n, 0) of the ids. -/
theorem siIdx8 (j : S100000x8.Idx) (c : Fin scatter_S256x8_S100000x1_S100000x8_1_0_0_1.scatterDimsToOperandDims.length) :
    scatter_S256x8_S100000x1_S100000x8_1_0_0_1.siIdx j c = ix2 (n0 := 100000) (n1 := 1) (j 0) 0 := by
  funext b
  match b with
  | ⟨0, _⟩ => rfl
  | ⟨1, _⟩ => exact Fin.ext (Nat.lt_one_iff.mp c.isLt)

theorem start8_0 (j : S100000x8.Idx) (idx : IVec S100000x1 32) :
    scatter_S256x8_S100000x1_S100000x8_1_0_0_1.start j idx 0 = (idx (ix2 (n0 := 100000) (n1 := 1) (j 0) 0)).toInt := by
  unfold ScatterDims.start
  rw [dif_pos (show (0 : Fin S256x8.rank) ∈ scatter_S256x8_S100000x1_S100000x8_1_0_0_1.scatterDimsToOperandDims by decide), siIdx8]

theorem start8_1 (j : S100000x8.Idx) (idx : IVec S100000x1 32) :
    scatter_S256x8_S100000x1_S100000x8_1_0_0_1.start j idx 1 = 0 := by
  unfold ScatterDims.start
  rw [dif_neg (show ¬(1 : Fin S256x8.rank) ∈ scatter_S256x8_S100000x1_S100000x8_1_0_0_1.scatterDimsToOperandDims by decide)]

theorem window8_0 (j : S100000x8.Idx) : scatter_S256x8_S100000x1_S100000x8_1_0_0_1.window j 0 = 0 := by
  unfold ScatterDims.window
  rw [dif_neg (show ¬(0 : Fin S256x8.rank) ∈ scatter_S256x8_S100000x1_S100000x8_1_0_0_1.sKept by decide)]

theorem window8_1 (j : S100000x8.Idx) : scatter_S256x8_S100000x1_S100000x8_1_0_0_1.window j 1 = (j 1).val := by
  unfold ScatterDims.window
  rw [dif_pos (show (1 : Fin S256x8.rank) ∈ scatter_S256x8_S100000x1_S100000x8_1_0_0_1.sKept by decide)]
  rfl

/-- An update (n, k) lands on (g, k') exactly when the id word of n, read signed, is g and k = k'. -/
theorem resultIdx8 (j : S100000x8.Idx) (idx : IVec S100000x1 32) (i : S256x8.Idx) :
    scatter_S256x8_S100000x1_S100000x8_1_0_0_1.resultIdx? j idx = some i
      ↔ (idx (ix2 (n0 := 100000) (n1 := 1) (j 0) 0)).toInt = ((i 0).val : Int) ∧ (j 1).val = (i 1).val := by
  have s0 := start8_0 j idx
  have s1 := start8_1 j idx
  have w0 := window8_0 j
  have w1 := window8_1 j
  have hi0 : (i 0).val < 256 := (i 0).isLt
  have hi1 : (i 1).val < 8 := (i 1).isLt
  have hj1 : (j 1).val < 8 := (j 1).isLt
  unfold ScatterDims.resultIdx?
  split
  · rename_i h
    have h0 := h 0
    have h1 := h 1
    rw [s0, w0] at h0
    rw [s1, w1] at h1
    constructor
    · intro e
      have e' := Option.some.inj e
      have e0 : (scatter_S256x8_S100000x1_S100000x8_1_0_0_1.start j idx 0 + (scatter_S256x8_S100000x1_S100000x8_1_0_0_1.window j 0 : Int)).toNat = (i 0).val := congrArg (fun f => (f 0).val) e'
      have e1 : (scatter_S256x8_S100000x1_S100000x8_1_0_0_1.start j idx 1 + (scatter_S256x8_S100000x1_S100000x8_1_0_0_1.window j 1 : Int)).toNat = (i 1).val := congrArg (fun f => (f 1).val) e'
      rw [s0, w0] at e0
      rw [s1, w1] at e1
      constructor <;> omega
    · rintro ⟨a, b⟩
      refine congrArg some (funext fun c => Fin.ext ?_)
      match c with
      | ⟨0, _⟩ =>
        show (scatter_S256x8_S100000x1_S100000x8_1_0_0_1.start j idx 0 + (scatter_S256x8_S100000x1_S100000x8_1_0_0_1.window j 0 : Int)).toNat = (i 0).val
        rw [s0, w0]; omega
      | ⟨1, _⟩ =>
        show (scatter_S256x8_S100000x1_S100000x8_1_0_0_1.start j idx 1 + (scatter_S256x8_S100000x1_S100000x8_1_0_0_1.window j 1 : Int)).toNat = (i 1).val
        rw [s1, w1]; omega
  · rename_i h
    constructor
    · intro e; exact absurd e (by simp)
    · rintro ⟨a, b⟩
      exfalso
      apply h
      intro c
      match c with
      | ⟨0, _⟩ =>
        show 0 ≤ scatter_S256x8_S100000x1_S100000x8_1_0_0_1.start j idx 0 + (scatter_S256x8_S100000x1_S100000x8_1_0_0_1.window j 0 : Int) ∧ scatter_S256x8_S100000x1_S100000x8_1_0_0_1.start j idx 0 + (scatter_S256x8_S100000x1_S100000x8_1_0_0_1.window j 0 : Int) < ((256 : Nat) : Int)
        rw [s0, w0]; omega
      | ⟨1, _⟩ =>
        show 0 ≤ scatter_S256x8_S100000x1_S100000x8_1_0_0_1.start j idx 1 + (scatter_S256x8_S100000x1_S100000x8_1_0_0_1.window j 1 : Int) ∧ scatter_S256x8_S100000x1_S100000x8_1_0_0_1.start j idx 1 + (scatter_S256x8_S100000x1_S100000x8_1_0_0_1.window j 1 : Int) < ((8 : Nat) : Int)
        rw [s1, w1]; omega

/-- The scatter-add into (g, k) is the operand's entry plus the sum, over the nodes whose id word is the word of g,
    of their update at class k. -/
theorem scatterAdd8_apply (x : FVec Ideal S256x8 .f32) (idx : IVec S100000x1 32) (upd : FVec Ideal S100000x8 .f32)
    (i : S256x8.Idx) :
    Host.scatterAdd scatter_S256x8_S100000x1_S100000x8_1_0_0_1 x idx upd i
      = x i + ∑ n : Fin 100000, if idx (ix2 (n0 := 100000) (n1 := 1) n 0) = BitVec.ofNat 32 (i 0).val
          then upd (ix2 (n0 := 100000) (n1 := 8) n (i 1)) else 0 := by
  show Ideal.hostScatterAdd scatter_S256x8_S100000x1_S100000x8_1_0_0_1 x idx upd i = _
  unfold Ideal.hostScatterAdd
  refine congrArg (x i + ·) ?_
  rw [Finset.sum_filter, sum_idx2]
  refine Finset.sum_congr rfl fun n _ => ?_
  have key : ∀ b : Fin 8, scatter_S256x8_S100000x1_S100000x8_1_0_0_1.resultIdx? (ix2 (n0 := 100000) (n1 := 8) n b) idx = some i
      ↔ (idx (ix2 (n0 := 100000) (n1 := 1) n 0) = BitVec.ofNat 32 (i 0).val ∧ b = i 1) := by
    intro b
    rw [resultIdx8, toInt_eq_iff_ofNat _ _ (i 0).isLt]
    exact and_congr Iff.rfl Fin.ext_iff.symm
  by_cases hc : idx (ix2 (n0 := 100000) (n1 := 1) n 0) = BitVec.ofNat 32 (i 0).val
  · rw [if_pos hc]
    refine (Fintype.sum_eq_single (⟨(i 1).val, (i 1).isLt⟩ : Fin 8) fun b hb => ?_).trans ?_
    · exact if_neg fun e => hb ((key b).1 e).2
    · exact if_pos ((key _).2 ⟨hc, rfl⟩)
  · rw [if_neg hc]
    exact Finset.sum_eq_zero fun b _ => if_neg fun e => hc ((key b).1 e).1

/-! ## The scatter into 256 x 1 -/

/-- Every update index reads its start from the id word of its node: row (n, 0) of the ids. -/
theorem siIdx1 (j : S100000x1.Idx) (c : Fin scatter_S256x1_S100000x1_S100000x1_1_0_0_1.scatterDimsToOperandDims.length) :
    scatter_S256x1_S100000x1_S100000x1_1_0_0_1.siIdx j c = ix2 (n0 := 100000) (n1 := 1) (j 0) 0 := by
  funext b
  match b with
  | ⟨0, _⟩ => rfl
  | ⟨1, _⟩ => exact Fin.ext (Nat.lt_one_iff.mp c.isLt)

theorem start1_0 (j : S100000x1.Idx) (idx : IVec S100000x1 32) :
    scatter_S256x1_S100000x1_S100000x1_1_0_0_1.start j idx 0 = (idx (ix2 (n0 := 100000) (n1 := 1) (j 0) 0)).toInt := by
  unfold ScatterDims.start
  rw [dif_pos (show (0 : Fin S256x1.rank) ∈ scatter_S256x1_S100000x1_S100000x1_1_0_0_1.scatterDimsToOperandDims by decide), siIdx1]

theorem start1_1 (j : S100000x1.Idx) (idx : IVec S100000x1 32) :
    scatter_S256x1_S100000x1_S100000x1_1_0_0_1.start j idx 1 = 0 := by
  unfold ScatterDims.start
  rw [dif_neg (show ¬(1 : Fin S256x1.rank) ∈ scatter_S256x1_S100000x1_S100000x1_1_0_0_1.scatterDimsToOperandDims by decide)]

theorem window1_0 (j : S100000x1.Idx) : scatter_S256x1_S100000x1_S100000x1_1_0_0_1.window j 0 = 0 := by
  unfold ScatterDims.window
  rw [dif_neg (show ¬(0 : Fin S256x1.rank) ∈ scatter_S256x1_S100000x1_S100000x1_1_0_0_1.sKept by decide)]

theorem window1_1 (j : S100000x1.Idx) : scatter_S256x1_S100000x1_S100000x1_1_0_0_1.window j 1 = (j 1).val := by
  unfold ScatterDims.window
  rw [dif_pos (show (1 : Fin S256x1.rank) ∈ scatter_S256x1_S100000x1_S100000x1_1_0_0_1.sKept by decide)]
  rfl

/-- An update (n, k) lands on (g, k') exactly when the id word of n, read signed, is g and k = k'. -/
theorem resultIdx1 (j : S100000x1.Idx) (idx : IVec S100000x1 32) (i : S256x1.Idx) :
    scatter_S256x1_S100000x1_S100000x1_1_0_0_1.resultIdx? j idx = some i
      ↔ (idx (ix2 (n0 := 100000) (n1 := 1) (j 0) 0)).toInt = ((i 0).val : Int) ∧ (j 1).val = (i 1).val := by
  have s0 := start1_0 j idx
  have s1 := start1_1 j idx
  have w0 := window1_0 j
  have w1 := window1_1 j
  have hi0 : (i 0).val < 256 := (i 0).isLt
  have hi1 : (i 1).val < 1 := (i 1).isLt
  have hj1 : (j 1).val < 1 := (j 1).isLt
  unfold ScatterDims.resultIdx?
  split
  · rename_i h
    have h0 := h 0
    have h1 := h 1
    rw [s0, w0] at h0
    rw [s1, w1] at h1
    constructor
    · intro e
      have e' := Option.some.inj e
      have e0 : (scatter_S256x1_S100000x1_S100000x1_1_0_0_1.start j idx 0 + (scatter_S256x1_S100000x1_S100000x1_1_0_0_1.window j 0 : Int)).toNat = (i 0).val := congrArg (fun f => (f 0).val) e'
      have e1 : (scatter_S256x1_S100000x1_S100000x1_1_0_0_1.start j idx 1 + (scatter_S256x1_S100000x1_S100000x1_1_0_0_1.window j 1 : Int)).toNat = (i 1).val := congrArg (fun f => (f 1).val) e'
      rw [s0, w0] at e0
      rw [s1, w1] at e1
      constructor <;> omega
    · rintro ⟨a, b⟩
      refine congrArg some (funext fun c => Fin.ext ?_)
      match c with
      | ⟨0, _⟩ =>
        show (scatter_S256x1_S100000x1_S100000x1_1_0_0_1.start j idx 0 + (scatter_S256x1_S100000x1_S100000x1_1_0_0_1.window j 0 : Int)).toNat = (i 0).val
        rw [s0, w0]; omega
      | ⟨1, _⟩ =>
        show (scatter_S256x1_S100000x1_S100000x1_1_0_0_1.start j idx 1 + (scatter_S256x1_S100000x1_S100000x1_1_0_0_1.window j 1 : Int)).toNat = (i 1).val
        rw [s1, w1]; omega
  · rename_i h
    constructor
    · intro e; exact absurd e (by simp)
    · rintro ⟨a, b⟩
      exfalso
      apply h
      intro c
      match c with
      | ⟨0, _⟩ =>
        show 0 ≤ scatter_S256x1_S100000x1_S100000x1_1_0_0_1.start j idx 0 + (scatter_S256x1_S100000x1_S100000x1_1_0_0_1.window j 0 : Int) ∧ scatter_S256x1_S100000x1_S100000x1_1_0_0_1.start j idx 0 + (scatter_S256x1_S100000x1_S100000x1_1_0_0_1.window j 0 : Int) < ((256 : Nat) : Int)
        rw [s0, w0]; omega
      | ⟨1, _⟩ =>
        show 0 ≤ scatter_S256x1_S100000x1_S100000x1_1_0_0_1.start j idx 1 + (scatter_S256x1_S100000x1_S100000x1_1_0_0_1.window j 1 : Int) ∧ scatter_S256x1_S100000x1_S100000x1_1_0_0_1.start j idx 1 + (scatter_S256x1_S100000x1_S100000x1_1_0_0_1.window j 1 : Int) < ((1 : Nat) : Int)
        rw [s1, w1]; omega

/-- The scatter-add into (g, k) is the operand's entry plus the sum, over the nodes whose id word is the word of g,
    of their update at class k. -/
theorem scatterAdd1_apply (x : FVec Ideal S256x1 .f32) (idx : IVec S100000x1 32) (upd : FVec Ideal S100000x1 .f32)
    (i : S256x1.Idx) :
    Host.scatterAdd scatter_S256x1_S100000x1_S100000x1_1_0_0_1 x idx upd i
      = x i + ∑ n : Fin 100000, if idx (ix2 (n0 := 100000) (n1 := 1) n 0) = BitVec.ofNat 32 (i 0).val
          then upd (ix2 (n0 := 100000) (n1 := 1) n (i 1)) else 0 := by
  show Ideal.hostScatterAdd scatter_S256x1_S100000x1_S100000x1_1_0_0_1 x idx upd i = _
  unfold Ideal.hostScatterAdd
  refine congrArg (x i + ·) ?_
  rw [Finset.sum_filter, sum_idx2]
  refine Finset.sum_congr rfl fun n _ => ?_
  have key : ∀ b : Fin 1, scatter_S256x1_S100000x1_S100000x1_1_0_0_1.resultIdx? (ix2 (n0 := 100000) (n1 := 1) n b) idx = some i
      ↔ (idx (ix2 (n0 := 100000) (n1 := 1) n 0) = BitVec.ofNat 32 (i 0).val ∧ b = i 1) := by
    intro b
    rw [resultIdx1, toInt_eq_iff_ofNat _ _ (i 0).isLt]
    exact and_congr Iff.rfl Fin.ext_iff.symm
  by_cases hc : idx (ix2 (n0 := 100000) (n1 := 1) n 0) = BitVec.ofNat 32 (i 0).val
  · rw [if_pos hc]
    refine (Fintype.sum_eq_single (⟨(i 1).val, (i 1).isLt⟩ : Fin 1) fun b hb => ?_).trans ?_
    · exact if_neg fun e => hb ((key b).1 e).2
    · exact if_pos ((key _).2 ⟨hc, rfl⟩)
  · rw [if_neg hc]
    exact Finset.sum_eq_zero fun b _ => if_neg fun e => hc ((key b).1 e).1

/-! ## The three stages -/

/-- The class logits: the dense product with the read-out weights, plus the bias row. -/
theorem v112_logits (x0 : (⟨S100000x64, .f32⟩ : BufTy).Contents (Elt Ideal)) (x1 : (⟨S2x1250000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x8, .f32⟩ : BufTy).Contents (Elt Ideal)) (x8 : (⟨S8, .f32⟩ : BufTy).Contents (Elt Ideal)) :
    val_main_v112 (F := Ideal) x0 x1 x3 x4 x5 x6 x7 x8 = Cert.Spec.logits (val_main_v108 (F := Ideal) x0 x1 x3 x4 x5 x6) x7 x8 := by
  funext i
  have el : ∀ k : Fin 64, lidx_main_v109 i k = ix2 (n0 := 100000) (n1 := 64) (i 0) k :=
    fun k => funext fun a => by match a with | ⟨0, _⟩ => rfl | ⟨1, _⟩ => rfl
  have er : ∀ k : Fin 64, ridx_main_v109 i k = ix2 (n0 := 64) (n1 := 8) k (i 1) :=
    fun k => funext fun a => by match a with | ⟨0, _⟩ => rfl | ⟨1, _⟩ => rfl
  have e8 : idx_main_v110 (idx_main_v111 i) = ix1 (n := 8) (i 1) :=
    funext fun a => by match a with | ⟨0, _⟩ => rfl
  rw [val_main_v112_apply, val_main_v109_apply, val_main_v111_apply, val_main_v110_apply, e8, Ideal.addf_def]
  generalize (val_main_v108 (F := Ideal) x0 x1 x3 x4 x5 x6) = h
  show _ = (∑ k : Fin 64, h (ix2 (n0 := 100000) (n1 := 64) (i 0) k) * x7 (ix2 (n0 := 64) (n1 := 8) k (i 1)))
    + x8 (ix1 (n := 8) (i 1))
  refine congrArg (· + x8 (ix1 (n := 8) (i 1))) (Finset.sum_congr rfl fun k _ => ?_)
  rw [el, er]

/-- The first scatter: the sums of the logits over the nodes of each graph. -/
theorem ref_v115 (x0 : (⟨S100000x64, .f32⟩ : BufTy).Contents (Elt Ideal)) (x1 : (⟨S2x1250000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x8, .f32⟩ : BufTy).Contents (Elt Ideal)) (x8 : (⟨S8, .f32⟩ : BufTy).Contents (Elt Ideal)) :
    val_main_v115 (F := Ideal) x0 x1 x2 x3 x4 x5 x6 x7 x8
      = Cert.Spec.segSum (val_main_v114 (F := Ideal) x2) (Cert.Spec.logits (val_main_v108 (F := Ideal) x0 x1 x3 x4 x5 x6) x7 x8) := by
  funext i
  unfold val_main_v115
  rw [scatterAdd8_apply, val_main_v113_apply, val_main_cst_24_apply, Ideal.ofBits_def, Ideal.ofBits_zero_f32, zero_add,
    v112_logits]
  generalize val_main_v114 (F := Ideal) x2 = b
  generalize Cert.Spec.logits (val_main_v108 (F := Ideal) x0 x1 x3 x4 x5 x6) x7 x8 = lg
  rfl

/-- The second scatter: the number of nodes of each graph. -/
theorem ref_v119 (x2 : (⟨S100000, .i32⟩ : BufTy).Contents (Elt Ideal)) :
    val_main_v119 (F := Ideal) x2 = Cert.Spec.segCnt (val_main_v114 (F := Ideal) x2) := by
  funext i
  have h1 : ∀ q : S100000x1.Idx, val_main_v116 (F := Ideal) q = 1 := fun q => by
    rw [val_main_v116_apply, val_main_cst_25_apply, Ideal.ofBits_def, Ideal.ofBits_one_f32]
  unfold val_main_v119
  rw [scatterAdd1_apply, val_main_v117_apply, val_main_cst_26_apply, Ideal.ofBits_def, Ideal.ofBits_zero_f32, zero_add,
    show val_main_v118 (F := Ideal) x2 = val_main_v114 (F := Ideal) x2 from rfl]
  generalize val_main_v114 (F := Ideal) x2 = b
  show _ = ∑ n : Fin 100000, if b (ix2 (n0 := 100000) (n1 := 1) n 0) = BitVec.ofNat 32 (i 0).val then (1 : EReal) else 0
  refine Finset.sum_congr rfl fun n _ => ?_
  rw [h1]

end Cert.ReferenceIdeal.Stages

end
-- ==== Proof.Ref.Tail.lean ====
/- The reference's read-out, last part: the per-graph sums divided by the per-graph counts clamped below at one are
   the pooled means, and the operations after them are the row-wise log-softmax of the means.
   The maximum-reduce from minus infinity over the eight classes is the greatest entry of the row; the maximum of
   minus infinity and it is it; the sum-reduce from zero of the exponentials is their sum over the eight classes. -/
import proofs.«415612_j18743237280393_1_alg».proof.Proof.Gen.ReferenceIdeal.Read
import proofs.«415612_j18743237280393_1_alg».proof.Proof.Spec
import Idealize.ShloMosaic.Lib.IdealHost
import Idealize.ShloMosaic.Lib.Pipeline.Value
import Idealize.ShloMosaic.Lib.ValueIdx
import Idealize.ShloMosaic.PureOps.Reduce
import Idealize.ShloMosaic.PureOps.Ideal
import Idealize.ShloMosaic.PureOps.Ideal.Laws

noncomputable section

namespace Cert.ReferenceIdeal.Stages

open Cert.ReferenceIdeal Cert.ReferenceIdeal.Gen Cert.ReferenceIdeal.Read Idealize.ShloMosaic Idealize.ShloMosaic.ValueIdx Idealize.ShloMosaic.StableHlo

/-- The least extended real is the pattern of minus infinity. -/
theorem ofBits_negInf_f32 : Ideal.ofBits .f32 0xFF800000#32 = (⊥ : EReal) := by simp [Ideal.ofBits, Ideal.ieee]

/-- From minus infinity, the maximum-reduce of a 256 x 8 array over its second axis is, at row g, the greatest
    entry of the row. -/
theorem reduceMax_row (p : FVec Ideal S256x8 .f32) (g : S256.Idx) :
    Host.reduce FloatOps.maximumf p (constant S_ .f32 0xFF800000#32) reducesTo_S256x8_S256_d1 h_S_ g
      = Cert.Spec.rowMax p (g 0) := by
  have h : S256x8.Reduces [1] S256 := by decide
  rw [Host.reduce_eq_fold_single FloatOps.maximumf p _ reducesTo_S256x8_S256_d1 h h_S_]
  have hl : (p ∘ h.lift g) = fun k : Fin 8 => p (ix2 (n0 := 256) (n1 := 8) (g 0) k) :=
    funext fun k => congrArg p (funext fun a => Fin.ext (by match a with | ⟨0, _⟩ => rfl | ⟨1, _⟩ => rfl))
  refine (congrArg (fun f => Finset.fold FloatOps.maximumf (constant S_ FTy.f32 (4286578688#32) (Shape.Idx.first h_S_)) f Finset.univ) hl).trans ?_
  show Finset.fold max (Ideal.ofBits .f32 0xFF800000#32) (fun k : Fin 8 => p (ix2 (n0 := 256) (n1 := 8) (g 0) k)) Finset.univ = _
  rw [ofBits_negInf_f32]
  rfl

/-- A column spread along the classes reads, at (g, k), the column's entry at row g. -/
theorem col8_apply (c : S256x1.Idx → EReal) (g : Fin 256) (k : Fin 8) :
    broadcastInDim S256x8 ![0, 1] bcast_S256x1_S256x8_0_1 c (ix2 g k) = c (ix2 g 0) :=
  broadcastInDim_apply _ bcast_S256x1_S256x8_0_1 c (ix2 g k) (ix2 g 0) (fun a => match a with
    | ⟨0, _⟩ => by show g.val = if (256 : Nat) = 1 then 0 else g.val; rw [if_neg (by decide)]
    | ⟨1, _⟩ => by show 0 = if (1 : Nat) = 1 then 0 else k.val; rw [if_pos rfl])

/-- The sums over the counts clamped below at one, the count's column spread along the classes: the pooled means. -/
theorem pooled_gen (sums : S256x8.Idx → EReal) (cnt : S256x1.Idx → EReal) :
    Host.divf (F := Ideal) (s := S256x8) (φ := .f32) sums
        (broadcastInDim S256x8 ![0, 1] bcast_S256x1_S256x8_0_1
          (maximumf (F := Ideal) (s := S256x1) (φ := .f32) cnt (val_main_v120 (F := Ideal))))
      = Cert.Spec.pooled sums cnt := by
  funext j
  obtain ⟨g, k, rfl⟩ : ∃ (g : Fin 256) (k : Fin 8), j = ix2 g k := ⟨j 0, j 1, eq_ix2 j⟩
  unfold Cert.Spec.pooled
  refine (congrArg (Ideal.div (sums (ix2 g k))) (col8_apply _ g k)).trans ?_
  show Ideal.div (sums (ix2 g k)) (max (cnt (ix2 g 0)) (val_main_v120 (F := Ideal) (ix2 g 0)))
    = Ideal.div (sums (ix2 g k)) (max (cnt (ix2 g 0)) 1)
  rw [val_main_v120_apply, val_main_cst_27_apply, Ideal.ofBits_def, Ideal.ofBits_one_f32]

section Tail

variable (x0 : (⟨S100000x64, .f32⟩ : BufTy).Contents (Elt Ideal)) (x1 : (⟨S2x1250000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x8, .f32⟩ : BufTy).Contents (Elt Ideal)) (x8 : (⟨S8, .f32⟩ : BufTy).Contents (Elt Ideal))

/-- The row maximum the program forms: the maximum of minus infinity and the reduce. -/
theorem v2_row (g : S256.Idx) :
    val_main_call1_v2 (F := Ideal) x0 x1 x2 x3 x4 x5 x6 x7 x8 g = Cert.Spec.rowMax (val_main_v123 (F := Ideal) x0 x1 x2 x3 x4 x5 x6 x7 x8) (g 0) := by
  rw [val_main_call1_v2_apply, val_main_call1_v1_apply, val_main_call1_cst_0_apply]
  unfold val_main_call1_v0 val_main_call1_cst
  rw [reduceMax_row, Ideal.maximumf_def, Ideal.ofBits_def, ofBits_negInf_f32, bot_sup_eq]

/-- The entries shifted by their row's maximum. -/
theorem v5_shift (i : S256x8.Idx) :
    val_main_call1_v5 (F := Ideal) x0 x1 x2 x3 x4 x5 x6 x7 x8 i = (val_main_v123 (F := Ideal) x0 x1 x2 x3 x4 x5 x6 x7 x8) i - Cert.Spec.rowMax (val_main_v123 (F := Ideal) x0 x1 x2 x3 x4 x5 x6 x7 x8) (i 0) := by
  rw [val_main_call1_v5_apply, val_main_call1_v4_apply, val_main_call1_v3_apply, v2_row]
  generalize (val_main_v123 (F := Ideal) x0 x1 x2 x3 x4 x5 x6 x7 x8) = p
  rfl

/-- The row sums of the exponentials of the shifted entries. -/
theorem v7_sum (g : S256.Idx) :
    val_main_call1_v7 (F := Ideal) x0 x1 x2 x3 x4 x5 x6 x7 x8 g
      = ∑ k : Fin 8, Ideal.exp ((val_main_v123 (F := Ideal) x0 x1 x2 x3 x4 x5 x6 x7 x8) (ix2 (n0 := 256) (n1 := 8) (g 0) k) - Cert.Spec.rowMax (val_main_v123 (F := Ideal) x0 x1 x2 x3 x4 x5 x6 x7 x8) (g 0)) := by
  rw [val_main_call1_v7_apply, val_main_call1_cst_1_apply, Ideal.ofBits_def, Ideal.ofBits_zero_f32, zero_add]
  refine Finset.sum_congr rfl fun k _ => ?_
  have e : idx_main_call1_v7 g k = ix2 (n0 := 256) (n1 := 8) (g 0) k :=
    funext fun a => by match a with | ⟨0, _⟩ => rfl | ⟨1, _⟩ => rfl
  rw [val_main_call1_v6_apply, v5_shift, e]
  generalize (val_main_v123 (F := Ideal) x0 x1 x2 x3 x4 x5 x6 x7 x8) = p
  rfl

/-- The tail of the program is the row-wise log-softmax of the pooled means. -/
theorem tail_eq :
    val_main_v124 (F := Ideal) x0 x1 x2 x3 x4 x5 x6 x7 x8 = Cert.Spec.logSoftmax (val_main_v123 (F := Ideal) x0 x1 x2 x3 x4 x5 x6 x7 x8) := by
  funext i
  rw [val_main_v124_apply, val_main_call1_v10_apply, val_main_call1_v9_apply, val_main_call1_v8_apply, v7_sum, v5_shift]
  generalize (val_main_v123 (F := Ideal) x0 x1 x2 x3 x4 x5 x6 x7 x8) = p
  rfl

/-- The quotient the program forms is the pooled means of its sums and counts. -/
theorem v123_pooled :
    val_main_v123 (F := Ideal) x0 x1 x2 x3 x4 x5 x6 x7 x8
      = Cert.Spec.pooled (val_main_v115 (F := Ideal) x0 x1 x2 x3 x4 x5 x6 x7 x8) (val_main_v119 (F := Ideal) x2) := by
  unfold val_main_v123 val_main_v122 val_main_v121
  exact pooled_gen _ _

/-- The read-out: the row-wise log-softmax of the pooled means of the sums and the counts. -/
theorem ref_tail :
    val_main_v124 (F := Ideal) x0 x1 x2 x3 x4 x5 x6 x7 x8
      = Cert.Spec.logSoftmax (Cert.Spec.pooled (val_main_v115 (F := Ideal) x0 x1 x2 x3 x4 x5 x6 x7 x8) (val_main_v119 (F := Ideal) x2)) :=
  (tail_eq x0 x1 x2 x3 x4 x5 x6 x7 x8).trans (congrArg Cert.Spec.logSoftmax (v123_pooled x0 x1 x2 x3 x4 x5 x6 x7 x8))

end Tail

end Cert.ReferenceIdeal.Stages

end
-- ==== Proof.Bridge.Host0.lean ====
/- After the kernel program's first stretch of host operations its buffers hold what the reference computes at the
   matching places: the inverse root degrees (the kernel program counts the in-edges from zero and then adds the
   self loop's one, the reference counts from one: the same sum), the edge weights (the product of the two end
   points' inverse root degrees), the squared inverse root degrees as a column, the graph ids as a column, and the
   two index vectors of the edge list. -/
import proofs.«415612_j18743237280393_1_alg».proof.Proof.KI.Fold
import proofs.«415612_j18743237280393_1_alg».proof.Proof.Gen.ReferenceIdeal.Read
import Idealize.ShloMosaic.Lib.StableHlo.Run
import Idealize.ShloMosaic.Lib.Pipeline.Value
import Idealize.ShloMosaic.PureOps.Ideal
import Idealize.ShloMosaic.Lib.ValueIdx

set_option maxRecDepth 16384

noncomputable section

namespace Cert.Bridge

open Cert.KernelIdeal Cert.KernelIdeal.Gen Cert.KernelIdeal.Hand
open Idealize.ShloMosaic Idealize.ShloMosaic.TcCoe Idealize.SL.Sem Idealize.ShloMosaic.StableHlo
open Cert.ReferenceIdeal.Read

/-- Adding an array after an accumulating scatter is scattering into the array's sum with the start: at each index
    both are the start entry, the added entry and the sum of the updates that land there, in two orders. -/
theorem scatterAdd_addf {s si su : Shape} {w : Nat} (d : ScatterDims s si su) (x y : FVec Ideal s .f32) (idx : IVec si w)
    (u : FVec Ideal su .f32) :
    addf (Host.scatterAdd d x idx u) y = Host.scatterAdd d (addf x y) idx u := by
  funext i
  simp only [addf, Host.scatterAdd, Ideal.hostScatterAdd_def, Ideal.hostScatterAdd, Ideal.addf_def]
  exact add_right_comm _ _ _

/-- Zeros plus ones are ones. -/
theorem zeros_add_ones :
    addf (F := Ideal) (broadcastInDim S100000 ![] bcast_S_S100000 (constant S_ .f32 0#32))
        (broadcastInDim S100000 ![] bcast_S_S100000 (constant S_ .f32 1065353216#32))
      = broadcastInDim S100000 ![] bcast_S_S100000 (constant S_ .f32 1065353216#32) := by
  funext i
  simp only [addf, Ideal.addf_def]
  rw [broadcastInDim_apply _ bcast_S_S100000 (constant (F := Ideal) S_ .f32 0#32) i (fun a => a.elim0) (fun a => a.elim0)]
  simp only [constant, Ideal.ofBits_def, Ideal.ofBits_zero_f32, zero_add]

/-- Entry (n, 0) of a column of 100000 sits at the row-major position of entry n of the vector. -/
theorem col_pos (i : S100000x1.Idx) :
    (S100000.rowMajor (fun a : Fin 1 => match a with | ⟨0, _⟩ => (⟨(i 0).val, (i 0).isLt⟩ : Fin 100000))).val = (S100000x1.rowMajor i).val := by
  rw [Shape.rowMajor_val_one, Shape.rowMajor_val_two]
  have h1 : (i 1).val = 0 := by have := (i 1).isLt; simp at this; omega
  show (i 0).val = (i 0).val * 1 + (i 1).val
  omega

variable (m : (ℓ : Loc nD τ sig) → Buf (Elt Ideal) ℓ) (c : Dev nD)

/-- The inverse root degrees. -/
theorem h0_dinv : W1 m c main_v15 = val_main_v14 (F := Ideal) (m ((c : Thread nD τ).loc main_arg1)) := by
  show StableHlo.after hostOps0 (W0 m c) (Proc.devRef .tc main_v15) = _
  after_results_simp
  rw [scatterAdd_addf, zeros_add_ones]
  rfl

/-- The edge weights: the product of the inverse root degrees at an edge's two end points. -/
theorem h0_norm : W1 m c main_v30 = val_main_v29 (F := Ideal) (m ((c : Thread nD τ).loc main_arg1)) := by
  show StableHlo.after hostOps0 (W0 m c) (Proc.devRef .tc main_v30) = _
  after_results_simp
  rw [scatterAdd_addf, zeros_add_ones]
  rfl

/-- The two index vectors of the edge list: its first and its second row. -/
theorem h0_src : W1 m c main_v1 = val_main_v1 (F := Ideal) (m ((c : Thread nD τ).loc main_arg1)) := by
  show StableHlo.after hostOps0 (W0 m c) (Proc.devRef .tc main_v1) = _
  after_results_simp
  rfl
theorem h0_dst : W1 m c main_v3 = val_main_v3 (F := Ideal) (m ((c : Thread nD τ).loc main_arg1)) := by
  show StableHlo.after hostOps0 (W0 m c) (Proc.devRef .tc main_v3) = _
  after_results_simp
  rfl

/-- The squared inverse root degrees as a column: the kernel program re-lays the vector out as a column, the
    reference spreads it along a new unit axis; entry (n, 0) of either is the vector's entry n. -/
theorem h0_d2 : W1 m c main_v32 = val_main_v49 (F := Ideal) (m ((c : Thread nD τ).loc main_arg1)) := by
  show StableHlo.after hostOps0 (W0 m c) (Proc.devRef .tc main_v32) = _
  after_results_simp
  rw [scatterAdd_addf, zeros_add_ones]
  funext i
  rw [val_main_v49_apply]
  refine (shapeCast_apply _ shapeCasts_S100000_S100000x1 i (idx_main_v49 i) (col_pos i)).trans ?_
  rfl

/-- The graph ids as a column, likewise. -/
theorem h0_batch : W1 m c main_v33 = val_main_v114 (F := Ideal) (m ((c : Thread nD τ).loc main_arg2)) := by
  show StableHlo.after hostOps0 (W0 m c) (Proc.devRef .tc main_v33) = _
  after_results_simp
  funext i
  rw [val_main_v114_apply]
  exact shapeCast_apply _ shapeCasts_S100000_S100000x1 i (idx_main_v114 i) (col_pos i)

/-- The reference computes the degrees, their inverse roots and the edge weights a second time for its second
    layer, by the same operations of the same edge list: the same arrays. -/
theorem ref_dinv_again (x1 : (⟨Cert.ReferenceIdeal.S2x1250000, .i32⟩ : BufTy).Contents (Elt Ideal)) :
    val_main_v67 (F := Ideal) x1 = val_main_v14 (F := Ideal) x1 := rfl
theorem ref_norm_again (x1 : (⟨Cert.ReferenceIdeal.S2x1250000, .i32⟩ : BufTy).Contents (Elt Ideal)) :
    val_main_v82 (F := Ideal) x1 = val_main_v29 (F := Ideal) x1 := rfl
theorem ref_d2_again (x1 : (⟨Cert.ReferenceIdeal.S2x1250000, .i32⟩ : BufTy).Contents (Elt Ideal)) :
    val_main_v102 (F := Ideal) x1 = val_main_v49 (F := Ideal) x1 := rfl

end Cert.Bridge

end
-- ==== Proof.KI.Val0.lean ====
/- The first dense projection, kernel side: what region 0 leaves in its output array. A grid point multiplies one
   block of 5000 rows of the features by the whole 64 x 64 weight matrix; entry (p, q) of the product block is the sum
   over the 64 features k of (row p, feature k) times (weight k, q), the change of float format being the identity on
   the extended reals and the accumulator starting at zero. Row r of the block of point t is row 5000 t + r of the
   array, the weight matrix is the same at every point, and the twenty blocks tile the 100000 rows: so the array ends
   holding the projection of the features by the weights, entry by entry. -/
import proofs.«415612_j18743237280393_1_alg».proof.Proof.KI.R0
import proofs.«415612_j18743237280393_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The zero offsets of a whole-buffer rectangle, as the constant function. -/
theorem zero_off0 : (![0, 0] : Fin 2 → Nat) = fun _ => 0 := funext fun a => by fin_cases a <;> rfl

/-! ## One entry of the product block -/

/-- The left operand of the block product is read at the output's row … -/
theorem lhs_blk0_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and at the contracted feature; -/
theorem lhs_blk0_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand at the contracted feature … -/
theorem rhs_blk0_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … and at the output's column. -/
theorem rhs_blk0_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (p, q) of the product of a row block and the weights: the sum over the features. -/
theorem pay0_apply (x0 : Vec Ideal S5000x64 .f32) (x1 : Vec Ideal S64x64 .f32) (p : Fin 5000) (q : Fin 64) :
    k0_pay1 (F := Ideal) x0 x1 (ix2 p q) = ∑ k : Fin 64, x0 (ix2 p k) * x1 (ix2 k q) := by
  unfold k0_pay1
  refine (Ideal.matmul_constant_zero_apply dot_S5000x64_S64x64_S5000x64_1_0_0_1_n_n none _ _ (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_blk0_0 _ _
    | ⟨1, _⟩ => exact (lhs_blk0_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_blk0_0 _ _).trans hk
    | ⟨1, _⟩ => exact rhs_blk0_1 _ _)
  rw [el, er]
  rfl

/-- The same entry against whole arrays: if row `j 0` of the block is row `i 0` of the features, and column `j 1`
    of the block's weights is column `i 1` of the weights, entry `j` of the product block is entry `i` of the projection. -/
theorem p0_entry (A : S100000x64.Idx → EReal) (W : S64x64.Idx → EReal)
    (x0 : Vec Ideal S5000x64 .f32) (x1 : Vec Ideal S64x64 .f32) (j : S5000x64.Idx) (i : S100000x64.Idx)
    (hx0 : ∀ k : Fin 64, x0 (ix2 (j 0) k) = A (ix2 (i 0) k))
    (hx1 : ∀ k : Fin 64, x1 (ix2 k (j 1)) = W (ix2 k (i 1))) :
    k0_pay1 (F := Ideal) x0 x1 j = Cert.Spec.proj A W i := by
  obtain ⟨p, q, rfl⟩ : ∃ (p : Fin 5000) (q : Fin 64), j = ix2 p q := ⟨j 0, j 1, eq_ix2 j⟩
  refine (pay0_apply x0 x1 p q).trans ?_
  show ∑ k : Fin 64, x0 (ix2 p k) * x1 (ix2 k q) = ∑ k : Fin 64, A (ix2 (i 0) k) * W (ix2 k (i 1))
  exact Finset.sum_congr rfl fun k _ => congrArg₂ (· * ·) (hx0 k) (hx1 k)

/-! ## The blocks of a grid point -/

/-- The block indices of the three windows, decided once over the twenty points: the features and the output move
    down one block of rows per point, the weights stay. -/
theorem p0_idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the projection of the features by the weights as the region finds them. -/
theorem p0_flushed_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (Cert.Spec.proj (V c main_arg0) (V c main_arg3)) := by
  show (cfg0.win 2).cut (grid0.coords t) ((dat0 (F := Ideal) V c).after 2 t) = _
  rw [after0_2]
  unfold out0
  rw [View.canon_unit_zero zero_off0]
  simp only [View.ld_unit_zero (S := S5000x64) zero_off0, View.ld_unit_zero (S := S64x64) zero_off0]
  obtain ⟨e00, e01, e10, e11, e20, e21⟩ := p0_idx_facts t
  funext j
  refine p0_entry (V c main_arg0) (V c main_arg3) (iblk0 V c 0 t) (iblk0 V c 1 t) j (((cfg0.win 2).blk t).view.emb j) (fun k => ?_) (fun k => ?_)
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; rw [e00, e20]
    | ⟨1, _⟩ => show win0_0.index t (1 : Fin 2) * 64 + 1 * k.val = k.val; rw [e01]; omega
  · show V c main_arg3 (((cfg0.win 1).blk t).view.emb (ix2 k (j 1))) = V c main_arg3 (ix2 k ((((cfg0.win 2).blk t).view.emb j) 1))
    refine congrArg (V c main_arg3) (funext fun a => Fin.ext ?_)
    match a with
    | ⟨0, _⟩ => show win0_1.index t (0 : Fin 2) * 64 + 1 * k.val = k.val; rw [e10]; omega
    | ⟨1, _⟩ => show win0_1.index t (1 : Fin 2) * 64 + 1 * (j 1).val = win0_2.index t (1 : Fin 2) * 64 + 1 * (j 1).val; rw [e11, e21]

/-! ## The twenty blocks tile the array -/

/-- An index of the array is in point `t`'s block iff each coordinate is in the block's range on its axis. -/
theorem p0_mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v34).slice (win0_2.rect t)).set ↔ _
  rw [View.set_slice_whole, Rect.mem_set_unit]
  exact Iff.rfl

/-- Row `n` of the array is in the block of point `n / 5000`, which is written back. -/
theorem p0_rows_cover (i : S100000x64.Idx) :
    ∃ t : Fin cfg0.N, (cfg0.win 2).flush t = true ∧ i ∈ ((cfg0.win 2).blk t).view.set := by
  have hN : cfg0.N = 20 := N_0
  have hi0 : (i 0).val < 100000 := idx2_lt0 i
  have hi1 : (i 1).val < 64 := idx2_lt1 i
  have ht : (i 0).val / 5000 < cfg0.N := by rw [hN]; omega
  refine ⟨⟨(i 0).val / 5000, ht⟩, flush0_2 _, ?_⟩
  obtain ⟨-, -, -, -, e20, e21⟩ := p0_idx_facts ⟨(i 0).val / 5000, ht⟩
  have e20' : win0_2.index ⟨(i 0).val / 5000, ht⟩ (0 : Fin 2) = (i 0).val / 5000 := e20
  rw [p0_mem_blk]
  intro a
  match a with
  | ⟨0, _⟩ => show win0_2.index ⟨(i 0).val / 5000, ht⟩ (0 : Fin 2) * 5000 ≤ (i 0).val ∧ (i 0).val < win0_2.index ⟨(i 0).val / 5000, ht⟩ (0 : Fin 2) * 5000 + 5000; rw [e20']; omega
  | ⟨1, _⟩ => show win0_2.index ⟨(i 0).val / 5000, ht⟩ (1 : Fin 2) * 64 ≤ (i 1).val ∧ (i 1).val < win0_2.index ⟨(i 0).val / 5000, ht⟩ (1 : Fin 2) * 64 + 64; rw [e21]; omega

/-- THE ARRAY after the region: the projection of the features by the weights, entry by entry. -/
theorem arr0_eq (V : (c : Dev nD) → (b : Ref sig .tc) → Buf (Elt Ideal) ((c : Thread nD τ).loc b)) (c : Dev nD) :
    (dat0 (F := Ideal) V c).arrAt 2 cfg0.N = Cert.Spec.proj (V c main_arg0) (V c main_arg3) :=
  (dat0 (F := Ideal) V c).arrAt_eq_of_cover 2 (Cert.Spec.proj (V c main_arg0) (V c main_arg3))
    (fun t _ => p0_flushed_eq V c t) p0_rows_cover

end Cert.KernelIdeal.Hand

end
-- ==== Proof.Bridge.Layer1.lean ====
/- The first layer, up to the aggregation: the kernel program's first projection (region 0's output array) is the
   reference's, and the aggregate the second stretch of host operations computes from it — each edge's source row
   scaled by the edge weight and added into the destination row — is the reference's: the same operations applied
   to the same arrays. -/
import proofs.«415612_j18743237280393_1_alg».proof.Proof.KI.Fold
import proofs.«415612_j18743237280393_1_alg».proof.Proof.KI.Val0
import proofs.«415612_j18743237280393_1_alg».proof.Proof.Ref.Dense
import proofs.«415612_j18743237280393_1_alg».proof.Proof.Bridge.Host0
import Idealize.ShloMosaic.Lib.StableHlo.Run

set_option maxRecDepth 16384

noncomputable section

namespace Cert.Bridge

open Cert.KernelIdeal Cert.KernelIdeal.Gen Cert.KernelIdeal.Hand
open Idealize.ShloMosaic Idealize.ShloMosaic.TcCoe Idealize.SL.Sem Idealize.ShloMosaic.StableHlo
open Cert.ReferenceIdeal.Read
open Cert.ReferenceIdeal.Stages

variable (m : (ℓ : Loc nD τ sig) → Buf (Elt Ideal) ℓ) (c : Dev nD)

/-- An argument array is untouched by the first stretch. -/
theorem w1_arg0 : W1 m c main_arg0 = m ((c : Thread nD τ).loc main_arg0) := W1_of m c main_arg0 (by decide)
theorem w1_arg3 : W1 m c main_arg3 = m ((c : Thread nD τ).loc main_arg3) := W1_of m c main_arg3 (by decide)

/-- The first projection. -/
theorem l1_proj : W2 m c main_v34
    = val_main_v4 (F := Ideal) (m ((c : Thread nD τ).loc main_arg0)) (m ((c : Thread nD τ).loc main_arg3)) := by
  refine (W2_arr m c 2).trans ?_
  rw [arr0_eq (E0 m) c, ref_v4]
  show Cert.Spec.proj (W1 m c main_arg0) (W1 m c main_arg3) = _
  rw [w1_arg0, w1_arg3]

/-- What the first stretch computed is still there after region 0, which changes its output array only. -/
theorem w2_norm : W2 m c main_v30 = val_main_v29 (F := Ideal) (m ((c : Thread nD τ).loc main_arg1)) :=
  (W2_keep m c main_v30 (by decide)).trans (h0_norm m c)
theorem w2_src : W2 m c main_v1 = val_main_v1 (F := Ideal) (m ((c : Thread nD τ).loc main_arg1)) :=
  (W2_keep m c main_v1 (by decide)).trans (h0_src m c)
theorem w2_dst : W2 m c main_v3 = val_main_v3 (F := Ideal) (m ((c : Thread nD τ).loc main_arg1)) :=
  (W2_keep m c main_v3 (by decide)).trans (h0_dst m c)

/-- The first aggregate. -/
theorem l1_agg : W3 m c main_v52
    = val_main_v47 (F := Ideal) (m ((c : Thread nD τ).loc main_arg0)) (m ((c : Thread nD τ).loc main_arg1)) (m ((c : Thread nD τ).loc main_arg3)) := by
  show StableHlo.after hostOps1 (W2 m c) (Proc.devRef .tc main_v52) = _
  after_results_simp
  rw [l1_proj, w2_norm, w2_src, w2_dst]
  rfl

end Cert.Bridge

end
-- ==== Proof.Bridge.Layers.lean ====
/- Stage by stage, the kernel program's buffers hold the reference's values: the finish of the first layer, the
   second projection, the second aggregate, the finish of the second layer, and the read-out — each by the region's
   value (the output array is the stage's function of the arrays the region was entered at), the same function on
   the reference's side, and the fact that a buffer nobody writes in between still holds what it held. -/
import proofs.«415612_j18743237280393_1_alg».proof.Proof.KI.Fold
import proofs.«415612_j18743237280393_1_alg».proof.Proof.KI.R4
import proofs.«415612_j18743237280393_1_alg».proof.Proof.KI.Val1
import proofs.«415612_j18743237280393_1_alg».proof.Proof.KI.Val2
import proofs.«415612_j18743237280393_1_alg».proof.Proof.KI.Val3
import proofs.«415612_j18743237280393_1_alg».proof.Proof.KI.Val4
import proofs.«415612_j18743237280393_1_alg».proof.Proof.Ref.Dense
import proofs.«415612_j18743237280393_1_alg».proof.Proof.Ref.Readout
import proofs.«415612_j18743237280393_1_alg».proof.Proof.Ref.Tail
import proofs.«415612_j18743237280393_1_alg».proof.Proof.Bridge.Host0
import proofs.«415612_j18743237280393_1_alg».proof.Proof.Bridge.Layer1
import Idealize.ShloMosaic.Lib.StableHlo.Run

set_option maxRecDepth 16384

noncomputable section

namespace Cert.Bridge

open Cert.KernelIdeal Cert.KernelIdeal.Gen Cert.KernelIdeal.Hand
open Idealize.ShloMosaic Idealize.ShloMosaic.TcCoe Idealize.SL.Sem Idealize.ShloMosaic.StableHlo
open Cert.ReferenceIdeal.Read
open Cert.ReferenceIdeal.Stages

variable (m : (ℓ : Loc nD τ sig) → Buf (Elt Ideal) ℓ) (c : Dev nD)

/-! ## The first layer's finish -/

theorem w3_proj : W3 m c main_v34 = val_main_v4 (F := Ideal) (m ((c : Thread nD τ).loc main_arg0)) (m ((c : Thread nD τ).loc main_arg3)) :=
  (W3_of m c main_v34 (by decide)).trans (l1_proj m c)
theorem w3_d2 : W3 m c main_v32 = val_main_v49 (F := Ideal) (m ((c : Thread nD τ).loc main_arg1)) :=
  (W3_of m c main_v32 (by decide)).trans ((W2_keep m c main_v32 (by decide)).trans (h0_d2 m c))
theorem w3_arg4 : W3 m c main_arg4 = m ((c : Thread nD τ).loc main_arg4) :=
  (W3_of m c main_arg4 (by decide)).trans ((W2_keep m c main_arg4 (by decide)).trans (W1_of m c main_arg4 (by decide)))

theorem l1_fin : W4 m c main_v53 = val_main_v56 (F := Ideal) (m ((c : Thread nD τ).loc main_arg0)) (m ((c : Thread nD τ).loc main_arg1)) (m ((c : Thread nD τ).loc main_arg3)) (m ((c : Thread nD τ).loc main_arg4)) := by
  refine (W4_arr m c 4).trans ?_
  rw [arr1_eq (E1 m) c, ref_v56]
  show Cert.Spec.finishRelu (W3 m c main_v52) (W3 m c main_v34) (W3 m c main_v32) (W3 m c main_arg4) = _
  rw [l1_agg, w3_proj, w3_d2, w3_arg4]

/-! ## The second projection -/

theorem w4_arg5 : W4 m c main_arg5 = m ((c : Thread nD τ).loc main_arg5) :=
  (W4_keep m c main_arg5 (by decide)).trans ((W3_of m c main_arg5 (by decide)).trans
    ((W2_keep m c main_arg5 (by decide)).trans (W1_of m c main_arg5 (by decide))))

theorem l2_proj : W5 m c main_v54 = val_main_v57 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W5_arr m c 2).trans ?_
  rw [arr2_eq (E2 m) c, ref_v57]
  show Cert.Spec.proj (W4 m c main_v53) (W4 m c main_arg5) = _
  rw [l1_fin, w4_arg5]

/-! ## The second aggregate -/

theorem w5_norm : W5 m c main_v30 = val_main_v29 (F := Ideal) (m ((c : Thread nD τ).loc main_arg1)) :=
  (W5_keep m c main_v30 (by decide)).trans ((W4_keep m c main_v30 (by decide)).trans
    ((W3_of m c main_v30 (by decide)).trans (w2_norm m c)))
theorem w5_src : W5 m c main_v1 = val_main_v1 (F := Ideal) (m ((c : Thread nD τ).loc main_arg1)) :=
  (W5_keep m c main_v1 (by decide)).trans ((W4_keep m c main_v1 (by decide)).trans
    ((W3_of m c main_v1 (by decide)).trans (w2_src m c)))
theorem w5_dst : W5 m c main_v3 = val_main_v3 (F := Ideal) (m ((c : Thread nD τ).loc main_arg1)) :=
  (W5_keep m c main_v3 (by decide)).trans ((W4_keep m c main_v3 (by decide)).trans
    ((W3_of m c main_v3 (by decide)).trans (w2_dst m c)))

theorem l2_agg : W6 m c main_v72 = val_main_v100 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps3 (W5 m c) (Proc.devRef .tc main_v72) = _
  after_results_simp
  rw [l2_proj, w5_norm, w5_src, w5_dst]
  rfl

/-! ## The second layer's finish -/

theorem w6_proj : W6 m c main_v54 = val_main_v57 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (W6_of m c main_v54 (by decide)).trans (l2_proj m c)
theorem w6_d2 : W6 m c main_v32 = val_main_v102 (F := Ideal) (m ((c : Thread nD τ).loc main_arg1)) :=
  (W6_of m c main_v32 (by decide)).trans ((W5_keep m c main_v32 (by decide)).trans ((W4_keep m c main_v32 (by decide)).trans
    ((w3_d2 m c).trans (ref_d2_again _).symm)))
theorem w6_arg6 : W6 m c main_arg6 = m ((c : Thread nD τ).loc main_arg6) :=
  (W6_of m c main_arg6 (by decide)).trans ((W5_keep m c main_arg6 (by decide)).trans ((W4_keep m c main_arg6 (by decide)).trans
    ((W3_of m c main_arg6 (by decide)).trans ((W2_keep m c main_arg6 (by decide)).trans (W1_of m c main_arg6 (by decide))))))

theorem l2_fin : W7 m c main_v73 = val_main_v108 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W7_arr m c 4).trans ?_
  rw [arr3_eq (E3 m) c, ref_v108]
  show Cert.Spec.finish (W6 m c main_v72) (W6 m c main_v54) (W6 m c main_v32) (W6 m c main_arg6) = _
  rw [l2_agg, w6_proj, w6_d2, w6_arg6]

/-! ## The read-out -/

theorem w7_kept (r : Ref sig .tc) (h7 : r ≠ main_v73) (h6 : r ∉ hostOps3_W) (h5 : r ≠ main_v54) (h4 : r ≠ main_v53)
    (h3 : r ∉ hostOps1_W) (h2 : r ≠ main_v34) : W7 m c r = W1 m c r :=
  (W7_keep m c r h7).trans ((W6_of m c r h6).trans ((W5_keep m c r h5).trans ((W4_keep m c r h4).trans
    ((W3_of m c r h3).trans (W2_keep m c r h2)))))
theorem w7_batch : W7 m c main_v33 = val_main_v114 (F := Ideal) (m ((c : Thread nD τ).loc main_arg2)) :=
  (w7_kept m c main_v33 (by decide) (by decide) (by decide) (by decide) (by decide) (by decide)).trans (h0_batch m c)
theorem w7_arg7 : W7 m c main_arg7 = m ((c : Thread nD τ).loc main_arg7) :=
  (w7_kept m c main_arg7 (by decide) (by decide) (by decide) (by decide) (by decide) (by decide)).trans (W1_of m c main_arg7 (by decide))
theorem w7_arg8 : W7 m c main_arg8 = m ((c : Thread nD τ).loc main_arg8) :=
  (w7_kept m c main_arg8 (by decide) (by decide) (by decide) (by decide) (by decide) (by decide)).trans (W1_of m c main_arg8 (by decide))

/-- The reference's result is the read-out of its second layer's output. -/
theorem ref_v124 (x0 : (⟨Cert.ReferenceIdeal.S100000x64, .f32⟩ : BufTy).Contents (Elt Ideal)) (x1 : (⟨Cert.ReferenceIdeal.S2x1250000, .i32⟩ : BufTy).Contents (Elt Ideal))
    (x2 : (⟨Cert.ReferenceIdeal.S100000, .i32⟩ : BufTy).Contents (Elt Ideal)) (x3 : (⟨Cert.ReferenceIdeal.S64x64, .f32⟩ : BufTy).Contents (Elt Ideal))
    (x4 : (⟨Cert.ReferenceIdeal.S64, .f32⟩ : BufTy).Contents (Elt Ideal)) (x5 : (⟨Cert.ReferenceIdeal.S64x64, .f32⟩ : BufTy).Contents (Elt Ideal))
    (x6 : (⟨Cert.ReferenceIdeal.S64, .f32⟩ : BufTy).Contents (Elt Ideal)) (x7 : (⟨Cert.ReferenceIdeal.S64x8, .f32⟩ : BufTy).Contents (Elt Ideal))
    (x8 : (⟨Cert.ReferenceIdeal.S8, .f32⟩ : BufTy).Contents (Elt Ideal)) :
    val_main_v124 (F := Ideal) x0 x1 x2 x3 x4 x5 x6 x7 x8
      = Cert.Spec.readout (val_main_v108 (F := Ideal) x0 x1 x3 x4 x5 x6) x7 x8 (val_main_v114 (F := Ideal) x2) := by
  rw [ref_tail, ref_v115, ref_v119]
  rfl

/-- The kernel program's result array holds the reference's result. -/
theorem result_eq : W8 dat4 m c main_v74 = val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W8_arr dat4 m c 4).trans ?_
  rw [arr4_eq (E4 m) c, ref_v124]
  show Cert.Spec.readout (W7 m c main_v73) (W7 m c main_arg7) (W7 m c main_arg8) (W7 m c main_v33) = _
  rw [l2_fin, w7_arg7, w7_arg8, w7_batch]

end Cert.Bridge

end
-- ==== Proof.lean ====
/- The certificate of a two-layer graph convolution with a pooled log-softmax read-out, written with five kernel
   calls (two dense projections, two "combine" steps, one read-out that accumulates per-graph sums and counts over
   twenty row blocks) among host operations that gather, scale and scatter-add along the edge list, against a plain
   reference of the same network.
   Over the extended reals the two programs compute the same array. The edge-list stages (degrees, their inverse
   roots, the edge weights, the gather / scale / scatter-add aggregation) are the same host operations on both
   sides; the kernel program counts a node's in-edges from zero and adds the self loop's one afterwards where the
   reference counts from one, which is one sum in two orders. A projection kernel's row blocks tile the reference's
   whole matrix product (the change of float format before the product is the identity here). A combine kernel's
   row blocks tile the reference's "aggregate + row * squared inverse root degree + bias", once clamped at zero. The
   read-out kernel's one-hot products, accumulated over the twenty blocks, are the sums over the nodes of each graph
   that the reference forms by an accumulating scatter (a node whose id names no graph contributes to neither; zero
   times anything is zero and sums of extended reals reorder freely), and the last block's division by the clamped
   count, row maximum, exponentials, their sum's logarithm and the two subtractions are the reference's log-softmax.
   Both kernel programs (the printed one, read at machine words, and its idealization) run to the end, fault
   nowhere and leave their arguments as launched: each of the five regions' bodies meets its obligation at every
   grid point, the read-out's two accumulators riding in the region's invariant, and no host operation writes an
   argument. The reference's frame is its run. Nothing was rewritten by the idealization, so it preserves trivially. -/
import proofs.«415612_j18743237280393_1_alg».proof.Defs
import proofs.«415612_j18743237280393_1_alg».proof.Proof.Gen.Kernel
import proofs.«415612_j18743237280393_1_alg».proof.Proof.Gen.KernelIdeal
import proofs.«415612_j18743237280393_1_alg».proof.Proof.Gen.ReferenceIdeal
import proofs.«415612_j18743237280393_1_alg».proof.Proof.Gen.Pre_finite_inputs
import proofs.«415612_j18743237280393_1_alg».proof.Proof.Gen.ReferenceIdeal.Run
import proofs.«415612_j18743237280393_1_alg».proof.Proof.Gen.ReferenceIdeal.Read
import proofs.«415612_j18743237280393_1_alg».proof.Proof.KB.Frame
import proofs.«415612_j18743237280393_1_alg».proof.Proof.KI.Frame
import proofs.«415612_j18743237280393_1_alg».proof.Proof.Bridge.Layers

noncomputable section

namespace Cert.Proof

open Idealize.ShloMosaic Idealize.ShloMosaic.TcCoe Idealize.SL.Sem

/-- The printed kernel program runs and keeps its arguments. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same result array: the kernel program's is
    the last region's output, which holds the reference's last stage of the kernel program's arguments; the
    reference's is that stage of its own arguments, which are the same. -/
theorem algebraic : Cert.algebraic_KernelIdeal_ReferenceIdeal := by
  intro m ρ m' ρ' _ hagree
  refine ⟨fun c => Cert.KernelIdeal.Hand.W8 Cert.KernelIdeal.Hand.dat4 m c Cert.KernelIdeal.main_v74,
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v124_eq]
  refine Eq.trans ?_ (Cert.Bridge.result_eq m c).symm
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
